-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S128x10 .f32) (main_arg17 : FVec F S10 .f32) (main_v63 : IVec S_ 1) (main_v67 : IVec S_ 1) : IVec S_ 1 :=
  let main_v68 : IVec S_ 1 := andi main_v63 main_v67
  let main_v69 : FVec F S128x10 .f32 := Host.absf main_arg16
  let main_cst_26 : FVec F S_ .f32 := constant S_ .f32 0x7F800000#32
  let main_v70 : FVec F S128x10 .f32 := broadcastInDim S128x10 ![] bcast_S_S128x10 main_cst_26
  let main_v71 : IVec S128x10 1 := cmpf .olt main_v69 main_v70
  let main_c_27 : IVec S_ 1 := constantI S_ 1 1#1
  let main_v72 : IVec S_ 1 := (fun x v => Host.reduce IntOp.andi x v reducesTo_S128x10_S_d0_1 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg13 : FVec F S256 .f32) (main_arg14 : FVec F S256x128 .f32) (main_arg15 : FVec F S128 .f32) (main_arg16 : FVec F S128x10 .f32) (main_arg17 : FVec F S10 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S256x256 .f32) (main_arg10 : FVec F S256 .f32) (main_arg11 : FVec F S256x256 .f32) (main_arg12 : FVec F S256x256 .f32) (main_arg13 : FVec F S256 .f32) (main_arg14 : FVec F S256x128 .f32) (main_arg15 : FVec F S128 .f32) (main_arg16 : FVec F S128x10 .f32) (main_arg17 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_v48 main_v49 main_v50

def fn_part1 {F : FTy → Type} [FloatOps F] (main_arg6 : FVec F S128x256 .f32) (main_arg7 : FVec F S256 .f32) (main_arg8 : FVec F S128x256 .f32) (main_arg9 : FVec F S256x256 .f32) (main_arg10 : FVec F S256 .f32) (main_arg11 : FVec F S256x256 .f32) (main_arg12 : FVec F S256x256 .f32) (main_arg13 : FVec F S256 .f32) (main_arg14 : FVec F S256x128 .f32) (main_arg15 : FVec F S128 .f32) (main_arg16 : FVec F S128x10 .f32) (main_arg17 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x256 .f32) (main_arg7 : FVec F S256 .f32) (main_arg8 : FVec F S128x256 .f32) (main_arg9 : FVec F S256x256 .f32) (main_arg10 : FVec F S256 .f32) (main_arg11 : FVec F S256x256 .f32) (main_arg12 : FVec F S256x256 .f32) (main_arg13 : FVec F S256 .f32) (main_arg14 : FVec F S256x128 .f32) (main_arg15 : FVec F S128 .f32) (main_arg16 : FVec F S128x10 .f32) (main_arg17 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x256 : Shape := ⟨2, ![1, 256]⟩
abbrev S50000x256 : Shape := ⟨2, ![50000, 256]⟩
abbrev S5000x256 : Shape := ⟨2, ![5000, 256]⟩
abbrev S800000x256 : Shape := ⟨2, ![800000, 256]⟩
abbrev S50000x1 : Shape := ⟨2, ![50000, 1]⟩
abbrev S1x10 : Shape := ⟨2, ![1, 10]⟩
abbrev S512x10 : Shape := ⟨2, ![512, 10]⟩
abbrev S5000x1 : Shape := ⟨2, ![5000, 1]⟩
abbrev S512x256 : Shape := ⟨2, ![512, 256]⟩
abbrev S1x512 : Shape := ⟨2, ![1, 512]⟩
abbrev S5000x512 : Shape := ⟨2, ![5000, 512]⟩
abbrev S512 : Shape := ⟨1, ![512]⟩
abbrev S512x1 : Shape := ⟨2, ![512, 1]⟩
abbrev S512x128 : Shape := ⟨2, ![512, 128]⟩

abbrev nBuf : Space → Nat
  | .hbm => 78
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x256, .f32⟩
  | .hbm, ⟨7, _⟩ => ⟨S256, .f32⟩
  | .hbm, ⟨8, _⟩ => ⟨S128x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S128x10, .f32⟩
  | .hbm, ⟨17, _⟩ => ⟨S10, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S50000x128, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .bf16⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x256, .f32⟩
  | .hbm, ⟨55, _⟩ => ⟨S50000x256, .f32⟩
  | .hbm, ⟨56, _⟩ => ⟨S50000x256, .bf16⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x256, .bf16⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S1x256, .f32⟩
  | .hbm, ⟨72, _⟩ => ⟨S50000x256, .f32⟩
  | .hbm, ⟨73, _⟩ => ⟨S50000x1, .i32⟩
  | .hbm, ⟨74, _⟩ => ⟨S1x256, .f32⟩
  | .hbm, ⟨75, _⟩ => ⟨S1x128, .f32⟩
  | .hbm, ⟨76, _⟩ => ⟨S1x10, .f32⟩
  | .hbm, ⟨77, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x256, .f32⟩
  | .local _ .vmem, ⟨14, _⟩ => ⟨S1x256, .f32⟩
  | .local _ .vmem, ⟨15, _⟩ => ⟨S128x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S5000x256, .f32⟩
  | .local _ .vmem, ⟨29, _⟩ => ⟨S5000x1, .i32⟩
  | .local _ .vmem, ⟨30, _⟩ => ⟨S5000x1, .i32⟩
  | .local _ .vmem, ⟨31, _⟩ => ⟨S256x256, .f32⟩
  | .local _ .vmem, ⟨32, _⟩ => ⟨S1x256, .f32⟩
  | .local _ .vmem, ⟨33, _⟩ => ⟨S256x128, .f32⟩
  | .local _ .vmem, ⟨34, _⟩ => ⟨S1x128, .f32⟩
  | .local _ .vmem, ⟨35, _⟩ => ⟨S128x10, .f32⟩
  | .local _ .vmem, ⟨36, _⟩ => ⟨S1x10, .f32⟩
  | .local _ .vmem, ⟨37, _⟩ => ⟨S512x10, .f32⟩
  | .local _ .vmem, ⟨38, _⟩ => ⟨S512x256, .f32⟩
  | .local _ .vmem, ⟨39, _⟩ => ⟨S1x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_4 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_scratch0 : Ref sig .tc := ⟨.vmem, 38, rfl⟩
abbrev cc3_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_13 : BitVec 32 := 0#32
  let v27 : BitVec 1 := Scalar.cmpi .ne v26 c0_i32_13
  v27

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x10 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S50000_S50000x1 : S50000.ShapeCasts S50000x1
  shapeCasts_S10_S1x10 : S10.ShapeCasts S1x10
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  reduces_S5000x512_S512 : S5000x512.Reduces [0] S512
  shapeCasts_S512_S1x512 : S512.ShapeCasts S1x512
  transposes_S1x512_p1_0_S512x1 : S1x512.Transposes [1, 0] S512x1
  broadcasts_S512x1_S512x256 : S512x1.Broadcasts S512x256
  broadcasts_S1x256_S512x256 : S1x256.Broadcasts S512x256
  inb_S256x128_S256x128_0_0 : ∀ a, (![0, 0] : Fin 2 → Nat) a + S256x128.size a ≤ S256x128.size a
  h_S256x128 : 0 < S256x128.numel
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x512_S5000x256_S512x256_0_0_1_1_n_n_wf : DotDims.WF S5000x512 S5000x256 S512x256 [0] [0] [1] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x10.size a ≤ S128x10.size a
  hwx3_6 : ∀ i : grid3.Coords, EltTy.bits .f32 = 32 ∨ (Rect.block (s := S128x10) S128x10.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x10.size a ≤ S1x10.size a
  hwx3_7 : ∀ i : grid3.Coords, EltTy.bits .f32 = 32 ∨ (Rect.block (s := S1x10) S1x10.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512x10.size a ≤ S512x10.size a
  hwx3_8 : ∀ i : grid3.Coords, EltTy.bits .f32 = 32 ∨ (Rect.block (s := S512x10) S512x10.size (cc3_transform_8 i) (hinb3_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x512_S5000x256_S512x256_0_0_1_1_n_n : DotDims S5000x512 S5000x256 S512x256 where
  lhsContracting := [0]
  rhsContracting := [0]
  lhsNonContracting := [1]
  rhsNonContracting := [1]
  lhsBatch := []
  rhsBatch := []
  wf := dot_S5000x512_S5000x256_S512x256_0_0_1_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S128x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v49) S1x10.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v50) S512x10.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x256 : Shape := ⟨2, ![50000, 256]⟩
abbrev S1x256 : Shape := ⟨2, ![1, 256]⟩
abbrev S800000x256 : Shape := ⟨2, ![800000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S512x128 : Shape := ⟨2, ![512, 128]⟩
abbrev S512x10 : Shape := ⟨2, ![512, 10]⟩
abbrev S1x10 : Shape := ⟨2, ![1, 10]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128x256, .f32⟩
  | 7 => ⟨S256, .f32⟩
  | 8 => ⟨S128x256, .f32⟩
  | 9 => ⟨S256x256, .f32⟩
  | 10 => ⟨S256, .f32⟩
  | 11 => ⟨S256x256, .f32⟩
  | 12 => ⟨S256x256, .f32⟩
  | 13 => ⟨S256, .f32⟩
  | 14 => ⟨S256x128, .f32⟩
  | 15 => ⟨S128, .f32⟩
  | 16 => ⟨S128x10, .f32⟩
  | 17 => ⟨S10, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S50000x128, .f32⟩
  | 40 => ⟨S50000x128, .f32⟩
  | 41 => ⟨S_, .f32⟩
  | 42 => ⟨S50000x128, .f32⟩
  | 43 => ⟨S50000x128, .i1⟩
  | 44 => ⟨S_, .f32⟩
  | 45 => ⟨S50000x128, .f32⟩
  | 46 => ⟨S50000x128, .i1⟩
  | 47 => ⟨S_, .f32⟩
  | 48 => ⟨S_, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x256, .f32⟩
  | 70 => ⟨S1x256, .f32⟩
  | 71 => ⟨S50000x256, .f32⟩
  | 72 => ⟨S50000x256, .f32⟩
  | 73 => ⟨S50000x256, .f32⟩
  | 74 => ⟨S50000x256, .f32⟩
  | 75 => ⟨S_, .f32⟩
  | 76 => ⟨S50000x256, .f32⟩
  | 77 => ⟨S50000x256, .i1⟩
  | 78 => ⟨S_, .f32⟩
  | 79 => ⟨S50000x256, .f32⟩
  | 80 => ⟨S50000x256, .i1⟩
  | 81 => ⟨S_, .f32⟩
  | 82 => ⟨S_, .f32⟩
  | 83 => ⟨S50000x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S50000x256, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x256, .f32⟩
  | 99 => ⟨S_, .f32⟩
  | 100 => ⟨S50000x256, .f32⟩
  | 101 => ⟨S800000x1, .i32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S50000x256, .f32⟩
  | 108 => ⟨S50000x256, .f32⟩
  | 109 => ⟨S_, .f32⟩
  | 110 => ⟨S50000x256, .f32⟩
  | 111 => ⟨S50000x256, .i1⟩
  | 112 => ⟨S_, .f32⟩
  | 113 => ⟨S50000x256, .f32⟩
  | 114 => ⟨S50000x256, .i1⟩
  | 115 => ⟨S_, .f32⟩
  | 116 => ⟨S_, .f32⟩
  | 117 => ⟨S50000x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S50000x256, .f32⟩
  | 124 => ⟨S_, .f32⟩
  | 125 => ⟨S512x256, .f32⟩
  | 126 => ⟨S50000x1, .i32⟩
  | 127 => ⟨S512x256, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S512, .f32⟩
  | 4 => ⟨S50000x1, .i32⟩
  | 5 => ⟨S512, .f32⟩
  | 6 => ⟨S_, .f32⟩
  | 7 => ⟨S512, .f32⟩
  | 8 => ⟨S512, .f32⟩
  | 9 => ⟨S512x1, .f32⟩
  | 10 => ⟨S512x256, .f32⟩
  | 11 => ⟨S512x256, .f32⟩
  | 12 => ⟨S512x256, .f32⟩
  | 13 => ⟨S1x256, .f32⟩
  | 14 => ⟨S512x256, .f32⟩
  | 15 => ⟨S512x256, .f32⟩
  | 16 => ⟨S_, .f32⟩
  | 17 => ⟨S512x256, .f32⟩
  | 18 => ⟨S512x256, .i1⟩
  | 19 => ⟨S_, .f32⟩
  | 20 => ⟨S512x256, .f32⟩
  | 21 => ⟨S512x256, .i1⟩
  | 22 => ⟨S_, .f32⟩
  | 23 => ⟨S_, .f32⟩
  | 24 => ⟨S512x256, .f32⟩
  | 25 => ⟨S512x256, .f32⟩
  | 26 => ⟨S512x256, .f32⟩
  | 27 => ⟨S_, .f32⟩
  | 28 => ⟨S512x256, .f32⟩
  | 29 => ⟨S512x256, .f32⟩
  | 30 => ⟨S512x256, .f32⟩
  | 31 => ⟨S512x128, .f32⟩
  | 32 => ⟨S1x128, .f32⟩
  | 33 => ⟨S512x128, .f32⟩
  | 34 => ⟨S512x128, .f32⟩
  | 35 => ⟨S_, .f32⟩
  | 36 => ⟨S512x128, .f32⟩
  | 37 => ⟨S512x128, .i1⟩
  | 38 => ⟨S_, .f32⟩
  | 39 => ⟨S512x128, .f32⟩
  | 40 => ⟨S512x128, .i1⟩
  | 41 => ⟨S_, .f32⟩
  | 42 => ⟨S_, .f32⟩
  | 43 => ⟨S512x128, .f32⟩
  | 44 => ⟨S512x128, .f32⟩
  | 45 => ⟨S512x128, .f32⟩
  | 46 => ⟨S_, .f32⟩
  | 47 => ⟨S512x128, .f32⟩
  | 48 => ⟨S512x128, .f32⟩
  | 49 => ⟨S512x128, .f32⟩
  | 50 => ⟨S512x10, .f32⟩
  | 51 => ⟨S1x10, .f32⟩
  | 52 => ⟨S512x10, .f32⟩
  | 53 => ⟨S512x10, .f32⟩
  | 54 => ⟨S_, .f32⟩
  | 55 => ⟨S512, .f32⟩
  | 56 => ⟨S_, .f32⟩
  | 57 => ⟨S512, .f32⟩
  | 58 => ⟨S512, .f32⟩
  | 59 => ⟨S512x1, .f32⟩
  | 60 => ⟨S512x10, .f32⟩
  | 61 => ⟨S512x10, .f32⟩
  | 62 => ⟨S512x10, .f32⟩
  | 63 => ⟨S_, .f32⟩
  | 64 => ⟨S512, .f32⟩
  | 65 => ⟨S512x1, .f32⟩
  | 66 => ⟨S512x1, .f32⟩
  | 67 => ⟨S512x10, .f32⟩
  | 68 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_cst_1 : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_v4 : Ref sig .tc := ⟨.hbm, 50, rfl⟩
abbrev main_call0_v5 : Ref sig .tc := ⟨.hbm, 51, rfl⟩
abbrev main_call0_cst_2 : Ref sig .tc := ⟨.hbm, 52, rfl⟩
abbrev main_call0_v6 : Ref sig .tc := ⟨.hbm, 53, rfl⟩
abbrev main_call0_v7 : Ref sig .tc := ⟨.hbm, 54, rfl⟩
abbrev main_v20 : Ref sig .tc := ⟨.hbm, 55, rfl⟩
abbrev main_c_1 : Ref sig .tc := ⟨.hbm, 56, rfl⟩
abbrev main_v21 : Ref sig .tc := ⟨.hbm, 57, rfl⟩
abbrev main_v22 : Ref sig .tc := ⟨.hbm, 58, rfl⟩
abbrev main_c_2 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_3 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_cst_1 : Ref sig .tc := ⟨.hbm, 81, rfl⟩
abbrev main_call1_call0_v0 : Ref sig .tc := ⟨.hbm, 82, rfl⟩
abbrev main_call1_call0_v1 : Ref sig .tc := ⟨.hbm, 83, rfl⟩
abbrev main_call1_v4 : Ref sig .tc := ⟨.hbm, 84, rfl⟩
abbrev main_call1_v5 : Ref sig .tc := ⟨.hbm, 85, rfl⟩
abbrev main_call1_cst_2 : Ref sig .tc := ⟨.hbm, 86, rfl⟩
abbrev main_call1_v6 : Ref sig .tc := ⟨.hbm, 87, rfl⟩
abbrev main_call1_v7 : Ref sig .tc := ⟨.hbm, 88, rfl⟩
abbrev main_v37 : Ref sig .tc := ⟨.hbm, 89, rfl⟩
abbrev main_c_4 : Ref sig .tc := ⟨.hbm, 90, rfl⟩
abbrev main_v38 : Ref sig .tc := ⟨.hbm, 91, rfl⟩
abbrev main_v39 : Ref sig .tc := ⟨.hbm, 92, rfl⟩
abbrev main_c_5 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_6 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_cst_0 : Ref sig .tc := ⟨.hbm, 112, rfl⟩
abbrev main_call2_v2 : Ref sig .tc := ⟨.hbm, 113, rfl⟩
abbrev main_call2_v3 : Ref sig .tc := ⟨.hbm, 114, rfl⟩
abbrev main_call2_cst_1 : Ref sig .tc := ⟨.hbm, 115, rfl⟩
abbrev main_call2_call0_v0 : Ref sig .tc := ⟨.hbm, 116, rfl⟩
abbrev main_call2_call0_v1 : Ref sig .tc := ⟨.hbm, 117, rfl⟩
abbrev main_call2_v4 : Ref sig .tc := ⟨.hbm, 118, rfl⟩
abbrev main_call2_v5 : Ref sig .tc := ⟨.hbm, 119, rfl⟩
abbrev main_call2_cst_2 : Ref sig .tc := ⟨.hbm, 120, rfl⟩
abbrev main_call2_v6 : Ref sig .tc := ⟨.hbm, 121, rfl⟩
abbrev main_call2_v7 : Ref sig .tc := ⟨.hbm, 122, rfl⟩
abbrev main_v54 : Ref sig .tc := ⟨.hbm, 123, rfl⟩
abbrev main_cst_7 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_cst_8 : Ref sig .tc := ⟨.hbm, 128, rfl⟩
abbrev main_v58 : Ref sig .tc := ⟨.hbm, 129, rfl⟩
abbrev main_cst_9 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_cst_10 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_cst_1 : Ref sig .tc := ⟨.hbm, 150, rfl⟩
abbrev main_call3_call0_v0 : Ref sig .tc := ⟨.hbm, 151, rfl⟩
abbrev main_call3_call0_v1 : Ref sig .tc := ⟨.hbm, 152, rfl⟩
abbrev main_call3_v4 : Ref sig .tc := ⟨.hbm, 153, rfl⟩
abbrev main_call3_v5 : Ref sig .tc := ⟨.hbm, 154, rfl⟩
abbrev main_call3_cst_2 : Ref sig .tc := ⟨.hbm, 155, rfl⟩
abbrev main_call3_v6 : Ref sig .tc := ⟨.hbm, 156, rfl⟩
abbrev main_call3_v7 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_call4_cst : Ref sig .tc := ⟨.hbm, 163, rfl⟩
abbrev main_call4_v0 : Ref sig .tc := ⟨.hbm, 164, rfl⟩
abbrev main_call4_v1 : Ref sig .tc := ⟨.hbm, 165, rfl⟩
abbrev main_call4_cst_0 : Ref sig .tc := ⟨.hbm, 166, rfl⟩
abbrev main_call4_v2 : Ref sig .tc := ⟨.hbm, 167, rfl⟩
abbrev main_call4_v3 : Ref sig .tc := ⟨.hbm, 168, rfl⟩
abbrev main_call4_cst_1 : Ref sig .tc := ⟨.hbm, 169, rfl⟩
abbrev main_call4_call0_v0 : Ref sig .tc := ⟨.hbm, 170, rfl⟩
abbrev main_call4_call0_v1 : Ref sig .tc := ⟨.hbm, 171, rfl⟩
abbrev main_call4_v4 : Ref sig .tc := ⟨.hbm, 172, rfl⟩
abbrev main_call4_v5 : Ref sig .tc := ⟨.hbm, 173, rfl⟩
abbrev main_call4_cst_2 : Ref sig .tc := ⟨.hbm, 174, rfl⟩
abbrev main_call4_v6 : Ref sig .tc := ⟨.hbm, 175, rfl⟩
abbrev main_call4_v7 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_call5_cst : Ref sig .tc := ⟨.hbm, 182, rfl⟩
abbrev main_call5_v0 : Ref sig .tc := ⟨.hbm, 183, rfl⟩
abbrev main_call5_cst_0 : Ref sig .tc := ⟨.hbm, 184, rfl⟩
abbrev main_call5_v1 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_call5_v5 : Ref sig .tc := ⟨.hbm, 189, rfl⟩
abbrev main_call5_v6 : Ref sig .tc := ⟨.hbm, 190, rfl⟩
abbrev main_call5_cst_1 : Ref sig .tc := ⟨.hbm, 191, rfl⟩
abbrev main_call5_v7 : Ref sig .tc := ⟨.hbm, 192, rfl⟩
abbrev main_call5_v8 : Ref sig .tc := ⟨.hbm, 193, rfl⟩
abbrev main_call5_v9 : Ref sig .tc := ⟨.hbm, 194, rfl⟩
abbrev main_call5_v10 : Ref sig .tc := ⟨.hbm, 195, rfl⟩
abbrev main_v81 : Ref sig .tc := ⟨.hbm, 196, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S1x256_S512x256_0_1 : S1x256.BroadcastsInDim S512x256 (![0, 1] : Fin 2 → Fin S512x256.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  dot_S512x128_S128x10_S512x10_1_0_0_1_n_n_wf : DotDims.WF S512x128 S128x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Kernel.Reg0.lean ====
/-
  The first graph-convolution call, one grid point at a time.

  Its ten points each take a block of 5000 rows of the neighbour sums and of the node features, the two weight matrices
  and the bias row whole, and store one block of 5000 output rows: elu(agg · W_rel + b + h · W_root) of the rows it was
  given. Nothing is carried from one point to the next. What is fixed here, for any contents V of the buffers when the
  call begins: the block each window holds at a point, the block the body leaves in the output window, and the record
  of these that the pipeline's rule asks for, with the body's obligation at every point.
-/
import proofs.«431204_j57801669869757_2_alg».proof.Proof.Kernel.LaunchP
import proofs.«431204_j57801669869757_2_alg».proof.Proof.Gen.Kernel.Skeleton
import proofs.«431204_j57801669869757_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each buffer the body reads or writes. -/
abbrev r0_rows : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- What the body leaves in the output window's buffer, from the five input blocks: its one store. -/
def out0_5 (x0 x1 : Vec F S5000x128 .f32) (x2 : Vec F S128x128 .f32) (x3 : Vec F S1x128 .f32) (x4 : Vec F S128x128 .f32) :
    Vec F S5000x128 .f32 :=
  View.canon [⟨r0_rows, k0_pay1 (View.ld x0 r0_rows) (View.ld x1 r0_rows) (View.ld x2 r0_w) (View.ld x3 r0_b) (View.ld x4 r0_w)⟩]

/-- The record the pipeline's rule asks for: the arrays as found; after the body each input's buffer at its block and the
    output's at `out0_5` of the input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What each input's buffer holds when the body runs

An input window is never written by the body, is whole (no cut at the array's edge) and is live at every point. So
its current buffer holds the block its index names at that point, whether the pipeline moved it there at this point
or at an earlier one: where it was not moved, the index is the one of the point before, and so is the block. The row
blocks (windows 0, 1) are moved at every point; the two weight matrices and the bias row (windows 2, 3, 4) have a
constant index and are moved once, at the first point. -/

/-- The neighbour sums' row block. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The node features' row block. -/
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-- The first weight matrix, whole: moved in at the first point and unchanged since. -/
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := fun s => by
    rw [after0_2]; unfold Dat.blockOf iblk0; rw [A_eq0]; try rfl
  rw [(dat0 V c).before_in_eq_fetched 2 rfl (fun _ => rfl) (fun _ _ _ => rfl) hkeep t d]
  unfold Dat.fetched Dat.blockOf iblk0; rw [A_eq0]; try rfl

/-- The bias row, whole: moved in at the first point and unchanged since. -/
theorem before0_3 (c : Dev nD) (t : Fin cfg0.N) (d) : (dat0 V c).before 3 t d = iblk0 V c 3 t := by
  have hkeep : ∀ s, (cfg0.win 3).cut (cfg0.grid.coords s) ((dat0 V c).after 3 s) = (dat0 V c).blockOf 3 s := fun s => by
    rw [after0_3]; unfold Dat.blockOf iblk0; rw [A_eq0]; try rfl
  rw [(dat0 V c).before_in_eq_fetched 3 rfl (fun _ => rfl) (fun _ _ _ => rfl) hkeep t d]
  unfold Dat.fetched Dat.blockOf iblk0; rw [A_eq0]; try rfl

/-- The second weight matrix, whole: moved in at the first point and unchanged since. -/
theorem before0_4 (c : Dev nD) (t : Fin cfg0.N) (d) : (dat0 V c).before 4 t d = iblk0 V c 4 t := by
  have hkeep : ∀ s, (cfg0.win 4).cut (cfg0.grid.coords s) ((dat0 V c).after 4 s) = (dat0 V c).blockOf 4 s := fun s => by
    rw [after0_4]; unfold Dat.blockOf iblk0; rw [A_eq0]; try rfl
  rw [(dat0 V c).before_in_eq_fetched 4 rfl (fun _ => rfl) (fun _ _ _ => rfl) hkeep t d]
  unfold Dat.fetched Dat.blockOf iblk0; rw [A_eq0]; try rfl

/-! ## The body's one store fills the output buffer -/

/-- The store's rectangle is the whole output buffer: one tile of the buffer's size tiles it, so every index is covered. -/
theorem cover0_5 (p : Vec F S5000x128 .f32) (y : S5000x128.Idx) :
    ∃ pc ∈ ([⟨r0_rows, p⟩] : List (View.Piece (Elt F) S5000x128 .f32)), y ∈ pc.1.set :=
  View.cover_of_tiled [⟨r0_rows, p⟩] S5000x128.size (by rfl) y

/-! ## The body on any six whole buffers -/

set_option maxHeartbeats 1000000 in
/-- Run on whole buffers of which the five inputs read x0 .. x4 and the sixth holds anything, the body reads all six,
    leaves the inputs as they were and the sixth reading `out0_5 x0 x1 x2 x3 x4`: the old contents of the sixth are
    loaded but no stored value depends on them, and the one store covers it. -/
theorem sound_kernel0 (c : Dev nD) (E : Set ℕ) (i : grid0.Coords)
    (a0 : Memref sig .tc .vmem S5000x128 .f32) (h0 : a0.IsWhole) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S128x128 .f32) (h4 : a4.IsWhole) (a5 : Memref sig .tc .vmem S5000x128 .f32) (h5 : a5.IsWhole)
    (x0 x1 : Vec F S5000x128 .f32) (x2 : Vec F S128x128 .f32) (x3 : Vec F S1x128 .f32) (x4 : Vec F S128x128 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out0_5 x0 x1 x2 x3 x4)) -∗ K ⟨⟩))
      ⊢ wp frame (wpE (defs₀ (F := F)) Variants.none c none) E
          (cc0__graphconv_kernel i a0 h0 a1 h1 a2 h2 a3 h3 a4 h4 a5 h5) K := by
  simp only [cc0__graphconv_kernel_eq_skeleton]; unfold cc0__graphconv_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body at a point of the grid -/

/-- What the pipeline hands the body at point t: the class invariant, the core's debts, and the six current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it asks back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the five input buffers hold their blocks, so the body's run on whole buffers applies; the invariant
    and the debts are the same at t and t+1 and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point. -/
theorem body_obligation0 (c : Dev nD) : BodyObligation (dat0 (F := F) V c) (defs₀ (F := F)) Variants.none () Set.univ := fun t => by
  rw [bigSep_W0, bigSep_W0]
  exact sound_body0 V c t

end Cert.Kernel.Regs

end
-- ==== Proof.Kernel.Reg1.lean ====
/-
  The second graph-convolution call, one grid point at a time.

  Its ten points each take a block of 5000 rows of the neighbour sums and of the node features, the two weight matrices
  and the bias row whole, and store one block of 5000 output rows: elu(agg · W_rel + b + h · W_root) of the rows it was
  given. Nothing is carried from one point to the next. What is fixed here, for any contents V of the buffers when the
  call begins: the block each window holds at a point, the block the body leaves in the output window, and the record
  of these that the pipeline's rule asks for, with the body's obligation at every point.
-/
import proofs.«431204_j57801669869757_2_alg».proof.Proof.Kernel.LaunchP
import proofs.«431204_j57801669869757_2_alg».proof.Proof.Gen.Kernel.Skeleton
import proofs.«431204_j57801669869757_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of each buffer the body reads or writes. -/
abbrev r1_rows : Rect S5000x128 := Rect.unit (s := S5000x128) ![0, 0] S5000x128.size inb_S5000x128_S5000x128_0_0
abbrev r1_out : Rect S5000x256 := Rect.unit (s := S5000x256) ![0, 0] S5000x256.size inb_S5000x256_S5000x256_0_0
abbrev r1_w : Rect S128x256 := Rect.unit (s := S128x256) ![0, 0] S128x256.size inb_S128x256_S128x256_0_0
abbrev r1_b : Rect S1x256 := Rect.unit (s := S1x256) ![0, 0] S1x256.size inb_S1x256_S1x256_0_0

/-- What the body leaves in the output window's buffer, from the five input blocks: its one store. -/
def out1_5 (x0 x1 : Vec F S5000x128 .f32) (x2 : Vec F S128x256 .f32) (x3 : Vec F S1x256 .f32) (x4 : Vec F S128x256 .f32) :
    Vec F S5000x256 .f32 :=
  View.canon [⟨r1_out, k1_pay1 (View.ld x0 r1_rows) (View.ld x1 r1_rows) (View.ld x2 r1_w) (View.ld x3 r1_b) (View.ld x4 r1_w)⟩]

/-- The record the pipeline's rule asks for: the arrays as found; after the body each input's buffer at its block and the
    output's at `out1_5` of the input blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What each input's buffer holds when the body runs

An input window is never written by the body, is whole (no cut at the array's edge) and is live at every point. So
its current buffer holds the block its index names at that point, whether the pipeline moved it there at this point
or at an earlier one: where it was not moved, the index is the one of the point before, and so is the block. The row
blocks (windows 0, 1) are moved at every point; the two weight matrices and the bias row (windows 2, 3, 4) have a
constant index and are moved once, at the first point. -/

/-- The neighbour sums' row block. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The node features' row block. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-- The first weight matrix, whole: moved in at the first point and unchanged since. -/
theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := fun s => by
    rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

/-- The bias row, whole: moved in at the first point and unchanged since. -/
theorem before1_3 (c : Dev nD) (t : Fin cfg1.N) (d) : (dat1 V c).before 3 t d = iblk1 V c 3 t := by
  have hkeep : ∀ s, (cfg1.win 3).cut (cfg1.grid.coords s) ((dat1 V c).after 3 s) = (dat1 V c).blockOf 3 s := fun s => by
    rw [after1_3]; unfold Dat.blockOf iblk1; rw [A_eq1]; try rfl
  rw [(dat1 V c).before_in_eq_fetched 3 rfl (fun _ => rfl) (fun _ _ _ => rfl) hkeep t d]
  unfold Dat.fetched Dat.blockOf iblk1; rw [A_eq1]; try rfl

/-- The second weight matrix, whole: moved in at the first point and unchanged since. -/
theorem before1_4 (c : Dev nD) (t : Fin cfg1.N) (d) : (dat1 V c).before 4 t d = iblk1 V c 4 t := by
  have hkeep : ∀ s, (cfg1.win 4).cut (cfg1.grid.coords s) ((dat1 V c).after 4 s) = (dat1 V c).blockOf 4 s := fun s => by
    rw [after1_4]; unfold Dat.blockOf iblk1; rw [A_eq1]; try rfl
  rw [(dat1 V c).before_in_eq_fetched 4 rfl (fun _ => rfl) (fun _ _ _ => rfl) hkeep t d]
  unfold Dat.fetched Dat.blockOf iblk1; rw [A_eq1]; try rfl

/-! ## The body's one store fills the output buffer -/

/-- The store's rectangle is the whole output buffer: one tile of the buffer's size tiles it, so every index is covered. -/
theorem cover1_5 (p : Vec F S5000x256 .f32) (y : S5000x256.Idx) :
    ∃ pc ∈ ([⟨r1_out, p⟩] : List (View.Piece (Elt F) S5000x256 .f32)), y ∈ pc.1.set :=
  View.cover_of_tiled [⟨r1_out, p⟩] S5000x256.size (by rfl) y

/-! ## The body on any six whole buffers -/

set_option maxHeartbeats 1000000 in
/-- Run on whole buffers of which the five inputs read x0 .. x4 and the sixth holds anything, the body reads all six,
    leaves the inputs as they were and the sixth reading `out1_5 x0 x1 x2 x3 x4`: the old contents of the sixth are
    loaded but no stored value depends on them, and the one store covers it. -/
theorem sound_kernel1 (c : Dev nD) (E : Set ℕ) (i : grid1.Coords)
    (a0 : Memref sig .tc .vmem S5000x128 .f32) (h0 : a0.IsWhole) (a1 : Memref sig .tc .vmem S5000x128 .f32) (h1 : a1.IsWhole)
    (a2 : Memref sig .tc .vmem S128x256 .f32) (h2 : a2.IsWhole) (a3 : Memref sig .tc .vmem S1x256 .f32) (h3 : a3.IsWhole)
    (a4 : Memref sig .tc .vmem S128x256 .f32) (h4 : a4.IsWhole) (a5 : Memref sig .tc .vmem S5000x256 .f32) (h5 : a5.IsWhole)
    (x0 x1 : Vec F S5000x128 .f32) (x2 : Vec F S128x256 .f32) (x3 : Vec F S1x256 .f32) (x4 : Vec F S128x256 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out1_5 x0 x1 x2 x3 x4)) -∗ K ⟨⟩))
      ⊢ wp frame (wpE (defs₀ (F := F)) Variants.none c none) E
          (cc1__graphconv_kernel i a0 h0 a1 h1 a2 h2 a3 h3 a4 h4 a5 h5) K := by
  simp only [cc1__graphconv_kernel_eq_skeleton]; unfold cc1__graphconv_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body at a point of the grid -/

/-- What the pipeline hands the body at point t: the class invariant, the core's debts, and the six current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it asks back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the five input buffers hold their blocks, so the body's run on whole buffers applies; the invariant
    and the debts are the same at t and t+1 and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point. -/
theorem body_obligation1 (c : Dev nD) : BodyObligation (dat1 (F := F) V c) (defs₀ (F := F)) Variants.none () Set.univ := fun t => by
  rw [bigSep_W1, bigSep_W1]
  exact sound_body1 V c t

end Cert.Kernel.Regs

end
-- ==== Proof.Kernel.Reg2.lean ====
/-
  The third graph-convolution call, one grid point at a time.

  Its ten points each take a block of 5000 rows of the neighbour sums and of the node features, the two weight matrices
  and the bias row whole, and store one block of 5000 output rows: elu(agg · W_rel + b + h · W_root) of the rows it was
  given. Nothing is carried from one point to the next. What is fixed here, for any contents V of the buffers when the
  call begins: the block each window holds at a point, the block the body leaves in the output window, and the record
  of these that the pipeline's rule asks for, with the body's obligation at every point.
-/
import proofs.«431204_j57801669869757_2_alg».proof.Proof.Kernel.LaunchP
import proofs.«431204_j57801669869757_2_alg».proof.Proof.Gen.Kernel.Skeleton
import proofs.«431204_j57801669869757_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of each buffer the body reads or writes. -/
abbrev r2_rows : Rect S5000x256 := Rect.unit (s := S5000x256) ![0, 0] S5000x256.size inb_S5000x256_S5000x256_0_0
abbrev r2_out : Rect S5000x256 := Rect.unit (s := S5000x256) ![0, 0] S5000x256.size inb_S5000x256_S5000x256_0_0
abbrev r2_w : Rect S256x256 := Rect.unit (s := S256x256) ![0, 0] S256x256.size inb_S256x256_S256x256_0_0
abbrev r2_b : Rect S1x256 := Rect.unit (s := S1x256) ![0, 0] S1x256.size inb_S1x256_S1x256_0_0

/-- What the body leaves in the output window's buffer, from the five input blocks: its one store. -/
def out2_5 (x0 x1 : Vec F S5000x256 .f32) (x2 : Vec F S256x256 .f32) (x3 : Vec F S1x256 .f32) (x4 : Vec F S256x256 .f32) :
    Vec F S5000x256 .f32 :=
  View.canon [⟨r2_out, k2_pay1 (View.ld x0 r2_rows) (View.ld x1 r2_rows) (View.ld x2 r2_w) (View.ld x3 r2_b) (View.ld x4 r2_w)⟩]

/-- The record the pipeline's rule asks for: the arrays as found; after the body each input's buffer at its block and the
    output's at `out2_5` of the input blocks; nothing carried, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-! ## What each input's buffer holds when the body runs

An input window is never written by the body, is whole (no cut at the array's edge) and is live at every point. So
its current buffer holds the block its index names at that point, whether the pipeline moved it there at this point
or at an earlier one: where it was not moved, the index is the one of the point before, and so is the block. The row
blocks (windows 0, 1) are moved at every point; the two weight matrices and the bias row (windows 2, 3, 4) have a
constant index and are moved once, at the first point. -/

/-- The neighbour sums' row block. -/
theorem before2_0 (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := fun s => by
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

/-- The node features' row block. -/
theorem before2_1 (c : Dev nD) (t : Fin cfg2.N) (d) : (dat2 V c).before 1 t d = iblk2 V c 1 t := by
  have hkeep : ∀ s, (cfg2.win 1).cut (cfg2.grid.coords s) ((dat2 V c).after 1 s) = (dat2 V c).blockOf 1 s := fun s => by
    rw [after2_1]; unfold Dat.blockOf iblk2; rw [A_eq2]; try rfl
  rw [(dat2 V c).before_in_eq_fetched 1 rfl (fun _ => rfl) (fun _ _ _ => rfl) hkeep t d]
  unfold Dat.fetched Dat.blockOf iblk2; rw [A_eq2]; try rfl

/-- The first weight matrix, whole: moved in at the first point and unchanged since. -/
theorem before2_2 (c : Dev nD) (t : Fin cfg2.N) (d) : (dat2 V c).before 2 t d = iblk2 V c 2 t := by
  have hkeep : ∀ s, (cfg2.win 2).cut (cfg2.grid.coords s) ((dat2 V c).after 2 s) = (dat2 V c).blockOf 2 s := fun s => by
    rw [after2_2]; unfold Dat.blockOf iblk2; rw [A_eq2]; try rfl
  rw [(dat2 V c).before_in_eq_fetched 2 rfl (fun _ => rfl) (fun _ _ _ => rfl) hkeep t d]
  unfold Dat.fetched Dat.blockOf iblk2; rw [A_eq2]; try rfl

/-- The bias row, whole: moved in at the first point and unchanged since. -/
theorem before2_3 (c : Dev nD) (t : Fin cfg2.N) (d) : (dat2 V c).before 3 t d = iblk2 V c 3 t := by
  have hkeep : ∀ s, (cfg2.win 3).cut (cfg2.grid.coords s) ((dat2 V c).after 3 s) = (dat2 V c).blockOf 3 s := fun s => by
    rw [after2_3]; unfold Dat.blockOf iblk2; rw [A_eq2]; try rfl
  rw [(dat2 V c).before_in_eq_fetched 3 rfl (fun _ => rfl) (fun _ _ _ => rfl) hkeep t d]
  unfold Dat.fetched Dat.blockOf iblk2; rw [A_eq2]; try rfl

/-- The second weight matrix, whole: moved in at the first point and unchanged since. -/
theorem before2_4 (c : Dev nD) (t : Fin cfg2.N) (d) : (dat2 V c).before 4 t d = iblk2 V c 4 t := by
  have hkeep : ∀ s, (cfg2.win 4).cut (cfg2.grid.coords s) ((dat2 V c).after 4 s) = (dat2 V c).blockOf 4 s := fun s => by
    rw [after2_4]; unfold Dat.blockOf iblk2; rw [A_eq2]; try rfl
  rw [(dat2 V c).before_in_eq_fetched 4 rfl (fun _ => rfl) (fun _ _ _ => rfl) hkeep t d]
  unfold Dat.fetched Dat.blockOf iblk2; rw [A_eq2]; try rfl

/-! ## The body's one store fills the output buffer -/

/-- The store's rectangle is the whole output buffer: one tile of the buffer's size tiles it, so every index is covered. -/
theorem cover2_5 (p : Vec F S5000x256 .f32) (y : S5000x256.Idx) :
    ∃ pc ∈ ([⟨r2_out, p⟩] : List (View.Piece (Elt F) S5000x256 .f32)), y ∈ pc.1.set :=
  View.cover_of_tiled [⟨r2_out, p⟩] S5000x256.size (by rfl) y

/-! ## The body on any six whole buffers -/

set_option maxHeartbeats 1000000 in
/-- Run on whole buffers of which the five inputs read x0 .. x4 and the sixth holds anything, the body reads all six,
    leaves the inputs as they were and the sixth reading `out2_5 x0 x1 x2 x3 x4`: the old contents of the sixth are
    loaded but no stored value depends on them, and the one store covers it. -/
theorem sound_kernel2 (c : Dev nD) (E : Set ℕ) (i : grid2.Coords)
    (a0 : Memref sig .tc .vmem S5000x256 .f32) (h0 : a0.IsWhole) (a1 : Memref sig .tc .vmem S5000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S5000x256 .f32) (h5 : a5.IsWhole)
    (x0 x1 : Vec F S5000x256 .f32) (x2 : Vec F S256x256 .f32) (x3 : Vec F S1x256 .f32) (x4 : Vec F S256x256 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out2_5 x0 x1 x2 x3 x4)) -∗ K ⟨⟩))
      ⊢ wp frame (wpE (defs₀ (F := F)) Variants.none c none) E
          (cc2__graphconv_kernel i a0 h0 a1 h1 a2 h2 a3 h3 a4 h4 a5 h5) K := by
  simp only [cc2__graphconv_kernel_eq_skeleton]; unfold cc2__graphconv_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body at a point of the grid -/

/-- What the pipeline hands the body at point t: the class invariant, the core's debts, and the six current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it asks back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- At any point the five input buffers hold their blocks, so the body's run on whole buffers applies; the invariant
    and the debts are the same at t and t+1 and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point. -/
theorem body_obligation2 (c : Dev nD) : BodyObligation (dat2 (F := F) V c) (defs₀ (F := F)) Variants.none () Set.univ := fun t => by
  rw [bigSep_W2, bigSep_W2]
  exact sound_body2 V c t

end Cert.Kernel.Regs

end
-- ==== Proof.Kernel.Reg3.lean ====
/-
  The pooling call, one grid point at a time.

  Its ten points each take a block of 5000 node rows and their 5000 graph ids. The first point clears two running totals
  kept beside the windows: per graph, the sum of its rows so far and the number of its rows so far. Every point adds its
  block's share to both: the one-hot matrix of the block's ids, transposed, times the block's rows; and that matrix's
  column sums. The last point divides the sums by max(count, 1), runs the three dense layers and the log-softmax, and
  stores the 512 × 10 result: the only store to the output window, which every earlier point leaves as it found it.
  What is fixed here, for any contents V of the buffers when the call begins: each window's block at a point, the two
  totals after point n, the block stored at the last point, and the record of these that the pipeline's rule asks for.
-/
import proofs.«431204_j57801669869757_2_alg».proof.Proof.Kernel.LaunchP
import proofs.«431204_j57801669869757_2_alg».proof.Proof.Gen.Kernel.Skeleton
import proofs.«431204_j57801669869757_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two running totals after point n: per graph the sum of its rows among the first n + 1 blocks, and their number.
    Point 0 starts from the cleared totals; point n + 1 adds its block's share to what point n left. -/
def accAt3 (c : Dev nD) : (n : Nat) → n < cfg3.N → Vec F S512x256 .f32 × Vec F S1x512 .f32
  | 0, h => (k3_pay4 (iblk3 V c 0 ⟨0, h⟩) (iblk3 V c 1 ⟨0, h⟩) (k3_pay1 (F := F)),
             k3_pay5 (iblk3 V c 1 ⟨0, h⟩) (k3_pay2 (F := F)))
  | n + 1, h => (k3_pay4 (iblk3 V c 0 ⟨n + 1, h⟩) (iblk3 V c 1 ⟨n + 1, h⟩) (accAt3 c n (Nat.lt_of_succ_lt h)).1,
                 k3_pay5 (iblk3 V c 1 ⟨n + 1, h⟩) (accAt3 c n (Nat.lt_of_succ_lt h)).2)

/-- The block the last point stores to the output window: the head applied to the final totals. -/
def out3_8 (c : Dev nD) : Vec F S512x10 .f32 :=
  k3_pay6
    (k3_pay7 (accAt3 V c 9 t3_9.isLt).2 (accAt3 V c 9 t3_9.isLt).1 (iblk3 V c 2 t3_9) (iblk3 V c 3 t3_9) (iblk3 V c 4 t3_9) (iblk3 V c 5 t3_9))
    (iblk3 V c 6 t3_9) (constant S512x10 .f32 0x00000000#32) (iblk3 V c 7 t3_9)

/-- What sits beside the windows between points: before the first point the call's scoped buffers as found; after point
    n the two totals in their buffers at `accAt3 n`, the other scoped buffers as found. -/
def Φ3 (c : Dev nD) (t : Fin (cfg3.N + 1)) : sProp 𝕄 :=
  if h : t.val = 0 then Pipeline.ΦA spec3 c
  else iprop(owns (c : Thread nD τ) (Memref.whole cc3_scratch0) fullShare (accAt3 V c (t.val - 1) (by have := t.isLt; omega)).1
        ∗ owns (c : Thread nD τ) (Memref.whole cc3_scratch1) fullShare (accAt3 V c (t.val - 1) (by have := t.isLt; omega)).2
        ∗ Pipeline.scopedRestBut (Ix := Unit) (Name := ℕ) (U := UR sig nD τ) (Lvl := ℕ) (Val := Elt F) spec3 c [cc3_scratch0, cc3_scratch1]
        ∗ ∃ r, prngReg c r)

/-- The record the pipeline's rule asks for. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 V c
  Φ t := Φ3 V c t
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 V c := by dsimp only [dat3]

/-! ## The body's two conditions, over the grid -/

/-- The condition under which the body clears the two totals, as the kernel computes it from the point's coordinate. -/
abbrev cond3_1 (i : grid3.Coords) : Prop := (Scalar.cmpi .ne (Scalar.extui (Scalar.cmpi .eq (BitVec.ofNat 32 (i 0).val) 0#32)) 0#32) = 1#1

/-- It holds at the first point only: decided over the grid. -/
theorem hcond3_1 : ∀ t : Fin cfg3.N, cond3_1 (grid3.coords t) ↔ t.val = 0 :=
  (by decide +kernel : ∀ t : Fin grid3.N, cond3_1 (grid3.coords t) ↔ t.val = 0)

/-- The head runs at the last point only: decided over the grid. -/
theorem hcond3_2 : ∀ t : Fin cfg3.N, k3_cond2 (grid3.coords t) = 1#1 ↔ t.val = 9 :=
  (by decide +kernel : ∀ t : Fin grid3.N, k3_cond2 (grid3.coords t) = 1#1 ↔ t.val = 9)

/-! ## Loads and stores of whole buffers -/

/-- The zero offsets, however they are spelt. -/
theorem hz3 : (![0, 0] : Fin 2 → ℕ) = fun _ => 0 := funext fun a => by fin_cases a <;> rfl

/-- One store through the whole of a buffer leaves its payload there, whatever the buffer held before. -/
theorem read_store_whole3 {κ : Kind} {sp : Space} {S : Shape} {e : EltTy} {off : Fin S.rank → ℕ} (h : off = fun _ => 0)
    (inb : ∀ a, off a + S.size a ≤ S.size a) (v : View sig κ sp S e) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-- A second store through the whole of a buffer leaves its own payload: the earlier one is gone. -/
theorem read_store_whole_cons3 {κ : Kind} {sp : Space} {S : Shape} {e : EltTy} {off : Fin S.rank → ℕ} (h : off = fun _ => 0)
    (inb : ∀ a, off a + S.size a ≤ S.size a) (v : View sig κ sp S e) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load through the whole of a buffer reads its contents. -/
theorem load_whole3 {κ : Kind} {sp : Space} {S : Shape} {e : EltTy} {m : Memref sig κ sp S e} (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-! ## The body's run, one control case at a time

Each case is stated over any whole buffers for the eleven operands, holding only those the case touches: the others stay
with the caller. -/

set_option maxHeartbeats 1000000 in
/-- A middle point: the two totals each take the block's share. -/
theorem runB3 (c : Dev nD) (E : Set ℕ) (i : grid3.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x256 .f32) (harg10 : arg10.IsWhole) (arg11 : Memref sig .tc .vmem S1x512 .f32) (harg11 : arg11.IsWhole)
    (hc1 : ¬cond3_1 i) (hc2 : ¬k3_cond2 i = 1#1)
    (x0 : Vec F S5000x256 .f32) (x1 : Vec F S5000x1 .i32) (s0 : Vec F S512x256 .f32) (s1 : Vec F S1x512 .f32) (K : PUnit → sProp 𝕄) :
    iprop(owns (c : Thread nD τ) arg1 fullShare x0 ∗ owns (c : Thread nD τ) arg2 fullShare x1
        ∗ owns (c : Thread nD τ) arg10 fullShare s0 ∗ owns (c : Thread nD τ) arg11 fullShare s1
        ∗ (iprop(owns (c : Thread nD τ) arg1 fullShare x0 ∗ owns (c : Thread nD τ) arg2 fullShare x1
            ∗ owns (c : Thread nD τ) arg10 fullShare (k3_pay4 x0 x1 s0) ∗ owns (c : Thread nD τ) arg11 fullShare (k3_pay5 x1 s1)) -∗ K ⟨⟩))
      ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11) K := by
  simp only [cc3__pool_mlp_kernel_eq_skeleton]; unfold cc3__pool_mlp_kernel_skel
  unfold owns
  iintro ⟨⟨%f0, %hf0, H0⟩, ⟨%f1, %hf1, H1⟩, ⟨%g0, %hg0, S0⟩, ⟨%g1, %hg1, S1⟩, Hk⟩
  obtain rfl := harg1.eq_unread hf0; obtain rfl := harg2.eq_unread hf1
  obtain rfl := harg10.eq_unread hg0; obtain rfl := harg11.eq_unread hg1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [S0]
  · iexists _; isplitr
    swap; · iexact S0
    ipureintro
    rw [read_store_whole3 hz3, load_whole3 harg1 hz3, load_whole3 harg2 hz3, load_whole3 harg10 hz3]
  · iexists _; isplitr
    swap; · iexact S1
    ipureintro
    rw [read_store_whole3 hz3, load_whole3 harg2 hz3, load_whole3 harg11 hz3]

set_option maxHeartbeats 1000000 in
/-- The first point: the two totals are cleared, whatever their buffers held, and then take the block's share. -/
theorem runA3 (c : Dev nD) (E : Set ℕ) (i : grid3.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x256 .f32) (harg10 : arg10.IsWhole) (arg11 : Memref sig .tc .vmem S1x512 .f32) (harg11 : arg11.IsWhole)
    (hc1 : cond3_1 i) (hc2 : ¬k3_cond2 i = 1#1)
    (x0 : Vec F S5000x256 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1
            ∗ owns (c : Thread nD τ) arg10 fullShare (k3_pay4 x0 x1 (k3_pay1 (F := F)))
            ∗ owns (c : Thread nD τ) arg11 fullShare (k3_pay5 x1 (k3_pay2 (F := F)))) -∗ K ⟨⟩))
      ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11) K := by
  simp only [cc3__pool_mlp_kernel_eq_skeleton]; unfold cc3__pool_mlp_kernel_skel
  unfold owns
  iintro ⟨⟨%f0, %hf0, H0⟩, ⟨%f1, %hf1, H1⟩, ⟨%d0, %g0, -, S0⟩, ⟨%d1, %g1, -, S1⟩, Hk⟩
  obtain rfl := harg1.eq_unread hf0; obtain rfl := harg2.eq_unread hf1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [S0]
  · iexists _; isplitr
    swap; · iexact S0
    ipureintro
    sl_unfold_words
    rw [read_store_whole_cons3 hz3, load_whole3 harg1 hz3, load_whole3 harg2 hz3, View.readCov_unit_zero (S := S512x256) _ hz3]
  · iexists _; isplitr
    swap; · iexact S1
    ipureintro
    sl_unfold_words
    rw [read_store_whole_cons3 hz3, load_whole3 harg2 hz3, View.readCov_unit_zero (S := S1x512) _ hz3]

set_option maxHeartbeats 2000000 in
/-- The last point: the two totals take the block's share, and the head, applied to them and the weights, is stored to the
    output's buffer, whatever that held. -/
theorem runC3 (c : Dev nD) (E : Set ℕ) (i : grid3.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x256 .f32) (harg10 : arg10.IsWhole) (arg11 : Memref sig .tc .vmem S1x512 .f32) (harg11 : arg11.IsWhole)
    (hc1 : ¬cond3_1 i) (hc2 : k3_cond2 i = 1#1)
    (x0 : Vec F S5000x256 .f32) (x1 : Vec F S5000x1 .i32) (x2 : Vec F S256x256 .f32) (x3 : Vec F S1x256 .f32)
    (x4 : Vec F S256x128 .f32) (x5 : Vec F S1x128 .f32) (x6 : Vec F S128x10 .f32) (x7 : Vec F S1x10 .f32)
    (s0 : Vec F S512x256 .f32) (s1 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ owns (c : Thread nD τ) arg10 fullShare s0 ∗ owns (c : Thread nD τ) arg11 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare
                (k3_pay6 (k3_pay7 (k3_pay5 x1 s1) (k3_pay4 x0 x1 s0) x2 x3 x4 x5) x6 (constant S512x10 .f32 0x00000000#32) x7)
            ∗ owns (c : Thread nD τ) arg10 fullShare (k3_pay4 x0 x1 s0) ∗ owns (c : Thread nD τ) arg11 fullShare (k3_pay5 x1 s1)) -∗ K ⟨⟩))
      ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11) K := by
  simp only [cc3__pool_mlp_kernel_eq_skeleton]; unfold cc3__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%g0, %hg0, S0⟩, ⟨%g1, %hg1, S1⟩, Hk⟩
  obtain rfl := harg1.eq_unread hf0; obtain rfl := harg2.eq_unread hf1
  obtain rfl := harg3.eq_unread hf2; obtain rfl := harg4.eq_unread hf3
  obtain rfl := harg5.eq_unread hf4; obtain rfl := harg6.eq_unread hf5
  obtain rfl := harg7.eq_unread hf6; obtain rfl := harg8.eq_unread hf7
  obtain rfl := harg10.eq_unread hg0; obtain rfl := harg11.eq_unread hg1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    rw [read_store_whole3 hz3, View.readCov_unit_zero (S := S1x512) _ hz3, View.readCov_unit_zero (S := S512x256) _ hz3,
      load_whole3 harg1 hz3, load_whole3 harg2 hz3, load_whole3 harg3 hz3, load_whole3 harg4 hz3, load_whole3 harg5 hz3,
      load_whole3 harg6 hz3, load_whole3 harg7 hz3, load_whole3 harg8 hz3, load_whole3 harg10 hz3, load_whole3 harg11 hz3]
  isplitl [S0]
  · iexists _; isplitr
    swap; · iexact S0
    ipureintro
    sl_unfold_words
    rw [read_store_whole3 hz3, load_whole3 harg1 hz3, load_whole3 harg2 hz3, load_whole3 harg10 hz3]
  · iexists _; isplitr
    swap; · iexact S1
    ipureintro
    sl_unfold_words
    rw [read_store_whole3 hz3, load_whole3 harg2 hz3, load_whole3 harg11 hz3]

/-! ## What the body finds in the input windows -/

/-- Each input window's buffer holds its block at every point, fetched there or not: the body never writes it, and a window
    that is not fetched again has not moved. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)

/-! ## The output window is idle until the last point -/

/-- The grid has ten points. -/
theorem hN3 (t : Fin cfg3.N) : t.val < 10 := lt_of_lt_of_eq t.isLt (show cfg3.N = 10 from N_3)

/-- The output window is idle at every point but the last: decided over the grid. -/
theorem hidle3_8 : ∀ t : Fin cfg3.N, cfg3.idle 8 (cfg3.grid.coords t) = true ↔ t.val ≠ 9 :=
  (by decide +kernel : ∀ t : Fin grid3.N, idle3 8 (grid3.coords t) = true ↔ t.val ≠ 9)

/-- At the last point the output window is live. -/
theorem live3_8 (t : Fin cfg3.N) (h9 : t.val = 9) : cfg3.idle 8 (cfg3.grid.coords t) = false :=
  Bool.eq_false_iff.mpr fun h => (hidle3_8 t).mp h h9

/-- Before the last point the output window's block is not written back. -/
theorem noflush3_8 (t : Fin cfg3.N) (h9 : t.val ≠ 9) : (cfg3.win 8).flush t = false :=
  Bool.eq_false_iff.mpr fun h => h9 (by have := (flush3_8 t).mp h; have := hN3 t; omega)

/-- At the last point the output's buffer is left at the stored block. -/
theorem leavesExact_live3 (c : Dev nD) (t : Fin cfg3.N) (h : cfg3.idle 8 (cfg3.grid.coords t) = false) :
    (dat3 V c).leavesExact 8 t = owns (c : Thread nD τ) (st3_8 t) fullShare ((dat3 V c).after 8 t) := by
  unfold Dat.leavesExact; rw [h]

/-! ## The running totals, point by point -/

/-- After the first point the totals are the first block's share added to the cleared totals; after a later point, that
    point's block's share added to what the point before left. Component by component: -/
theorem accFst3_first (c : Dev nD) (t : Fin cfg3.N) (h0 : t.val = 0) :
    (accAt3 V c t.val t.isLt).1 = k3_pay4 (iblk3 V c 0 t) (iblk3 V c 1 t) (k3_pay1 (F := F)) := by
  obtain ⟨n, hn⟩ := t
  cases n with
  | zero => rfl
  | succ n => exact absurd h0 (Nat.succ_ne_zero n)

theorem accSnd3_first (c : Dev nD) (t : Fin cfg3.N) (h0 : t.val = 0) :
    (accAt3 V c t.val t.isLt).2 = k3_pay5 (iblk3 V c 1 t) (k3_pay2 (F := F)) := by
  obtain ⟨n, hn⟩ := t
  cases n with
  | zero => rfl
  | succ n => exact absurd h0 (Nat.succ_ne_zero n)

theorem accFst3_later (c : Dev nD) (t : Fin cfg3.N) (h0 : t.val ≠ 0) :
    (accAt3 V c t.val t.isLt).1
      = k3_pay4 (iblk3 V c 0 t) (iblk3 V c 1 t) (accAt3 V c (t.val - 1) (Nat.lt_of_le_of_lt (Nat.sub_le _ _) t.isLt)).1 := by
  obtain ⟨n, hn⟩ := t
  cases n with
  | zero => exact absurd rfl h0
  | succ n => rfl

theorem accSnd3_later (c : Dev nD) (t : Fin cfg3.N) (h0 : t.val ≠ 0) :
    (accAt3 V c t.val t.isLt).2
      = k3_pay5 (iblk3 V c 1 t) (accAt3 V c (t.val - 1) (Nat.lt_of_le_of_lt (Nat.sub_le _ _) t.isLt)).2 := by
  obtain ⟨n, hn⟩ := t
  cases n with
  | zero => exact absurd rfl h0
  | succ n => rfl

/-- The block stored at the last point, written over that point's blocks. -/
theorem outEq3_8 (c : Dev nD) (t : Fin cfg3.N) (h9 : t.val = 9) :
    out3_8 V c = k3_pay6
      (k3_pay7 (accAt3 V c t.val t.isLt).2 (accAt3 V c t.val t.isLt).1 (iblk3 V c 2 t) (iblk3 V c 3 t) (iblk3 V c 4 t) (iblk3 V c 5 t))
      (iblk3 V c 6 t) (constant S512x10 .f32 0x00000000#32) (iblk3 V c 7 t) := by
  obtain rfl : t = t3_9 := Fin.ext h9
  rfl

/-! ## The invariant at a point and at the next -/

/-- Before the first point the invariant is the scoped buffers as found; before a later point it holds the two totals at
    what the point before left, and after any point at what that point leaves. -/
theorem Φ_eq3 (c : Dev nD) (t : Fin (cfg3.N + 1)) : (dat3 V c).Φ t = Φ3 V c t := by dsimp only [dat3]

theorem Φ3_first (c : Dev nD) (t : Fin cfg3.N) (h0 : t.val = 0) : Φ3 V c t.castSucc = Pipeline.ΦA spec3 c := by
  unfold Φ3; rw [dif_pos (show (t.castSucc : ℕ) = 0 from h0)]

theorem Φ3_prev (c : Dev nD) (t : Fin cfg3.N) (h0 : t.val ≠ 0) :
    Φ3 V c t.castSucc
      = iprop(owns (c : Thread nD τ) (Memref.whole cc3_scratch0) fullShare (accAt3 V c (t.val - 1) (Nat.lt_of_le_of_lt (Nat.sub_le _ _) t.isLt)).1
        ∗ owns (c : Thread nD τ) (Memref.whole cc3_scratch1) fullShare (accAt3 V c (t.val - 1) (Nat.lt_of_le_of_lt (Nat.sub_le _ _) t.isLt)).2
        ∗ Pipeline.scopedRestBut (Ix := Unit) (Name := ℕ) (U := UR sig nD τ) (Lvl := ℕ) (Val := Elt F) spec3 c [cc3_scratch0, cc3_scratch1]
        ∗ ∃ r, prngReg c r) := by
  unfold Φ3; rw [dif_neg (show ¬(t.castSucc : ℕ) = 0 from h0)]; rfl

theorem Φ3_next (c : Dev nD) (t : Fin cfg3.N) :
    Φ3 V c t.succ
      = iprop(owns (c : Thread nD τ) (Memref.whole cc3_scratch0) fullShare (accAt3 V c t.val t.isLt).1
        ∗ owns (c : Thread nD τ) (Memref.whole cc3_scratch1) fullShare (accAt3 V c t.val t.isLt).2
        ∗ Pipeline.scopedRestBut (Ix := Unit) (Name := ℕ) (U := UR sig nD τ) (Lvl := ℕ) (Val := Elt F) spec3 c [cc3_scratch0, cc3_scratch1]
        ∗ ∃ r, prngReg c r) := by
  unfold Φ3; rw [dif_neg (show ¬(t.succ : ℕ) = 0 from Nat.succ_ne_zero _)]; rfl

/-- The call's scoped buffers, its two totals' buffers held as whole buffers at some contents. -/
theorem scopedRestOwns3 (c : Dev nD) :
    (Pipeline.scopedRest (Ix := Unit) (Name := ℕ) (U := UR sig nD τ) (Lvl := ℕ) (Val := Elt F) spec3 c : sProp 𝕄)
      = iprop(((∃ X, owns (c : Thread nD τ) (Memref.whole cc3_scratch0) fullShare X)
            ∗ (∃ X, owns (c : Thread nD τ) (Memref.whole cc3_scratch1) fullShare X))
          ∗ Pipeline.scopedRestBut (Ix := Unit) (Name := ℕ) (U := UR sig nD τ) (Lvl := ℕ) (Val := Elt F) spec3 c [cc3_scratch0, cc3_scratch1]) := by
  rw [scopedRest3_split]; simp only [owns_whole]

/-! ## The body's obligation, at a generic point -/

/-- What the body is called with at point t. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- What the body returns at point t: every input's buffer as found, the output's as found until the last point and at the stored block there. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ (dat3 V c).leavesExact 8 t)

set_option maxHeartbeats 1600000 in
/-- The body at any point. The first point finds the totals' buffers at anything and leaves them at the first block's share
    of the cleared totals; a middle point adds its block's share to what the point before left; the last point does the same
    and stores the head of the final totals to the output's buffer. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl,
    after3_0, after3_1, after3_2, after3_3, after3_4, after3_5, after3_6, after3_7, Φ_eq3, Φ_eq3]
  by_cases h0 : t.val = 0
  · have h9 : t.val ≠ 9 := by omega
    rw [Φ3_first V c t h0, Φ3_next V c t, accFst3_first V c t h0, accSnd3_first V c t h0,
      Dat.leavesExact_idle _ 8 t ((hidle3_8 t).mpr h9) (noflush3_8 t h9)]
    unfold Pipeline.ΦA; rw [scopedRestOwns3]
    iintro ⟨⟨⟨⟨S0, S1⟩, Hb⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (runA3 c Set.univ (grid3.coords t) _ _ _ _ _ _ _ _ _ _ _ _ _ _ _ _ _ _ _ _ _ _
      ((hcond3_1 t).mpr h0) (fun h => h9 ((hcond3_2 t).mp h)) (iblk3 V c 0 t) (iblk3 V c 1 t) _)
    isplitl [H0]; · iexact H0
    isplitl [H1]; · iexact H1
    isplitl [S0]; · iexact S0
    isplitl [S1]; · iexact S1
    iintro ⟨H0, H1, S0, S1⟩
    isplitl [S0 S1 Hb Hr]
    · isplitl [S0]; · iexact S0
      isplitl [S1]; · iexact S1
      isplitl [Hb]; · iexact Hb
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · by_cases h9 : t.val = 9
    · rw [Φ3_prev V c t h0, Φ3_next V c t, leavesExact_live3 V c t (live3_8 t h9), after3_8, outEq3_8 V c t h9,
        accFst3_later V c t h0, accSnd3_later V c t h0]
      iintro ⟨⟨S0, S1, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC3 c Set.univ (grid3.coords t) _ _ _ _ _ _ _ _ _ _ _ _ _ _ _ _ _ _ _ _ _ _
        (fun h => h0 ((hcond3_1 t).mp h)) ((hcond3_2 t).mpr h9)
        (iblk3 V c 0 t) (iblk3 V c 1 t) (iblk3 V c 2 t) (iblk3 V c 3 t) (iblk3 V c 4 t) (iblk3 V c 5 t) (iblk3 V c 6 t) (iblk3 V c 7 t)
        (accAt3 V c (t.val - 1) (Nat.lt_of_le_of_lt (Nat.sub_le _ _) t.isLt)).1
        (accAt3 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [S0]; · iexact S0
      isplitl [S1]; · iexact S1
      iintro ⟨H0, H1, H2, H3, H4, H5, H6, H7, H8, S0, S1⟩
      isplitl [S0 S1 Hb Hr]
      · isplitl [S0]; · iexact S0
        isplitl [S1]; · iexact S1
        isplitl [Hb]; · iexact Hb
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Φ3_prev V c t h0, Φ3_next V c t, accFst3_later V c t h0, accSnd3_later V c t h0,
        Dat.leavesExact_idle _ 8 t ((hidle3_8 t).mpr h9) (noflush3_8 t h9)]
      iintro ⟨⟨S0, S1, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (runB3 c Set.univ (grid3.coords t) _ _ _ _ _ _ _ _ _ _ _ _ _ _ _ _ _ _ _ _ _ _
        (fun h => h0 ((hcond3_1 t).mp h)) (fun h => h9 ((hcond3_2 t).mp h)) (iblk3 V c 0 t) (iblk3 V c 1 t)
        (accAt3 V c (t.val - 1) (Nat.lt_of_le_of_lt (Nat.sub_le _ _) t.isLt)).1
        (accAt3 V c (t.val - 1) (Nat.lt_of_le_of_lt (Nat.sub_le _ _) t.isLt)).2 _)
      isplitl [H0]; · iexact H0
      isplitl [H1]; · iexact H1
      isplitl [S0]; · iexact S0
      isplitl [S1]; · iexact S1
      iintro ⟨H0, H1, S0, S1⟩
      isplitl [S0 S1 Hb Hr]
      · isplitl [S0]; · iexact S0
        isplitl [S1]; · iexact S1
        isplitl [Hb]; · iexact Hb
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-! ## The invariant at the call's two ends -/

/-- Before the first point the invariant is the call's scoped buffers and the generator register. -/
theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  show _ ⊢ Φ3 V c 0
  unfold Φ3
  rw [dif_pos (show ((0 : Fin (cfg3.N + 1)) : ℕ) = 0 from rfl)]
  unfold Pipeline.ΦA
  iintro ⟨Hr, Hs⟩
  isplitl [Hs]; · iexact Hs
  iexact Hr

/-- After the last point the invariant gives them back: the two totals are scoped buffers at some contents again. -/
theorem hout3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  show Φ3 V c (Fin.last cfg3.N) ⊢ _
  unfold Φ3
  rw [dif_neg (by rw [Fin.val_last]; decide)]
  rw [scopedRest3_split, owns_whole (c : Thread nD τ) cc3_scratch0, owns_whole (c : Thread nD τ) cc3_scratch1]
  iintro ⟨H0, H1, Hb, Hr⟩
  isplitl [Hr]; · iexact Hr
  isplitr [Hb]
  · isplitl [H0]
    · iexists _; iexact H0
    · iexists _; iexact H1
  · iexact Hb

/-- The body's obligation at every point. -/
theorem body_obligation3 (c : Dev nD) : BodyObligation (dat3 (F := F) V c) (defs₀ (F := F)) Variants.none () Set.univ := fun t => by
  rw [bigSep_W3, bigSep_W3]
  exact sound_body3 V c t

end Cert.Kernel.Regs

end
-- ==== Proof.Kernel.Run.lean ====
/-
  The whole run of the program: four stretches of host operations alternating with the four kernel calls.

  Between two items every buffer that outlives a kernel call holds known contents: what the launch gave it, then what
  each host stretch computes from what it finds, then, after a kernel call, the call's arrays at what its write-backs
  leave and every other buffer as the call found it. These contents are folded through the program here, and the run is
  stated against the last fold: every execution ends, nothing faults, and every such buffer ends at it. The arguments
  are written by no item, so they end as launched.
-/
import proofs.«431204_j57801669869757_2_alg».proof.Proof.Kernel.Reg0
import proofs.«431204_j57801669869757_2_alg».proof.Proof.Kernel.Reg1
import proofs.«431204_j57801669869757_2_alg».proof.Proof.Kernel.Reg2
import proofs.«431204_j57801669869757_2_alg».proof.Proof.Kernel.Reg3
import proofs.«431204_j57801669869757_2_alg».proof.Proof.Kernel.RegionsP
import Idealize.ShloMosaic.Lib.Pipeline.Frame
import Idealize.ShloMosaic.Lib.Pipeline.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (the first call's entry). -/
abbrev W1 : Dev nD → Valuation τ sig (Elt F) := fun c => StableHlo.after GenP.hostOps0 (W0 m c)
abbrev U1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (Regs.dat0 (U1 m) c).arrAt w cfg0.N
abbrev W3 : Dev nD → Valuation τ sig (Elt F) := fun c => StableHlo.after GenP.hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (Regs.dat1 (U3 m) c).arrAt w cfg1.N
abbrev W5 : Dev nD → Valuation τ sig (Elt F) := fun c => StableHlo.after GenP.hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (Regs.dat2 (U5 m) c).arrAt w cfg2.N
abbrev W7 : Dev nD → Valuation τ sig (Elt F) := fun c => StableHlo.after GenP.hostOps3 (W6 m c)
abbrev U7 : (c : Dev nD) → (b : Ref sig .tc) → Buf (Elt F) ((c : Thread nD τ).loc b) := fun c b => W7 m c b
def W8 (c : Dev nD) : Valuation τ sig (Elt F) :=
  Pipeline.withArrays spec3 c (W7 m c) fun w => (Regs.dat3 (U7 m) c).arrAt w cfg3.N

theorem W2_arr (c : Dev nD) (w : Fin cfg0.W) :
    W2 m c (Proc.devRef .tc (Pipeline.arrRef spec0 w)) = (Regs.dat0 (U1 m) c).arrAt w cfg0.N := by
  unfold W2; exact Pipeline.withArrays_arr spec0 GenP.launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (Regs.dat1 (U3 m) c).arrAt w cfg1.N := by
  unfold W4; exact Pipeline.withArrays_arr spec1 GenP.launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (Regs.dat2 (U5 m) c).arrAt w cfg2.N := by
  unfold W6; exact Pipeline.withArrays_arr spec2 GenP.launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem W8_arr (c : Dev nD) (w : Fin cfg3.W) :
    W8 m c (Proc.devRef .tc (Pipeline.arrRef spec3 w)) = (Regs.dat3 (U7 m) c).arrAt w cfg3.N := by
  unfold W8; exact Pipeline.withArrays_arr spec3 GenP.launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

/-- An unscoped reference of the core is among those whose contents the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## After a call: its arrays at what it leaves, every other buffer as it was entered -/

/-- The contents after each call, read at the core's own references. -/
abbrev U2 : (c : Dev nD) → (b : Ref sig .tc) → Buf (Elt F) ((c : Thread nD τ).loc b) := fun c b => W2 m c b
abbrev U4 : (c : Dev nD) → (b : Ref sig .tc) → Buf (Elt F) ((c : Thread nD τ).loc b) := fun c b => W4 m c b
abbrev U6 : (c : Dev nD) → (b : Ref sig .tc) → Buf (Elt F) ((c : Thread nD τ).loc b) := fun c b => W6 m c b
abbrev U8 : (c : Dev nD) → (b : Ref sig .tc) → Buf (Elt F) ((c : Thread nD τ).loc b) := fun c b => W8 m c b

theorem hF0 (c : Dev nD) (w : Fin cfg0.W) : (Regs.dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
theorem hF1 (c : Dev nD) (w : Fin cfg1.W) : (Regs.dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
theorem hF2 (c : Dev nD) (w : Fin cfg2.W) : (Regs.dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
theorem hF3 (c : Dev nD) (w : Fin cfg3.W) : (Regs.dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)

/-! ## The calls' records and the state between items -/

/-- Each call's record, at the contents the call is entered with. -/
def pdats : (p : Fin 4) → (c : Dev nD) → Dat τ (Elt F) Unit ℕ (UR sig nD τ) ℕ (Pipeline.pin (pcfgs (F := F)) GenP.adm p) c
  | ⟨0, _⟩ => fun c => Regs.dat0 (U1 m) c
  | ⟨1, _⟩ => fun c => Regs.dat1 (U3 m) c
  | ⟨2, _⟩ => fun c => Regs.dat2 (U5 m) c
  | ⟨3, _⟩ => fun c => Regs.dat3 (U7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch between two boundaries: from the buffers at W it leaves them at what its operations compute from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The state at the return, without the core's dues: every buffer that outlives the calls at the last fold's contents,
    the generator register at some state. -/
abbrev Tₙ (c : Dev nD) : sProp 𝕄 := iprop(StableHlo.held (c : Thread nD τ) (Pipeline.ucRefs τ sig) (W8 m c) ∗ ∃ r, prngReg c r)

/-! ## The calls as items of the run -/

set_option backward.isDefEq.respectTransparency.types false in
/-- Call 0 between the items around it: entered with every buffer that outlives the calls at the contents before it,
    left with them at the contents after it. Its arrays are taken out of those buffers on entry and put back, at what
    the write-backs leave, on exit; the generator register goes into the call's invariant and comes back; the core
    owes nothing throughout, and the call has no semaphore of its own. -/
def reg0 : Pipeline.RegionSeg (pcfgs (F := F)) GenP.adm (pdats m) () defs₀ 𝒱₀ L lv 0 where
  win := GenP.launch0.win.to₀
  block_pos := GenP.launch0.block_pos
  stage_whole := GenP.launch0.stage_whole
  K := PEmpty
  osem k := k.elim
  ho := Pipeline.OwnSemFacts.none _
  hbody c := (Regs.body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) GenP.adm (pdats m) GenP.launch0.win GenP.launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      GenP.launch0.win GenP.launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 between the items around it: entered with every buffer that outlives the calls at the contents before it,
    left with them at the contents after it. Its arrays are taken out of those buffers on entry and put back, at what
    the write-backs leave, on exit; the generator register goes into the call's invariant and comes back; the core
    owes nothing throughout, and the call has no semaphore of its own. -/
def reg1 : Pipeline.RegionSeg (pcfgs (F := F)) GenP.adm (pdats m) () defs₀ 𝒱₀ L lv 1 where
  win := GenP.launch1.win.to₀
  block_pos := GenP.launch1.block_pos
  stage_whole := GenP.launch1.stage_whole
  K := PEmpty
  osem k := k.elim
  ho := Pipeline.OwnSemFacts.none _
  hbody c := (Regs.body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) GenP.adm (pdats m) GenP.launch1.win GenP.launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      GenP.launch1.win GenP.launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 between the items around it: entered with every buffer that outlives the calls at the contents before it,
    left with them at the contents after it. Its arrays are taken out of those buffers on entry and put back, at what
    the write-backs leave, on exit; the generator register goes into the call's invariant and comes back; the core
    owes nothing throughout, and the call has no semaphore of its own. -/
def reg2 : Pipeline.RegionSeg (pcfgs (F := F)) GenP.adm (pdats m) () defs₀ 𝒱₀ L lv 2 where
  win := GenP.launch2.win.to₀
  block_pos := GenP.launch2.block_pos
  stage_whole := GenP.launch2.stage_whole
  K := PEmpty
  osem k := k.elim
  ho := Pipeline.OwnSemFacts.none _
  hbody c := (Regs.body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) GenP.adm (pdats m) GenP.launch2.win GenP.launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      GenP.launch2.win GenP.launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 between the items around it: entered with every buffer that outlives the calls at the contents before it,
    left with them at the contents after it. Its arrays are taken out of those buffers on entry and put back, at what
    the write-backs leave, on exit; the generator register goes into the call's invariant and comes back; the core
    owes nothing throughout, and the call has no semaphore of its own. -/
def reg3 : Pipeline.RegionSeg (pcfgs (F := F)) GenP.adm (pdats m) () defs₀ 𝒱₀ L lv 3 where
  win := GenP.launch3.win.to₀
  block_pos := GenP.launch3.block_pos
  stage_whole := GenP.launch3.stage_whole
  K := PEmpty
  osem k := k.elim
  ho := Pipeline.OwnSemFacts.none _
  hbody c := (Regs.body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) GenP.adm (pdats m) GenP.launch3.win GenP.launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Regs.hin3 (U7 m) c)
    iintro ⟨Hp, -, Hr⟩
    isplitl [Hp]; · iexact Hp
    iexact Hr
  hout c := by
    rw [Pipeline.ownSems0_none]
    refine BIBase.Entails.trans (Regs.hout3 (U7 m) c) ?_
    iintro ⟨Hp, Hr⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      GenP.launch3.win GenP.launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's eight items in order: a host stretch from its boundary's contents, then the call it feeds. -/
abbrev segs : List (Pipeline.Seg (pcfgs (F := F)) GenP.adm (pdats m) () defs₀ 𝒱₀ L lv) :=
  [ .host (hseg GenP.hostOps0 GenP.hostOps0_sub GenP.hostOps0_fresh (W0 m)),
    .region (reg0 m),
    .host (hseg GenP.hostOps1 GenP.hostOps1_sub GenP.hostOps1_fresh (W2 m)),
    .region (reg1 m),
    .host (hseg GenP.hostOps2 GenP.hostOps2_sub GenP.hostOps2_fresh (W4 m)),
    .region (reg2 m),
    .host (hseg GenP.hostOps3 GenP.hostOps3_sub GenP.hostOps3_fresh (W6 m)),
    .region (reg3 m) ]
/-- The program is the run of its items. -/
theorem main_run (c : Dev nD) : main (F := F) c = Pipeline.Seg.run (segs m) := (GenP.main_chain c).trans (by chain_rfl)

set_option backward.isDefEq.respectTransparency.types false in
/-- Every execution of the program from memory m ends, nothing faulting, with every buffer that outlives the kernel calls
    at the last fold's contents. -/
theorem run : θ_run (defs (F := F)) (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) GenP.adm (pdats m) () GenP.cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs GenP.cellOf_inj) (Pipeline.launchToks cfgs GenP.cellOf_inj))
    (hu₀ := by
      iintro Hu; imodintro
      isplitl [Hu]
      · iapply (show (ownU (initOf (Pipeline.cells cfgs GenP.cellOf_inj) (Pipeline.launchToks cfgs GenP.cellOf_inj)) : sProp 𝕄)
            ⊢ BI.own (emb₁ (initOf (Pipeline.cells cfgs GenP.cellOf_inj) (Pipeline.launchToks cfgs GenP.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-! ## The arguments end as launched

No host stretch writes an argument, and a call that takes one takes it through an input window, whose array the call
leaves as it found it; so the fold at an argument's buffer walks back, item by item, to the launch memory. -/

/-- Argument 0 ends as launched: no host stretch writes it, and a call at most reads it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub GenP.hostOps3 _ GenP.hostOps3_writes (by decide)
    _ = W5 m c (Proc.devRef .tc main_arg0) := W6_of_ne m c main_arg0 (by decide)
    _ = W4 m c (Proc.devRef .tc main_arg0) := StableHlo.after_of_writes_sub GenP.hostOps2 _ GenP.hostOps2_writes (by decide)
    _ = W3 m c (Proc.devRef .tc main_arg0) := W4_of_ne m c main_arg0 (by decide)
    _ = W2 m c (Proc.devRef .tc main_arg0) := StableHlo.after_of_writes_sub GenP.hostOps1 _ GenP.hostOps1_writes (by decide)
    _ = W1 m c (Proc.devRef .tc main_arg0) := (W2_arr m c 1).trans (((Regs.dat0 (U1 m) c).arrAt_in 1 rfl _).trans (Regs.A_eq0 (U1 m) c 1))
    _ = W0 m c (Proc.devRef .tc main_arg0) := StableHlo.after_of_writes_sub GenP.hostOps0 _ GenP.hostOps0_writes (by decide)
    _ = m ((c : Thread nD τ).loc main_arg0) := rfl
/-- Argument 1 ends as launched: no host stretch writes it, and a call at most reads it. -/
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub GenP.hostOps3 _ GenP.hostOps3_writes (by decide)
    _ = W5 m c (Proc.devRef .tc main_arg1) := W6_of_ne m c main_arg1 (by decide)
    _ = W4 m c (Proc.devRef .tc main_arg1) := StableHlo.after_of_writes_sub GenP.hostOps2 _ GenP.hostOps2_writes (by decide)
    _ = W3 m c (Proc.devRef .tc main_arg1) := W4_of_ne m c main_arg1 (by decide)
    _ = W2 m c (Proc.devRef .tc main_arg1) := StableHlo.after_of_writes_sub GenP.hostOps1 _ GenP.hostOps1_writes (by decide)
    _ = W1 m c (Proc.devRef .tc main_arg1) := W2_of_ne m c main_arg1 (by decide)
    _ = W0 m c (Proc.devRef .tc main_arg1) := StableHlo.after_of_writes_sub GenP.hostOps0 _ GenP.hostOps0_writes (by decide)
    _ = m ((c : Thread nD τ).loc main_arg1) := rfl
/-- Argument 2 ends as launched: no host stretch writes it, and a call at most reads it. -/
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub GenP.hostOps3 _ GenP.hostOps3_writes (by decide)
    _ = W5 m c (Proc.devRef .tc main_arg2) := W6_of_ne m c main_arg2 (by decide)
    _ = W4 m c (Proc.devRef .tc main_arg2) := StableHlo.after_of_writes_sub GenP.hostOps2 _ GenP.hostOps2_writes (by decide)
    _ = W3 m c (Proc.devRef .tc main_arg2) := W4_of_ne m c main_arg2 (by decide)
    _ = W2 m c (Proc.devRef .tc main_arg2) := StableHlo.after_of_writes_sub GenP.hostOps1 _ GenP.hostOps1_writes (by decide)
    _ = W1 m c (Proc.devRef .tc main_arg2) := W2_of_ne m c main_arg2 (by decide)
    _ = W0 m c (Proc.devRef .tc main_arg2) := StableHlo.after_of_writes_sub GenP.hostOps0 _ GenP.hostOps0_writes (by decide)
    _ = m ((c : Thread nD τ).loc main_arg2) := rfl
/-- Argument 3 ends as launched: no host stretch writes it, and a call at most reads it. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub GenP.hostOps3 _ GenP.hostOps3_writes (by decide)
    _ = W5 m c (Proc.devRef .tc main_arg3) := W6_of_ne m c main_arg3 (by decide)
    _ = W4 m c (Proc.devRef .tc main_arg3) := StableHlo.after_of_writes_sub GenP.hostOps2 _ GenP.hostOps2_writes (by decide)
    _ = W3 m c (Proc.devRef .tc main_arg3) := W4_of_ne m c main_arg3 (by decide)
    _ = W2 m c (Proc.devRef .tc main_arg3) := StableHlo.after_of_writes_sub GenP.hostOps1 _ GenP.hostOps1_writes (by decide)
    _ = W1 m c (Proc.devRef .tc main_arg3) := (W2_arr m c 2).trans (((Regs.dat0 (U1 m) c).arrAt_in 2 rfl _).trans (Regs.A_eq0 (U1 m) c 2))
    _ = W0 m c (Proc.devRef .tc main_arg3) := StableHlo.after_of_writes_sub GenP.hostOps0 _ GenP.hostOps0_writes (by decide)
    _ = m ((c : Thread nD τ).loc main_arg3) := rfl
/-- Argument 4 ends as launched: no host stretch writes it, and a call at most reads it. -/
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub GenP.hostOps3 _ GenP.hostOps3_writes (by decide)
    _ = W5 m c (Proc.devRef .tc main_arg4) := W6_of_ne m c main_arg4 (by decide)
    _ = W4 m c (Proc.devRef .tc main_arg4) := StableHlo.after_of_writes_sub GenP.hostOps2 _ GenP.hostOps2_writes (by decide)
    _ = W3 m c (Proc.devRef .tc main_arg4) := W4_of_ne m c main_arg4 (by decide)
    _ = W2 m c (Proc.devRef .tc main_arg4) := StableHlo.after_of_writes_sub GenP.hostOps1 _ GenP.hostOps1_writes (by decide)
    _ = W1 m c (Proc.devRef .tc main_arg4) := W2_of_ne m c main_arg4 (by decide)
    _ = W0 m c (Proc.devRef .tc main_arg4) := StableHlo.after_of_writes_sub GenP.hostOps0 _ GenP.hostOps0_writes (by decide)
    _ = m ((c : Thread nD τ).loc main_arg4) := rfl
/-- Argument 5 ends as launched: no host stretch writes it, and a call at most reads it. -/
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub GenP.hostOps3 _ GenP.hostOps3_writes (by decide)
    _ = W5 m c (Proc.devRef .tc main_arg5) := W6_of_ne m c main_arg5 (by decide)
    _ = W4 m c (Proc.devRef .tc main_arg5) := StableHlo.after_of_writes_sub GenP.hostOps2 _ GenP.hostOps2_writes (by decide)
    _ = W3 m c (Proc.devRef .tc main_arg5) := W4_of_ne m c main_arg5 (by decide)
    _ = W2 m c (Proc.devRef .tc main_arg5) := StableHlo.after_of_writes_sub GenP.hostOps1 _ GenP.hostOps1_writes (by decide)
    _ = W1 m c (Proc.devRef .tc main_arg5) := (W2_arr m c 4).trans (((Regs.dat0 (U1 m) c).arrAt_in 4 rfl _).trans (Regs.A_eq0 (U1 m) c 4))
    _ = W0 m c (Proc.devRef .tc main_arg5) := StableHlo.after_of_writes_sub GenP.hostOps0 _ GenP.hostOps0_writes (by decide)
    _ = m ((c : Thread nD τ).loc main_arg5) := rfl
/-- Argument 6 ends as launched: no host stretch writes it, and a call at most reads it. -/
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := StableHlo.after_of_writes_sub GenP.hostOps3 _ GenP.hostOps3_writes (by decide)
    _ = W5 m c (Proc.devRef .tc main_arg6) := W6_of_ne m c main_arg6 (by decide)
    _ = W4 m c (Proc.devRef .tc main_arg6) := StableHlo.after_of_writes_sub GenP.hostOps2 _ GenP.hostOps2_writes (by decide)
    _ = W3 m c (Proc.devRef .tc main_arg6) := (W4_arr m c 2).trans (((Regs.dat1 (U3 m) c).arrAt_in 2 rfl _).trans (Regs.A_eq1 (U3 m) c 2))
    _ = W2 m c (Proc.devRef .tc main_arg6) := StableHlo.after_of_writes_sub GenP.hostOps1 _ GenP.hostOps1_writes (by decide)
    _ = W1 m c (Proc.devRef .tc main_arg6) := W2_of_ne m c main_arg6 (by decide)
    _ = W0 m c (Proc.devRef .tc main_arg6) := StableHlo.after_of_writes_sub GenP.hostOps0 _ GenP.hostOps0_writes (by decide)
    _ = m ((c : Thread nD τ).loc main_arg6) := rfl
/-- Argument 7 ends as launched: no host stretch writes it, and a call at most reads it. -/
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_of_ne m c main_arg7 (by decide)
    _ = W6 m c (Proc.devRef .tc main_arg7) := StableHlo.after_of_writes_sub GenP.hostOps3 _ GenP.hostOps3_writes (by decide)
    _ = W5 m c (Proc.devRef .tc main_arg7) := W6_of_ne m c main_arg7 (by decide)
    _ = W4 m c (Proc.devRef .tc main_arg7) := StableHlo.after_of_writes_sub GenP.hostOps2 _ GenP.hostOps2_writes (by decide)
    _ = W3 m c (Proc.devRef .tc main_arg7) := W4_of_ne m c main_arg7 (by decide)
    _ = W2 m c (Proc.devRef .tc main_arg7) := StableHlo.after_of_writes_sub GenP.hostOps1 _ GenP.hostOps1_writes (by decide)
    _ = W1 m c (Proc.devRef .tc main_arg7) := W2_of_ne m c main_arg7 (by decide)
    _ = W0 m c (Proc.devRef .tc main_arg7) := StableHlo.after_of_writes_sub GenP.hostOps0 _ GenP.hostOps0_writes (by decide)
    _ = m ((c : Thread nD τ).loc main_arg7) := rfl
/-- Argument 8 ends as launched: no host stretch writes it, and a call at most reads it. -/
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_of_ne m c main_arg8 (by decide)
    _ = W6 m c (Proc.devRef .tc main_arg8) := StableHlo.after_of_writes_sub GenP.hostOps3 _ GenP.hostOps3_writes (by decide)
    _ = W5 m c (Proc.devRef .tc main_arg8) := W6_of_ne m c main_arg8 (by decide)
    _ = W4 m c (Proc.devRef .tc main_arg8) := StableHlo.after_of_writes_sub GenP.hostOps2 _ GenP.hostOps2_writes (by decide)
    _ = W3 m c (Proc.devRef .tc main_arg8) := (W4_arr m c 4).trans (((Regs.dat1 (U3 m) c).arrAt_in 4 rfl _).trans (Regs.A_eq1 (U3 m) c 4))
    _ = W2 m c (Proc.devRef .tc main_arg8) := StableHlo.after_of_writes_sub GenP.hostOps1 _ GenP.hostOps1_writes (by decide)
    _ = W1 m c (Proc.devRef .tc main_arg8) := W2_of_ne m c main_arg8 (by decide)
    _ = W0 m c (Proc.devRef .tc main_arg8) := StableHlo.after_of_writes_sub GenP.hostOps0 _ GenP.hostOps0_writes (by decide)
    _ = m ((c : Thread nD τ).loc main_arg8) := rfl
/-- Argument 9 ends as launched: no host stretch writes it, and a call at most reads it. -/
theorem W8_main_arg9 (c : Dev nD) : W8 m c (Proc.devRef .tc main_arg9) = m ((c : Thread nD τ).loc main_arg9) :=
  calc W8 m c (Proc.devRef .tc main_arg9)
    _ = W7 m c (Proc.devRef .tc main_arg9) := W8_of_ne m c main_arg9 (by decide)
    _ = W6 m c (Proc.devRef .tc main_arg9) := StableHlo.after_of_writes_sub GenP.hostOps3 _ GenP.hostOps3_writes (by decide)
    _ = W5 m c (Proc.devRef .tc main_arg9) := (W6_arr m c 2).trans (((Regs.dat2 (U5 m) c).arrAt_in 2 rfl _).trans (Regs.A_eq2 (U5 m) c 2))
    _ = W4 m c (Proc.devRef .tc main_arg9) := StableHlo.after_of_writes_sub GenP.hostOps2 _ GenP.hostOps2_writes (by decide)
    _ = W3 m c (Proc.devRef .tc main_arg9) := W4_of_ne m c main_arg9 (by decide)
    _ = W2 m c (Proc.devRef .tc main_arg9) := StableHlo.after_of_writes_sub GenP.hostOps1 _ GenP.hostOps1_writes (by decide)
    _ = W1 m c (Proc.devRef .tc main_arg9) := W2_of_ne m c main_arg9 (by decide)
    _ = W0 m c (Proc.devRef .tc main_arg9) := StableHlo.after_of_writes_sub GenP.hostOps0 _ GenP.hostOps0_writes (by decide)
    _ = m ((c : Thread nD τ).loc main_arg9) := rfl
/-- Argument 10 ends as launched: no host stretch writes it, and a call at most reads it. -/
theorem W8_main_arg10 (c : Dev nD) : W8 m c (Proc.devRef .tc main_arg10) = m ((c : Thread nD τ).loc main_arg10) :=
  calc W8 m c (Proc.devRef .tc main_arg10)
    _ = W7 m c (Proc.devRef .tc main_arg10) := W8_of_ne m c main_arg10 (by decide)
    _ = W6 m c (Proc.devRef .tc main_arg10) := StableHlo.after_of_writes_sub GenP.hostOps3 _ GenP.hostOps3_writes (by decide)
    _ = W5 m c (Proc.devRef .tc main_arg10) := W6_of_ne m c main_arg10 (by decide)
    _ = W4 m c (Proc.devRef .tc main_arg10) := StableHlo.after_of_writes_sub GenP.hostOps2 _ GenP.hostOps2_writes (by decide)
    _ = W3 m c (Proc.devRef .tc main_arg10) := W4_of_ne m c main_arg10 (by decide)
    _ = W2 m c (Proc.devRef .tc main_arg10) := StableHlo.after_of_writes_sub GenP.hostOps1 _ GenP.hostOps1_writes (by decide)
    _ = W1 m c (Proc.devRef .tc main_arg10) := W2_of_ne m c main_arg10 (by decide)
    _ = W0 m c (Proc.devRef .tc main_arg10) := StableHlo.after_of_writes_sub GenP.hostOps0 _ GenP.hostOps0_writes (by decide)
    _ = m ((c : Thread nD τ).loc main_arg10) := rfl
/-- Argument 11 ends as launched: no host stretch writes it, and a call at most reads it. -/
theorem W8_main_arg11 (c : Dev nD) : W8 m c (Proc.devRef .tc main_arg11) = m ((c : Thread nD τ).loc main_arg11) :=
  calc W8 m c (Proc.devRef .tc main_arg11)
    _ = W7 m c (Proc.devRef .tc main_arg11) := W8_of_ne m c main_arg11 (by decide)
    _ = W6 m c (Proc.devRef .tc main_arg11) := StableHlo.after_of_writes_sub GenP.hostOps3 _ GenP.hostOps3_writes (by decide)
    _ = W5 m c (Proc.devRef .tc main_arg11) := (W6_arr m c 4).trans (((Regs.dat2 (U5 m) c).arrAt_in 4 rfl _).trans (Regs.A_eq2 (U5 m) c 4))
    _ = W4 m c (Proc.devRef .tc main_arg11) := StableHlo.after_of_writes_sub GenP.hostOps2 _ GenP.hostOps2_writes (by decide)
    _ = W3 m c (Proc.devRef .tc main_arg11) := W4_of_ne m c main_arg11 (by decide)
    _ = W2 m c (Proc.devRef .tc main_arg11) := StableHlo.after_of_writes_sub GenP.hostOps1 _ GenP.hostOps1_writes (by decide)
    _ = W1 m c (Proc.devRef .tc main_arg11) := W2_of_ne m c main_arg11 (by decide)
    _ = W0 m c (Proc.devRef .tc main_arg11) := StableHlo.after_of_writes_sub GenP.hostOps0 _ GenP.hostOps0_writes (by decide)
    _ = m ((c : Thread nD τ).loc main_arg11) := rfl
/-- Argument 12 ends as launched: no host stretch writes it, and a call at most reads it. -/
theorem W8_main_arg12 (c : Dev nD) : W8 m c (Proc.devRef .tc main_arg12) = m ((c : Thread nD τ).loc main_arg12) :=
  calc W8 m c (Proc.devRef .tc main_arg12)
    _ = W7 m c (Proc.devRef .tc main_arg12) := (W8_arr m c 2).trans (((Regs.dat3 (U7 m) c).arrAt_in 2 rfl _).trans (Regs.A_eq3 (U7 m) c 2))
    _ = W6 m c (Proc.devRef .tc main_arg12) := StableHlo.after_of_writes_sub GenP.hostOps3 _ GenP.hostOps3_writes (by decide)
    _ = W5 m c (Proc.devRef .tc main_arg12) := W6_of_ne m c main_arg12 (by decide)
    _ = W4 m c (Proc.devRef .tc main_arg12) := StableHlo.after_of_writes_sub GenP.hostOps2 _ GenP.hostOps2_writes (by decide)
    _ = W3 m c (Proc.devRef .tc main_arg12) := W4_of_ne m c main_arg12 (by decide)
    _ = W2 m c (Proc.devRef .tc main_arg12) := StableHlo.after_of_writes_sub GenP.hostOps1 _ GenP.hostOps1_writes (by decide)
    _ = W1 m c (Proc.devRef .tc main_arg12) := W2_of_ne m c main_arg12 (by decide)
    _ = W0 m c (Proc.devRef .tc main_arg12) := StableHlo.after_of_writes_sub GenP.hostOps0 _ GenP.hostOps0_writes (by decide)
    _ = m ((c : Thread nD τ).loc main_arg12) := rfl
/-- Argument 13 ends as launched: no host stretch writes it, and a call at most reads it. -/
theorem W8_main_arg13 (c : Dev nD) : W8 m c (Proc.devRef .tc main_arg13) = m ((c : Thread nD τ).loc main_arg13) :=
  calc W8 m c (Proc.devRef .tc main_arg13)
    _ = W7 m c (Proc.devRef .tc main_arg13) := W8_of_ne m c main_arg13 (by decide)
    _ = W6 m c (Proc.devRef .tc main_arg13) := StableHlo.after_of_writes_sub GenP.hostOps3 _ GenP.hostOps3_writes (by decide)
    _ = W5 m c (Proc.devRef .tc main_arg13) := W6_of_ne m c main_arg13 (by decide)
    _ = W4 m c (Proc.devRef .tc main_arg13) := StableHlo.after_of_writes_sub GenP.hostOps2 _ GenP.hostOps2_writes (by decide)
    _ = W3 m c (Proc.devRef .tc main_arg13) := W4_of_ne m c main_arg13 (by decide)
    _ = W2 m c (Proc.devRef .tc main_arg13) := StableHlo.after_of_writes_sub GenP.hostOps1 _ GenP.hostOps1_writes (by decide)
    _ = W1 m c (Proc.devRef .tc main_arg13) := W2_of_ne m c main_arg13 (by decide)
    _ = W0 m c (Proc.devRef .tc main_arg13) := StableHlo.after_of_writes_sub GenP.hostOps0 _ GenP.hostOps0_writes (by decide)
    _ = m ((c : Thread nD τ).loc main_arg13) := rfl
/-- Argument 14 ends as launched: no host stretch writes it, and a call at most reads it. -/
theorem W8_main_arg14 (c : Dev nD) : W8 m c (Proc.devRef .tc main_arg14) = m ((c : Thread nD τ).loc main_arg14) :=
  calc W8 m c (Proc.devRef .tc main_arg14)
    _ = W7 m c (Proc.devRef .tc main_arg14) := (W8_arr m c 4).trans (((Regs.dat3 (U7 m) c).arrAt_in 4 rfl _).trans (Regs.A_eq3 (U7 m) c 4))
    _ = W6 m c (Proc.devRef .tc main_arg14) := StableHlo.after_of_writes_sub GenP.hostOps3 _ GenP.hostOps3_writes (by decide)
    _ = W5 m c (Proc.devRef .tc main_arg14) := W6_of_ne m c main_arg14 (by decide)
    _ = W4 m c (Proc.devRef .tc main_arg14) := StableHlo.after_of_writes_sub GenP.hostOps2 _ GenP.hostOps2_writes (by decide)
    _ = W3 m c (Proc.devRef .tc main_arg14) := W4_of_ne m c main_arg14 (by decide)
    _ = W2 m c (Proc.devRef .tc main_arg14) := StableHlo.after_of_writes_sub GenP.hostOps1 _ GenP.hostOps1_writes (by decide)
    _ = W1 m c (Proc.devRef .tc main_arg14) := W2_of_ne m c main_arg14 (by decide)
    _ = W0 m c (Proc.devRef .tc main_arg14) := StableHlo.after_of_writes_sub GenP.hostOps0 _ GenP.hostOps0_writes (by decide)
    _ = m ((c : Thread nD τ).loc main_arg14) := rfl
/-- Argument 15 ends as launched: no host stretch writes it, and a call at most reads it. -/
theorem W8_main_arg15 (c : Dev nD) : W8 m c (Proc.devRef .tc main_arg15) = m ((c : Thread nD τ).loc main_arg15) :=
  calc W8 m c (Proc.devRef .tc main_arg15)
    _ = W7 m c (Proc.devRef .tc main_arg15) := W8_of_ne m c main_arg15 (by decide)
    _ = W6 m c (Proc.devRef .tc main_arg15) := StableHlo.after_of_writes_sub GenP.hostOps3 _ GenP.hostOps3_writes (by decide)
    _ = W5 m c (Proc.devRef .tc main_arg15) := W6_of_ne m c main_arg15 (by decide)
    _ = W4 m c (Proc.devRef .tc main_arg15) := StableHlo.after_of_writes_sub GenP.hostOps2 _ GenP.hostOps2_writes (by decide)
    _ = W3 m c (Proc.devRef .tc main_arg15) := W4_of_ne m c main_arg15 (by decide)
    _ = W2 m c (Proc.devRef .tc main_arg15) := StableHlo.after_of_writes_sub GenP.hostOps1 _ GenP.hostOps1_writes (by decide)
    _ = W1 m c (Proc.devRef .tc main_arg15) := W2_of_ne m c main_arg15 (by decide)
    _ = W0 m c (Proc.devRef .tc main_arg15) := StableHlo.after_of_writes_sub GenP.hostOps0 _ GenP.hostOps0_writes (by decide)
    _ = m ((c : Thread nD τ).loc main_arg15) := rfl
/-- Argument 16 ends as launched: no host stretch writes it, and a call at most reads it. -/
theorem W8_main_arg16 (c : Dev nD) : W8 m c (Proc.devRef .tc main_arg16) = m ((c : Thread nD τ).loc main_arg16) :=
  calc W8 m c (Proc.devRef .tc main_arg16)
    _ = W7 m c (Proc.devRef .tc main_arg16) := (W8_arr m c 6).trans (((Regs.dat3 (U7 m) c).arrAt_in 6 rfl _).trans (Regs.A_eq3 (U7 m) c 6))
    _ = W6 m c (Proc.devRef .tc main_arg16) := StableHlo.after_of_writes_sub GenP.hostOps3 _ GenP.hostOps3_writes (by decide)
    _ = W5 m c (Proc.devRef .tc main_arg16) := W6_of_ne m c main_arg16 (by decide)
    _ = W4 m c (Proc.devRef .tc main_arg16) := StableHlo.after_of_writes_sub GenP.hostOps2 _ GenP.hostOps2_writes (by decide)
    _ = W3 m c (Proc.devRef .tc main_arg16) := W4_of_ne m c main_arg16 (by decide)
    _ = W2 m c (Proc.devRef .tc main_arg16) := StableHlo.after_of_writes_sub GenP.hostOps1 _ GenP.hostOps1_writes (by decide)
    _ = W1 m c (Proc.devRef .tc main_arg16) := W2_of_ne m c main_arg16 (by decide)
    _ = W0 m c (Proc.devRef .tc main_arg16) := StableHlo.after_of_writes_sub GenP.hostOps0 _ GenP.hostOps0_writes (by decide)
    _ = m ((c : Thread nD τ).loc main_arg16) := rfl
/-- Argument 17 ends as launched: no host stretch writes it, and a call at most reads it. -/
theorem W8_main_arg17 (c : Dev nD) : W8 m c (Proc.devRef .tc main_arg17) = m ((c : Thread nD τ).loc main_arg17) :=
  calc W8 m c (Proc.devRef .tc main_arg17)
    _ = W7 m c (Proc.devRef .tc main_arg17) := W8_of_ne m c main_arg17 (by decide)
    _ = W6 m c (Proc.devRef .tc main_arg17) := StableHlo.after_of_writes_sub GenP.hostOps3 _ GenP.hostOps3_writes (by decide)
    _ = W5 m c (Proc.devRef .tc main_arg17) := W6_of_ne m c main_arg17 (by decide)
    _ = W4 m c (Proc.devRef .tc main_arg17) := StableHlo.after_of_writes_sub GenP.hostOps2 _ GenP.hostOps2_writes (by decide)
    _ = W3 m c (Proc.devRef .tc main_arg17) := W4_of_ne m c main_arg17 (by decide)
    _ = W2 m c (Proc.devRef .tc main_arg17) := StableHlo.after_of_writes_sub GenP.hostOps1 _ GenP.hostOps1_writes (by decide)
    _ = W1 m c (Proc.devRef .tc main_arg17) := W2_of_ne m c main_arg17 (by decide)
    _ = W0 m c (Proc.devRef .tc main_arg17) := StableHlo.after_of_writes_sub GenP.hostOps0 _ GenP.hostOps0_writes (by decide)
    _ = m ((c : Thread nD τ).loc main_arg17) := rfl

/-- The frame: the program runs to the end and its arguments end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run (defs (F := F)) (onTc (τ := τ) (main (F := F))) ⟨m, fun _ => 0, ρ⟩).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c),
     (h c _ (mem_uc main_arg12 (by decide))).trans (W8_main_arg12 m c),
     (h c _ (mem_uc main_arg13 (by decide))).trans (W8_main_arg13 m c),
     (h c _ (mem_uc main_arg14 (by decide))).trans (W8_main_arg14 m c),
     (h c _ (mem_uc main_arg15 (by decide))).trans (W8_main_arg15 m c),
     (h c _ (mem_uc main_arg16 (by decide))).trans (W8_main_arg16 m c),
     (h c _ (mem_uc main_arg17 (by decide))).trans (W8_main_arg17 m c)⟩) (run m ρ)

end Cert.Kernel.Run

end
-- ==== Proof.KernelIdeal.Reg0.lean ====
/-
  The first graph-convolution call, one grid point at a time.

  Its ten points each take a block of 5000 rows of the neighbour sums and of the node features, the two weight matrices
  and the bias row whole, and store one block of 5000 output rows: elu(agg · W_rel + b + h · W_root) of the rows it was
  given. Nothing is carried from one point to the next. What is fixed here, for any contents V of the buffers when the
  call begins: the block each window holds at a point, the block the body leaves in the output window, and the record
  of these that the pipeline's rule asks for, with the body's obligation at every point.
-/
import proofs.«431204_j57801669869757_2_alg».proof.Proof.KernelIdeal.LaunchP
import proofs.«431204_j57801669869757_2_alg».proof.Proof.Gen.KernelIdeal.Skeleton
import proofs.«431204_j57801669869757_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each buffer the body reads or writes. -/
abbrev r0_rows : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- What the body leaves in the output window's buffer, from the five input blocks: its one store. -/
def out0_5 (x0 x1 : Vec F S5000x128 .f32) (x2 : Vec F S128x128 .f32) (x3 : Vec F S1x128 .f32) (x4 : Vec F S128x128 .f32) :
    Vec F S5000x128 .f32 :=
  View.canon [⟨r0_rows, k0_pay1 (View.ld x0 r0_rows) (View.ld x1 r0_rows) (View.ld x2 r0_w) (View.ld x3 r0_b) (View.ld x4 r0_w)⟩]

/-- The record the pipeline's rule asks for: the arrays as found; after the body each input's buffer at its block and the
    output's at `out0_5` of the input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What each input's buffer holds when the body runs

An input window is never written by the body, is whole (no cut at the array's edge) and is live at every point. So
its current buffer holds the block its index names at that point, whether the pipeline moved it there at this point
or at an earlier one: where it was not moved, the index is the one of the point before, and so is the block. The row
blocks (windows 0, 1) are moved at every point; the two weight matrices and the bias row (windows 2, 3, 4) have a
constant index and are moved once, at the first point. -/

/-- The neighbour sums' row block. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The node features' row block. -/
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-- The first weight matrix, whole: moved in at the first point and unchanged since. -/
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := fun s => by
    rw [after0_2]; unfold Dat.blockOf iblk0; rw [A_eq0]; try rfl
  rw [(dat0 V c).before_in_eq_fetched 2 rfl (fun _ => rfl) (fun _ _ _ => rfl) hkeep t d]
  unfold Dat.fetched Dat.blockOf iblk0; rw [A_eq0]; try rfl

/-- The bias row, whole: moved in at the first point and unchanged since. -/
theorem before0_3 (c : Dev nD) (t : Fin cfg0.N) (d) : (dat0 V c).before 3 t d = iblk0 V c 3 t := by
  have hkeep : ∀ s, (cfg0.win 3).cut (cfg0.grid.coords s) ((dat0 V c).after 3 s) = (dat0 V c).blockOf 3 s := fun s => by
    rw [after0_3]; unfold Dat.blockOf iblk0; rw [A_eq0]; try rfl
  rw [(dat0 V c).before_in_eq_fetched 3 rfl (fun _ => rfl) (fun _ _ _ => rfl) hkeep t d]
  unfold Dat.fetched Dat.blockOf iblk0; rw [A_eq0]; try rfl

/-- The second weight matrix, whole: moved in at the first point and unchanged since. -/
theorem before0_4 (c : Dev nD) (t : Fin cfg0.N) (d) : (dat0 V c).before 4 t d = iblk0 V c 4 t := by
  have hkeep : ∀ s, (cfg0.win 4).cut (cfg0.grid.coords s) ((dat0 V c).after 4 s) = (dat0 V c).blockOf 4 s := fun s => by
    rw [after0_4]; unfold Dat.blockOf iblk0; rw [A_eq0]; try rfl
  rw [(dat0 V c).before_in_eq_fetched 4 rfl (fun _ => rfl) (fun _ _ _ => rfl) hkeep t d]
  unfold Dat.fetched Dat.blockOf iblk0; rw [A_eq0]; try rfl

/-! ## The body's one store fills the output buffer -/

/-- The store's rectangle is the whole output buffer: one tile of the buffer's size tiles it, so every index is covered. -/
theorem cover0_5 (p : Vec F S5000x128 .f32) (y : S5000x128.Idx) :
    ∃ pc ∈ ([⟨r0_rows, p⟩] : List (View.Piece (Elt F) S5000x128 .f32)), y ∈ pc.1.set :=
  View.cover_of_tiled [⟨r0_rows, p⟩] S5000x128.size (by rfl) y

/-! ## The body on any six whole buffers -/

set_option maxHeartbeats 1000000 in
/-- Run on whole buffers of which the five inputs read x0 .. x4 and the sixth holds anything, the body reads all six,
    leaves the inputs as they were and the sixth reading `out0_5 x0 x1 x2 x3 x4`: the old contents of the sixth are
    loaded but no stored value depends on them, and the one store covers it. -/
theorem sound_kernel0 (c : Dev nD) (E : Set ℕ) (i : grid0.Coords)
    (a0 : Memref sig .tc .vmem S5000x128 .f32) (h0 : a0.IsWhole) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S128x128 .f32) (h4 : a4.IsWhole) (a5 : Memref sig .tc .vmem S5000x128 .f32) (h5 : a5.IsWhole)
    (x0 x1 : Vec F S5000x128 .f32) (x2 : Vec F S128x128 .f32) (x3 : Vec F S1x128 .f32) (x4 : Vec F S128x128 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out0_5 x0 x1 x2 x3 x4)) -∗ K ⟨⟩))
      ⊢ wp frame (wpE (defs₀ (F := F)) Variants.none c none) E
          (cc0__graphconv_kernel i a0 h0 a1 h1 a2 h2 a3 h3 a4 h4 a5 h5) K := by
  simp only [cc0__graphconv_kernel_eq_skeleton]; unfold cc0__graphconv_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body at a point of the grid -/

/-- What the pipeline hands the body at point t: the class invariant, the core's debts, and the six current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it asks back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the five input buffers hold their blocks, so the body's run on whole buffers applies; the invariant
    and the debts are the same at t and t+1 and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regs

end
-- ==== Proof.KernelIdeal.Reg1.lean ====
/-
  The second graph-convolution call, one grid point at a time.

  Its ten points each take a block of 5000 rows of the neighbour sums and of the node features, the two weight matrices
  and the bias row whole, and store one block of 5000 output rows: elu(agg · W_rel + b + h · W_root) of the rows it was
  given. Nothing is carried from one point to the next. What is fixed here, for any contents V of the buffers when the
  call begins: the block each window holds at a point, the block the body leaves in the output window, and the record
  of these that the pipeline's rule asks for, with the body's obligation at every point.
-/
import proofs.«431204_j57801669869757_2_alg».proof.Proof.KernelIdeal.LaunchP
import proofs.«431204_j57801669869757_2_alg».proof.Proof.Gen.KernelIdeal.Skeleton
import proofs.«431204_j57801669869757_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of each buffer the body reads or writes. -/
abbrev r1_rows : Rect S5000x128 := Rect.unit (s := S5000x128) ![0, 0] S5000x128.size inb_S5000x128_S5000x128_0_0
abbrev r1_out : Rect S5000x256 := Rect.unit (s := S5000x256) ![0, 0] S5000x256.size inb_S5000x256_S5000x256_0_0
abbrev r1_w : Rect S128x256 := Rect.unit (s := S128x256) ![0, 0] S128x256.size inb_S128x256_S128x256_0_0
abbrev r1_b : Rect S1x256 := Rect.unit (s := S1x256) ![0, 0] S1x256.size inb_S1x256_S1x256_0_0

/-- What the body leaves in the output window's buffer, from the five input blocks: its one store. -/
def out1_5 (x0 x1 : Vec F S5000x128 .f32) (x2 : Vec F S128x256 .f32) (x3 : Vec F S1x256 .f32) (x4 : Vec F S128x256 .f32) :
    Vec F S5000x256 .f32 :=
  View.canon [⟨r1_out, k1_pay1 (View.ld x0 r1_rows) (View.ld x1 r1_rows) (View.ld x2 r1_w) (View.ld x3 r1_b) (View.ld x4 r1_w)⟩]

/-- The record the pipeline's rule asks for: the arrays as found; after the body each input's buffer at its block and the
    output's at `out1_5` of the input blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What each input's buffer holds when the body runs

An input window is never written by the body, is whole (no cut at the array's edge) and is live at every point. So
its current buffer holds the block its index names at that point, whether the pipeline moved it there at this point
or at an earlier one: where it was not moved, the index is the one of the point before, and so is the block. The row
blocks (windows 0, 1) are moved at every point; the two weight matrices and the bias row (windows 2, 3, 4) have a
constant index and are moved once, at the first point. -/

/-- The neighbour sums' row block. -/
theorem before1_0 (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := fun s => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The node features' row block. -/
theorem before1_1 (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := fun s => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-- The first weight matrix, whole: moved in at the first point and unchanged since. -/
theorem before1_2 (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := fun s => by
    rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

/-- The bias row, whole: moved in at the first point and unchanged since. -/
theorem before1_3 (c : Dev nD) (t : Fin cfg1.N) (d) : (dat1 V c).before 3 t d = iblk1 V c 3 t := by
  have hkeep : ∀ s, (cfg1.win 3).cut (cfg1.grid.coords s) ((dat1 V c).after 3 s) = (dat1 V c).blockOf 3 s := fun s => by
    rw [after1_3]; unfold Dat.blockOf iblk1; rw [A_eq1]; try rfl
  rw [(dat1 V c).before_in_eq_fetched 3 rfl (fun _ => rfl) (fun _ _ _ => rfl) hkeep t d]
  unfold Dat.fetched Dat.blockOf iblk1; rw [A_eq1]; try rfl

/-- The second weight matrix, whole: moved in at the first point and unchanged since. -/
theorem before1_4 (c : Dev nD) (t : Fin cfg1.N) (d) : (dat1 V c).before 4 t d = iblk1 V c 4 t := by
  have hkeep : ∀ s, (cfg1.win 4).cut (cfg1.grid.coords s) ((dat1 V c).after 4 s) = (dat1 V c).blockOf 4 s := fun s => by
    rw [after1_4]; unfold Dat.blockOf iblk1; rw [A_eq1]; try rfl
  rw [(dat1 V c).before_in_eq_fetched 4 rfl (fun _ => rfl) (fun _ _ _ => rfl) hkeep t d]
  unfold Dat.fetched Dat.blockOf iblk1; rw [A_eq1]; try rfl

/-! ## The body's one store fills the output buffer -/

/-- The store's rectangle is the whole output buffer: one tile of the buffer's size tiles it, so every index is covered. -/
theorem cover1_5 (p : Vec F S5000x256 .f32) (y : S5000x256.Idx) :
    ∃ pc ∈ ([⟨r1_out, p⟩] : List (View.Piece (Elt F) S5000x256 .f32)), y ∈ pc.1.set :=
  View.cover_of_tiled [⟨r1_out, p⟩] S5000x256.size (by rfl) y

/-! ## The body on any six whole buffers -/

set_option maxHeartbeats 1000000 in
/-- Run on whole buffers of which the five inputs read x0 .. x4 and the sixth holds anything, the body reads all six,
    leaves the inputs as they were and the sixth reading `out1_5 x0 x1 x2 x3 x4`: the old contents of the sixth are
    loaded but no stored value depends on them, and the one store covers it. -/
theorem sound_kernel1 (c : Dev nD) (E : Set ℕ) (i : grid1.Coords)
    (a0 : Memref sig .tc .vmem S5000x128 .f32) (h0 : a0.IsWhole) (a1 : Memref sig .tc .vmem S5000x128 .f32) (h1 : a1.IsWhole)
    (a2 : Memref sig .tc .vmem S128x256 .f32) (h2 : a2.IsWhole) (a3 : Memref sig .tc .vmem S1x256 .f32) (h3 : a3.IsWhole)
    (a4 : Memref sig .tc .vmem S128x256 .f32) (h4 : a4.IsWhole) (a5 : Memref sig .tc .vmem S5000x256 .f32) (h5 : a5.IsWhole)
    (x0 x1 : Vec F S5000x128 .f32) (x2 : Vec F S128x256 .f32) (x3 : Vec F S1x256 .f32) (x4 : Vec F S128x256 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out1_5 x0 x1 x2 x3 x4)) -∗ K ⟨⟩))
      ⊢ wp frame (wpE (defs₀ (F := F)) Variants.none c none) E
          (cc1__graphconv_kernel i a0 h0 a1 h1 a2 h2 a3 h3 a4 h4 a5 h5) K := by
  simp only [cc1__graphconv_kernel_eq_skeleton]; unfold cc1__graphconv_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body at a point of the grid -/

/-- What the pipeline hands the body at point t: the class invariant, the core's debts, and the six current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it asks back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the five input buffers hold their blocks, so the body's run on whole buffers applies; the invariant
    and the debts are the same at t and t+1 and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regs

end
-- ==== Proof.KernelIdeal.Reg2.lean ====
/-
  The third graph-convolution call, one grid point at a time.

  Its ten points each take a block of 5000 rows of the neighbour sums and of the node features, the two weight matrices
  and the bias row whole, and store one block of 5000 output rows: elu(agg · W_rel + b + h · W_root) of the rows it was
  given. Nothing is carried from one point to the next. What is fixed here, for any contents V of the buffers when the
  call begins: the block each window holds at a point, the block the body leaves in the output window, and the record
  of these that the pipeline's rule asks for, with the body's obligation at every point.
-/
import proofs.«431204_j57801669869757_2_alg».proof.Proof.KernelIdeal.LaunchP
import proofs.«431204_j57801669869757_2_alg».proof.Proof.Gen.KernelIdeal.Skeleton
import proofs.«431204_j57801669869757_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of each buffer the body reads or writes. -/
abbrev r2_rows : Rect S5000x256 := Rect.unit (s := S5000x256) ![0, 0] S5000x256.size inb_S5000x256_S5000x256_0_0
abbrev r2_out : Rect S5000x256 := Rect.unit (s := S5000x256) ![0, 0] S5000x256.size inb_S5000x256_S5000x256_0_0
abbrev r2_w : Rect S256x256 := Rect.unit (s := S256x256) ![0, 0] S256x256.size inb_S256x256_S256x256_0_0
abbrev r2_b : Rect S1x256 := Rect.unit (s := S1x256) ![0, 0] S1x256.size inb_S1x256_S1x256_0_0

/-- What the body leaves in the output window's buffer, from the five input blocks: its one store. -/
def out2_5 (x0 x1 : Vec F S5000x256 .f32) (x2 : Vec F S256x256 .f32) (x3 : Vec F S1x256 .f32) (x4 : Vec F S256x256 .f32) :
    Vec F S5000x256 .f32 :=
  View.canon [⟨r2_out, k2_pay1 (View.ld x0 r2_rows) (View.ld x1 r2_rows) (View.ld x2 r2_w) (View.ld x3 r2_b) (View.ld x4 r2_w)⟩]

/-- The record the pipeline's rule asks for: the arrays as found; after the body each input's buffer at its block and the
    output's at `out2_5` of the input blocks; nothing carried, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-! ## What each input's buffer holds when the body runs

An input window is never written by the body, is whole (no cut at the array's edge) and is live at every point. So
its current buffer holds the block its index names at that point, whether the pipeline moved it there at this point
or at an earlier one: where it was not moved, the index is the one of the point before, and so is the block. The row
blocks (windows 0, 1) are moved at every point; the two weight matrices and the bias row (windows 2, 3, 4) have a
constant index and are moved once, at the first point. -/

/-- The neighbour sums' row block. -/
theorem before2_0 (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := fun s => by
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

/-- The node features' row block. -/
theorem before2_1 (c : Dev nD) (t : Fin cfg2.N) (d) : (dat2 V c).before 1 t d = iblk2 V c 1 t := by
  have hkeep : ∀ s, (cfg2.win 1).cut (cfg2.grid.coords s) ((dat2 V c).after 1 s) = (dat2 V c).blockOf 1 s := fun s => by
    rw [after2_1]; unfold Dat.blockOf iblk2; rw [A_eq2]; try rfl
  rw [(dat2 V c).before_in_eq_fetched 1 rfl (fun _ => rfl) (fun _ _ _ => rfl) hkeep t d]
  unfold Dat.fetched Dat.blockOf iblk2; rw [A_eq2]; try rfl

/-- The first weight matrix, whole: moved in at the first point and unchanged since. -/
theorem before2_2 (c : Dev nD) (t : Fin cfg2.N) (d) : (dat2 V c).before 2 t d = iblk2 V c 2 t := by
  have hkeep : ∀ s, (cfg2.win 2).cut (cfg2.grid.coords s) ((dat2 V c).after 2 s) = (dat2 V c).blockOf 2 s := fun s => by
    rw [after2_2]; unfold Dat.blockOf iblk2; rw [A_eq2]; try rfl
  rw [(dat2 V c).before_in_eq_fetched 2 rfl (fun _ => rfl) (fun _ _ _ => rfl) hkeep t d]
  unfold Dat.fetched Dat.blockOf iblk2; rw [A_eq2]; try rfl

/-- The bias row, whole: moved in at the first point and unchanged since. -/
theorem before2_3 (c : Dev nD) (t : Fin cfg2.N) (d) : (dat2 V c).before 3 t d = iblk2 V c 3 t := by
  have hkeep : ∀ s, (cfg2.win 3).cut (cfg2.grid.coords s) ((dat2 V c).after 3 s) = (dat2 V c).blockOf 3 s := fun s => by
    rw [after2_3]; unfold Dat.blockOf iblk2; rw [A_eq2]; try rfl
  rw [(dat2 V c).before_in_eq_fetched 3 rfl (fun _ => rfl) (fun _ _ _ => rfl) hkeep t d]
  unfold Dat.fetched Dat.blockOf iblk2; rw [A_eq2]; try rfl

/-- The second weight matrix, whole: moved in at the first point and unchanged since. -/
theorem before2_4 (c : Dev nD) (t : Fin cfg2.N) (d) : (dat2 V c).before 4 t d = iblk2 V c 4 t := by
  have hkeep : ∀ s, (cfg2.win 4).cut (cfg2.grid.coords s) ((dat2 V c).after 4 s) = (dat2 V c).blockOf 4 s := fun s => by
    rw [after2_4]; unfold Dat.blockOf iblk2; rw [A_eq2]; try rfl
  rw [(dat2 V c).before_in_eq_fetched 4 rfl (fun _ => rfl) (fun _ _ _ => rfl) hkeep t d]
  unfold Dat.fetched Dat.blockOf iblk2; rw [A_eq2]; try rfl

/-! ## The body's one store fills the output buffer -/

/-- The store's rectangle is the whole output buffer: one tile of the buffer's size tiles it, so every index is covered. -/
theorem cover2_5 (p : Vec F S5000x256 .f32) (y : S5000x256.Idx) :
    ∃ pc ∈ ([⟨r2_out, p⟩] : List (View.Piece (Elt F) S5000x256 .f32)), y ∈ pc.1.set :=
  View.cover_of_tiled [⟨r2_out, p⟩] S5000x256.size (by rfl) y

/-! ## The body on any six whole buffers -/

set_option maxHeartbeats 1000000 in
/-- Run on whole buffers of which the five inputs read x0 .. x4 and the sixth holds anything, the body reads all six,
    leaves the inputs as they were and the sixth reading `out2_5 x0 x1 x2 x3 x4`: the old contents of the sixth are
    loaded but no stored value depends on them, and the one store covers it. -/
theorem sound_kernel2 (c : Dev nD) (E : Set ℕ) (i : grid2.Coords)
    (a0 : Memref sig .tc .vmem S5000x256 .f32) (h0 : a0.IsWhole) (a1 : Memref sig .tc .vmem S5000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S5000x256 .f32) (h5 : a5.IsWhole)
    (x0 x1 : Vec F S5000x256 .f32) (x2 : Vec F S256x256 .f32) (x3 : Vec F S1x256 .f32) (x4 : Vec F S256x256 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ (∃ d, owns (c : Thread nD τ) a5 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out2_5 x0 x1 x2 x3 x4)) -∗ K ⟨⟩))
      ⊢ wp frame (wpE (defs₀ (F := F)) Variants.none c none) E
          (cc2__graphconv_kernel i a0 h0 a1 h1 a2 h2 a3 h3 a4 h4 a5 h5) K := by
  simp only [cc2__graphconv_kernel_eq_skeleton]; unfold cc2__graphconv_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body at a point of the grid -/

/-- What the pipeline hands the body at point t: the class invariant, the core's debts, and the six current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it asks back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- At any point the five input buffers hold their blocks, so the body's run on whole buffers applies; the invariant
    and the debts are the same at t and t+1 and pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regs

end
-- ==== Proof.KernelIdeal.Reg3.lean ====
/-
  The pooling call, one grid point at a time.

  Its ten points each take a block of 5000 node rows and their 5000 graph ids. The first point clears two running totals
  kept beside the windows: per graph, the sum of its rows so far and the number of its rows so far. Every point adds its
  block's share to both: the one-hot matrix of the block's ids, transposed, times the block's rows; and that matrix's
  column sums. The last point divides the sums by max(count, 1), runs the three dense layers and the log-softmax, and
  stores the 512 × 10 result: the only store to the output window, which every earlier point leaves as it found it.
  What is fixed here, for any contents V of the buffers when the call begins: each window's block at a point, the two
  totals after point n, the block stored at the last point, and the record of these that the pipeline's rule asks for.
-/
import proofs.«431204_j57801669869757_2_alg».proof.Proof.KernelIdeal.LaunchP
import proofs.«431204_j57801669869757_2_alg».proof.Proof.Gen.KernelIdeal.Skeleton
import proofs.«431204_j57801669869757_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two running totals after point n: per graph the sum of its rows among the first n + 1 blocks, and their number.
    Point 0 starts from the cleared totals; point n + 1 adds its block's share to what point n left. -/
def accAt3 (c : Dev nD) : (n : Nat) → n < cfg3.N → Vec F S512x256 .f32 × Vec F S1x512 .f32
  | 0, h => (k3_pay4 (iblk3 V c 0 ⟨0, h⟩) (iblk3 V c 1 ⟨0, h⟩) (k3_pay1 (F := F)),
             k3_pay5 (iblk3 V c 1 ⟨0, h⟩) (k3_pay2 (F := F)))
  | n + 1, h => (k3_pay4 (iblk3 V c 0 ⟨n + 1, h⟩) (iblk3 V c 1 ⟨n + 1, h⟩) (accAt3 c n (Nat.lt_of_succ_lt h)).1,
                 k3_pay5 (iblk3 V c 1 ⟨n + 1, h⟩) (accAt3 c n (Nat.lt_of_succ_lt h)).2)

/-- The block the last point stores to the output window: the head applied to the final totals. -/
def out3_8 (c : Dev nD) : Vec F S512x10 .f32 :=
  k3_pay6
    (k3_pay7 (accAt3 V c 9 t3_9.isLt).2 (accAt3 V c 9 t3_9.isLt).1 (iblk3 V c 2 t3_9) (iblk3 V c 3 t3_9) (iblk3 V c 4 t3_9) (iblk3 V c 5 t3_9))
    (iblk3 V c 6 t3_9) (constant S512x10 .f32 0x00000000#32) (iblk3 V c 7 t3_9)

/-- What sits beside the windows between points: before the first point the call's scoped buffers as found; after point
    n the two totals in their buffers at `accAt3 n`, the other scoped buffers as found. -/
def Φ3 (c : Dev nD) (t : Fin (cfg3.N + 1)) : sProp 𝕄 :=
  if h : t.val = 0 then Pipeline.ΦA spec3 c
  else iprop(owns (c : Thread nD τ) (Memref.whole cc3_scratch0) fullShare (accAt3 V c (t.val - 1) (by have := t.isLt; omega)).1
        ∗ owns (c : Thread nD τ) (Memref.whole cc3_scratch1) fullShare (accAt3 V c (t.val - 1) (by have := t.isLt; omega)).2
        ∗ Pipeline.scopedRestBut (Ix := Unit) (Name := ℕ) (U := UR sig nD τ) (Lvl := ℕ) (Val := Elt F) spec3 c [cc3_scratch0, cc3_scratch1]
        ∗ ∃ r, prngReg c r)

/-- The record the pipeline's rule asks for. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 V c
  Φ t := Φ3 V c t
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 V c := by dsimp only [dat3]

/-! ## The body's two conditions, over the grid -/

/-- The condition under which the body clears the two totals, as the kernel computes it from the point's coordinate. -/
abbrev cond3_1 (i : grid3.Coords) : Prop := (Scalar.cmpi .ne (Scalar.extui (Scalar.cmpi .eq (BitVec.ofNat 32 (i 0).val) 0#32)) 0#32) = 1#1

/-- It holds at the first point only: decided over the grid. -/
theorem hcond3_1 : ∀ t : Fin cfg3.N, cond3_1 (grid3.coords t) ↔ t.val = 0 :=
  (by decide +kernel : ∀ t : Fin grid3.N, cond3_1 (grid3.coords t) ↔ t.val = 0)

/-- The head runs at the last point only: decided over the grid. -/
theorem hcond3_2 : ∀ t : Fin cfg3.N, k3_cond2 (grid3.coords t) = 1#1 ↔ t.val = 9 :=
  (by decide +kernel : ∀ t : Fin grid3.N, k3_cond2 (grid3.coords t) = 1#1 ↔ t.val = 9)

/-! ## Loads and stores of whole buffers -/

/-- The zero offsets, however they are spelt. -/
theorem hz3 : (![0, 0] : Fin 2 → ℕ) = fun _ => 0 := funext fun a => by fin_cases a <;> rfl

/-- One store through the whole of a buffer leaves its payload there, whatever the buffer held before. -/
theorem read_store_whole3 {κ : Kind} {sp : Space} {S : Shape} {e : EltTy} {off : Fin S.rank → ℕ} (h : off = fun _ => 0)
    (inb : ∀ a, off a + S.size a ≤ S.size a) (v : View sig κ sp S e) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-- A second store through the whole of a buffer leaves its own payload: the earlier one is gone. -/
theorem read_store_whole_cons3 {κ : Kind} {sp : Space} {S : Shape} {e : EltTy} {off : Fin S.rank → ℕ} (h : off = fun _ => 0)
    (inb : ∀ a, off a + S.size a ≤ S.size a) (v : View sig κ sp S e) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load through the whole of a buffer reads its contents. -/
theorem load_whole3 {κ : Kind} {sp : Space} {S : Shape} {e : EltTy} {m : Memref sig κ sp S e} (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-! ## The body's run, one control case at a time

Each case is stated over any whole buffers for the eleven operands, holding only those the case touches: the others stay
with the caller. -/

set_option maxHeartbeats 1000000 in
/-- A middle point: the two totals each take the block's share. -/
theorem runB3 (c : Dev nD) (E : Set ℕ) (i : grid3.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x256 .f32) (harg10 : arg10.IsWhole) (arg11 : Memref sig .tc .vmem S1x512 .f32) (harg11 : arg11.IsWhole)
    (hc1 : ¬cond3_1 i) (hc2 : ¬k3_cond2 i = 1#1)
    (x0 : Vec F S5000x256 .f32) (x1 : Vec F S5000x1 .i32) (s0 : Vec F S512x256 .f32) (s1 : Vec F S1x512 .f32) (K : PUnit → sProp 𝕄) :
    iprop(owns (c : Thread nD τ) arg1 fullShare x0 ∗ owns (c : Thread nD τ) arg2 fullShare x1
        ∗ owns (c : Thread nD τ) arg10 fullShare s0 ∗ owns (c : Thread nD τ) arg11 fullShare s1
        ∗ (iprop(owns (c : Thread nD τ) arg1 fullShare x0 ∗ owns (c : Thread nD τ) arg2 fullShare x1
            ∗ owns (c : Thread nD τ) arg10 fullShare (k3_pay4 x0 x1 s0) ∗ owns (c : Thread nD τ) arg11 fullShare (k3_pay5 x1 s1)) -∗ K ⟨⟩))
      ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11) K := by
  simp only [cc3__pool_mlp_kernel_eq_skeleton]; unfold cc3__pool_mlp_kernel_skel
  unfold owns
  iintro ⟨⟨%f0, %hf0, H0⟩, ⟨%f1, %hf1, H1⟩, ⟨%g0, %hg0, S0⟩, ⟨%g1, %hg1, S1⟩, Hk⟩
  obtain rfl := harg1.eq_unread hf0; obtain rfl := harg2.eq_unread hf1
  obtain rfl := harg10.eq_unread hg0; obtain rfl := harg11.eq_unread hg1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [S0]
  · iexists _; isplitr
    swap; · iexact S0
    ipureintro
    rw [read_store_whole3 hz3, load_whole3 harg1 hz3, load_whole3 harg2 hz3, load_whole3 harg10 hz3]
  · iexists _; isplitr
    swap; · iexact S1
    ipureintro
    rw [read_store_whole3 hz3, load_whole3 harg2 hz3, load_whole3 harg11 hz3]

set_option maxHeartbeats 1000000 in
/-- The first point: the two totals are cleared, whatever their buffers held, and then take the block's share. -/
theorem runA3 (c : Dev nD) (E : Set ℕ) (i : grid3.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x256 .f32) (harg10 : arg10.IsWhole) (arg11 : Memref sig .tc .vmem S1x512 .f32) (harg11 : arg11.IsWhole)
    (hc1 : cond3_1 i) (hc2 : ¬k3_cond2 i = 1#1)
    (x0 : Vec F S5000x256 .f32) (x1 : Vec F S5000x1 .i32) (K : PUnit → sProp 𝕄) :
    iprop(owns (c : Thread nD τ) arg1 fullShare x0 ∗ owns (c : Thread nD τ) arg2 fullShare x1
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1
            ∗ owns (c : Thread nD τ) arg10 fullShare (k3_pay4 x0 x1 (k3_pay1 (F := F)))
            ∗ owns (c : Thread nD τ) arg11 fullShare (k3_pay5 x1 (k3_pay2 (F := F)))) -∗ K ⟨⟩))
      ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11) K := by
  simp only [cc3__pool_mlp_kernel_eq_skeleton]; unfold cc3__pool_mlp_kernel_skel
  unfold owns
  iintro ⟨⟨%f0, %hf0, H0⟩, ⟨%f1, %hf1, H1⟩, ⟨%d0, %g0, -, S0⟩, ⟨%d1, %g1, -, S1⟩, Hk⟩
  obtain rfl := harg1.eq_unread hf0; obtain rfl := harg2.eq_unread hf1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [S0]
  · iexists _; isplitr
    swap; · iexact S0
    ipureintro
    sl_unfold_words
    rw [read_store_whole_cons3 hz3, load_whole3 harg1 hz3, load_whole3 harg2 hz3, View.readCov_unit_zero (S := S512x256) _ hz3]
  · iexists _; isplitr
    swap; · iexact S1
    ipureintro
    sl_unfold_words
    rw [read_store_whole_cons3 hz3, load_whole3 harg2 hz3, View.readCov_unit_zero (S := S1x512) _ hz3]

set_option maxHeartbeats 2000000 in
/-- The last point: the two totals take the block's share, and the head, applied to them and the weights, is stored to the
    output's buffer, whatever that held. -/
theorem runC3 (c : Dev nD) (E : Set ℕ) (i : grid3.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S512x10 .f32) (harg9 : arg9.IsWhole) (arg10 : Memref sig .tc .vmem S512x256 .f32) (harg10 : arg10.IsWhole) (arg11 : Memref sig .tc .vmem S1x512 .f32) (harg11 : arg11.IsWhole)
    (hc1 : ¬cond3_1 i) (hc2 : k3_cond2 i = 1#1)
    (x0 : Vec F S5000x256 .f32) (x1 : Vec F S5000x1 .i32) (x2 : Vec F S256x256 .f32) (x3 : Vec F S1x256 .f32)
    (x4 : Vec F S256x128 .f32) (x5 : Vec F S1x128 .f32) (x6 : Vec F S128x10 .f32) (x7 : Vec F S1x10 .f32)
    (s0 : Vec F S512x256 .f32) (s1 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ owns (c : Thread nD τ) arg10 fullShare s0 ∗ owns (c : Thread nD τ) arg11 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare
                (k3_pay6 (k3_pay7 (k3_pay5 x1 s1) (k3_pay4 x0 x1 s0) x2 x3 x4 x5) x6 (constant S512x10 .f32 0x00000000#32) x7)
            ∗ owns (c : Thread nD τ) arg10 fullShare (k3_pay4 x0 x1 s0) ∗ owns (c : Thread nD τ) arg11 fullShare (k3_pay5 x1 s1)) -∗ K ⟨⟩))
      ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11) K := by
  simp only [cc3__pool_mlp_kernel_eq_skeleton]; unfold cc3__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%g0, %hg0, S0⟩, ⟨%g1, %hg1, S1⟩, Hk⟩
  obtain rfl := harg1.eq_unread hf0; obtain rfl := harg2.eq_unread hf1
  obtain rfl := harg3.eq_unread hf2; obtain rfl := harg4.eq_unread hf3
  obtain rfl := harg5.eq_unread hf4; obtain rfl := harg6.eq_unread hf5
  obtain rfl := harg7.eq_unread hf6; obtain rfl := harg8.eq_unread hf7
  obtain rfl := harg10.eq_unread hg0; obtain rfl := harg11.eq_unread hg1
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    rw [read_store_whole3 hz3, View.readCov_unit_zero (S := S1x512) _ hz3, View.readCov_unit_zero (S := S512x256) _ hz3,
      load_whole3 harg1 hz3, load_whole3 harg2 hz3, load_whole3 harg3 hz3, load_whole3 harg4 hz3, load_whole3 harg5 hz3,
      load_whole3 harg6 hz3, load_whole3 harg7 hz3, load_whole3 harg8 hz3, load_whole3 harg10 hz3, load_whole3 harg11 hz3]
  isplitl [S0]
  · iexists _; isplitr
    swap; · iexact S0
    ipureintro
    sl_unfold_words
    rw [read_store_whole3 hz3, load_whole3 harg1 hz3, load_whole3 harg2 hz3, load_whole3 harg10 hz3]
  · iexists _; isplitr
    swap; · iexact S1
    ipureintro
    sl_unfold_words
    rw [read_store_whole3 hz3, load_whole3 harg2 hz3, load_whole3 harg11 hz3]

/-! ## What the body finds in the input windows -/

/-- Each input window's buffer holds its block at every point, fetched there or not: the body never writes it, and a window
    that is not fetched again has not moved. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)

/-! ## The output window is idle until the last point -/

/-- The grid has ten points. -/
theorem hN3 (t : Fin cfg3.N) : t.val < 10 := lt_of_lt_of_eq t.isLt (show cfg3.N = 10 from N_3)

/-- The output window is idle at every point but the last: decided over the grid. -/
theorem hidle3_8 : ∀ t : Fin cfg3.N, cfg3.idle 8 (cfg3.grid.coords t) = true ↔ t.val ≠ 9 :=
  (by decide +kernel : ∀ t : Fin grid3.N, idle3 8 (grid3.coords t) = true ↔ t.val ≠ 9)

/-- At the last point the output window is live. -/
theorem live3_8 (t : Fin cfg3.N) (h9 : t.val = 9) : cfg3.idle 8 (cfg3.grid.coords t) = false :=
  Bool.eq_false_iff.mpr fun h => (hidle3_8 t).mp h h9

/-- Before the last point the output window's block is not written back. -/
theorem noflush3_8 (t : Fin cfg3.N) (h9 : t.val ≠ 9) : (cfg3.win 8).flush t = false :=
  Bool.eq_false_iff.mpr fun h => h9 (by have := (flush3_8 t).mp h; have := hN3 t; omega)

/-- At the last point the output's buffer is left at the stored block. -/
theorem leavesExact_live3 (c : Dev nD) (t : Fin cfg3.N) (h : cfg3.idle 8 (cfg3.grid.coords t) = false) :
    (dat3 V c).leavesExact 8 t = owns (c : Thread nD τ) (st3_8 t) fullShare ((dat3 V c).after 8 t) := by
  unfold Dat.leavesExact; rw [h]

/-! ## The running totals, point by point -/

/-- After the first point the totals are the first block's share added to the cleared totals; after a later point, that
    point's block's share added to what the point before left. Component by component: -/
theorem accFst3_first (c : Dev nD) (t : Fin cfg3.N) (h0 : t.val = 0) :
    (accAt3 V c t.val t.isLt).1 = k3_pay4 (iblk3 V c 0 t) (iblk3 V c 1 t) (k3_pay1 (F := F)) := by
  obtain ⟨n, hn⟩ := t
  cases n with
  | zero => rfl
  | succ n => exact absurd h0 (Nat.succ_ne_zero n)

theorem accSnd3_first (c : Dev nD) (t : Fin cfg3.N) (h0 : t.val = 0) :
    (accAt3 V c t.val t.isLt).2 = k3_pay5 (iblk3 V c 1 t) (k3_pay2 (F := F)) := by
  obtain ⟨n, hn⟩ := t
  cases n with
  | zero => rfl
  | succ n => exact absurd h0 (Nat.succ_ne_zero n)

theorem accFst3_later (c : Dev nD) (t : Fin cfg3.N) (h0 : t.val ≠ 0) :
    (accAt3 V c t.val t.isLt).1
      = k3_pay4 (iblk3 V c 0 t) (iblk3 V c 1 t) (accAt3 V c (t.val - 1) (Nat.lt_of_le_of_lt (Nat.sub_le _ _) t.isLt)).1 := by
  obtain ⟨n, hn⟩ := t
  cases n with
  | zero => exact absurd rfl h0
  | succ n => rfl

theorem accSnd3_later (c : Dev nD) (t : Fin cfg3.N) (h0 : t.val ≠ 0) :
    (accAt3 V c t.val t.isLt).2
      = k3_pay5 (iblk3 V c 1 t) (accAt3 V c (t.val - 1) (Nat.lt_of_le_of_lt (Nat.sub_le _ _) t.isLt)).2 := by
  obtain ⟨n, hn⟩ := t
  cases n with
  | zero => exact absurd rfl h0
  | succ n => rfl

/-- The block stored at the last point, written over that point's blocks. -/
theorem outEq3_8 (c : Dev nD) (t : Fin cfg3.N) (h9 : t.val = 9) :
    out3_8 V c = k3_pay6
      (k3_pay7 (accAt3 V c t.val t.isLt).2 (accAt3 V c t.val t.isLt).1 (iblk3 V c 2 t) (iblk3 V c 3 t) (iblk3 V c 4 t) (iblk3 V c 5 t))
      (iblk3 V c 6 t) (constant S512x10 .f32 0x00000000#32) (iblk3 V c 7 t) := by
  obtain rfl : t = t3_9 := Fin.ext h9
  rfl

/-! ## The invariant at a point and at the next -/

/-- Before the first point the invariant is the scoped buffers as found; before a later point it holds the two totals at
    what the point before left, and after any point at what that point leaves. -/
theorem Φ_eq3 (c : Dev nD) (t : Fin (cfg3.N + 1)) : (dat3 V c).Φ t = Φ3 V c t := by dsimp only [dat3]

theorem Φ3_first (c : Dev nD) (t : Fin cfg3.N) (h0 : t.val = 0) : Φ3 V c t.castSucc = Pipeline.ΦA spec3 c := by
  unfold Φ3; rw [dif_pos (show (t.castSucc : ℕ) = 0 from h0)]

theorem Φ3_prev (c : Dev nD) (t : Fin cfg3.N) (h0 : t.val ≠ 0) :
    Φ3 V c t.castSucc
      = iprop(owns (c : Thread nD τ) (Memref.whole cc3_scratch0) fullShare (accAt3 V c (t.val - 1) (Nat.lt_of_le_of_lt (Nat.sub_le _ _) t.isLt)).1
        ∗ owns (c : Thread nD τ) (Memref.whole cc3_scratch1) fullShare (accAt3 V c (t.val - 1) (Nat.lt_of_le_of_lt (Nat.sub_le _ _) t.isLt)).2
        ∗ Pipeline.scopedRestBut (Ix := Unit) (Name := ℕ) (U := UR sig nD τ) (Lvl := ℕ) (Val := Elt F) spec3 c [cc3_scratch0, cc3_scratch1]
        ∗ ∃ r, prngReg c r) := by
  unfold Φ3; rw [dif_neg (show ¬(t.castSucc : ℕ) = 0 from h0)]; rfl

theorem Φ3_next (c : Dev nD) (t : Fin cfg3.N) :
    Φ3 V c t.succ
      = iprop(owns (c : Thread nD τ) (Memref.whole cc3_scratch0) fullShare (accAt3 V c t.val t.isLt).1
        ∗ owns (c : Thread nD τ) (Memref.whole cc3_scratch1) fullShare (accAt3 V c t.val t.isLt).2
        ∗ Pipeline.scopedRestBut (Ix := Unit) (Name := ℕ) (U := UR sig nD τ) (Lvl := ℕ) (Val := Elt F) spec3 c [cc3_scratch0, cc3_scratch1]
        ∗ ∃ r, prngReg c r) := by
  unfold Φ3; rw [dif_neg (show ¬(t.succ : ℕ) = 0 from Nat.succ_ne_zero _)]; rfl

/-- The call's scoped buffers, its two totals' buffers held as whole buffers at some contents. -/
theorem scopedRestOwns3 (c : Dev nD) :
    (Pipeline.scopedRest (Ix := Unit) (Name := ℕ) (U := UR sig nD τ) (Lvl := ℕ) (Val := Elt F) spec3 c : sProp 𝕄)
      = iprop(((∃ X, owns (c : Thread nD τ) (Memref.whole cc3_scratch0) fullShare X)
            ∗ (∃ X, owns (c : Thread nD τ) (Memref.whole cc3_scratch1) fullShare X))
          ∗ Pipeline.scopedRestBut (Ix := Unit) (Name := ℕ) (U := UR sig nD τ) (Lvl := ℕ) (Val := Elt F) spec3 c [cc3_scratch0, cc3_scratch1]) := by
  rw [scopedRest3_split]; simp only [owns_whole]

/-! ## The body's obligation, at a generic point -/

/-- What the body is called with at point t. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- What the body returns at point t: every input's buffer as found, the output's as found until the last point and at the stored block there. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ (dat3 V c).leavesExact 8 t)

set_option maxHeartbeats 1600000 in
/-- The body at any point. The first point finds the totals' buffers at anything and leaves them at the first block's share
    of the cleared totals; a middle point adds its block's share to what the point before left; the last point does the same
    and stores the head of the final totals to the output's buffer. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).owesAt () t.succ = (dat3 V c).owesAt () t.castSucc from rfl,
    after3_0, after3_1, after3_2, after3_3, after3_4, after3_5, after3_6, after3_7, Φ_eq3, Φ_eq3]
  by_cases h0 : t.val = 0
  · have h9 : t.val ≠ 9 := by omega
    rw [Φ3_first V c t h0, Φ3_next V c t, accFst3_first V c t h0, accSnd3_first V c t h0,
      Dat.leavesExact_idle _ 8 t ((hidle3_8 t).mpr h9) (noflush3_8 t h9)]
    unfold Pipeline.ΦA; rw [scopedRestOwns3]
    iintro ⟨⟨⟨⟨S0, S1⟩, Hb⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (runA3 c Set.univ (grid3.coords t) _ _ _ _ _ _ _ _ _ _ _ _ _ _ _ _ _ _ _ _ _ _
      ((hcond3_1 t).mpr h0) (fun h => h9 ((hcond3_2 t).mp h)) (iblk3 V c 0 t) (iblk3 V c 1 t) _)
    isplitl [H0]; · iexact H0
    isplitl [H1]; · iexact H1
    isplitl [S0]; · iexact S0
    isplitl [S1]; · iexact S1
    iintro ⟨H0, H1, S0, S1⟩
    isplitl [S0 S1 Hb Hr]
    · isplitl [S0]; · iexact S0
      isplitl [S1]; · iexact S1
      isplitl [Hb]; · iexact Hb
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · by_cases h9 : t.val = 9
    · rw [Φ3_prev V c t h0, Φ3_next V c t, leavesExact_live3 V c t (live3_8 t h9), after3_8, outEq3_8 V c t h9,
        accFst3_later V c t h0, accSnd3_later V c t h0]
      iintro ⟨⟨S0, S1, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC3 c Set.univ (grid3.coords t) _ _ _ _ _ _ _ _ _ _ _ _ _ _ _ _ _ _ _ _ _ _
        (fun h => h0 ((hcond3_1 t).mp h)) ((hcond3_2 t).mpr h9)
        (iblk3 V c 0 t) (iblk3 V c 1 t) (iblk3 V c 2 t) (iblk3 V c 3 t) (iblk3 V c 4 t) (iblk3 V c 5 t) (iblk3 V c 6 t) (iblk3 V c 7 t)
        (accAt3 V c (t.val - 1) (Nat.lt_of_le_of_lt (Nat.sub_le _ _) t.isLt)).1
        (accAt3 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [S0]; · iexact S0
      isplitl [S1]; · iexact S1
      iintro ⟨H0, H1, H2, H3, H4, H5, H6, H7, H8, S0, S1⟩
      isplitl [S0 S1 Hb Hr]
      · isplitl [S0]; · iexact S0
        isplitl [S1]; · iexact S1
        isplitl [Hb]; · iexact Hb
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Φ3_prev V c t h0, Φ3_next V c t, accFst3_later V c t h0, accSnd3_later V c t h0,
        Dat.leavesExact_idle _ 8 t ((hidle3_8 t).mpr h9) (noflush3_8 t h9)]
      iintro ⟨⟨S0, S1, Hb, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (runB3 c Set.univ (grid3.coords t) _ _ _ _ _ _ _ _ _ _ _ _ _ _ _ _ _ _ _ _ _ _
        (fun h => h0 ((hcond3_1 t).mp h)) (fun h => h9 ((hcond3_2 t).mp h)) (iblk3 V c 0 t) (iblk3 V c 1 t)
        (accAt3 V c (t.val - 1) (Nat.lt_of_le_of_lt (Nat.sub_le _ _) t.isLt)).1
        (accAt3 V c (t.val - 1) (Nat.lt_of_le_of_lt (Nat.sub_le _ _) t.isLt)).2 _)
      isplitl [H0]; · iexact H0
      isplitl [H1]; · iexact H1
      isplitl [S0]; · iexact S0
      isplitl [S1]; · iexact S1
      iintro ⟨H0, H1, S0, S1⟩
      isplitl [S0 S1 Hb Hr]
      · isplitl [S0]; · iexact S0
        isplitl [S1]; · iexact S1
        isplitl [Hb]; · iexact Hb
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-! ## The invariant at the call's two ends -/

/-- Before the first point the invariant is the call's scoped buffers and the generator register. -/
theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  show _ ⊢ Φ3 V c 0
  unfold Φ3
  rw [dif_pos (show ((0 : Fin (cfg3.N + 1)) : ℕ) = 0 from rfl)]
  unfold Pipeline.ΦA
  iintro ⟨Hr, Hs⟩
  isplitl [Hs]; · iexact Hs
  iexact Hr

/-- After the last point the invariant gives them back: the two totals are scoped buffers at some contents again. -/
theorem hout3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  show Φ3 V c (Fin.last cfg3.N) ⊢ _
  unfold Φ3
  rw [dif_neg (by rw [Fin.val_last]; decide)]
  rw [scopedRest3_split, owns_whole (c : Thread nD τ) cc3_scratch0, owns_whole (c : Thread nD τ) cc3_scratch1]
  iintro ⟨H0, H1, Hb, Hr⟩
  isplitl [Hr]; · iexact Hr
  isplitr [Hb]
  · isplitl [H0]
    · iexists _; iexact H0
    · iexists _; iexact H1
  · iexact Hb

/-- The body's obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Regs

end
-- ==== Proof.KernelIdeal.Run.lean ====
/-
  The whole run of the program: four stretches of host operations alternating with the four kernel calls.

  Between two items every buffer that outlives a kernel call holds known contents: what the launch gave it, then what
  each host stretch computes from what it finds, then, after a kernel call, the call's arrays at what its write-backs
  leave and every other buffer as the call found it. These contents are folded through the program here, and the run is
  stated against the last fold: every execution ends, nothing faults, and every such buffer ends at it. The arguments
  are written by no item, so they end as launched.
-/
import proofs.«431204_j57801669869757_2_alg».proof.Proof.KernelIdeal.Reg0
import proofs.«431204_j57801669869757_2_alg».proof.Proof.KernelIdeal.Reg1
import proofs.«431204_j57801669869757_2_alg».proof.Proof.KernelIdeal.Reg2
import proofs.«431204_j57801669869757_2_alg».proof.Proof.KernelIdeal.Reg3
import proofs.«431204_j57801669869757_2_alg».proof.Proof.KernelIdeal.RegionsP
import Idealize.ShloMosaic.Lib.Pipeline.Frame
import Idealize.ShloMosaic.Lib.Pipeline.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (the first call's entry). -/
abbrev W1 : Dev nD → Valuation τ sig (Elt F) := fun c => StableHlo.after GenP.hostOps0 (W0 m c)
abbrev U1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (Regs.dat0 (U1 m) c).arrAt w cfg0.N
abbrev W3 : Dev nD → Valuation τ sig (Elt F) := fun c => StableHlo.after GenP.hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (Regs.dat1 (U3 m) c).arrAt w cfg1.N
abbrev W5 : Dev nD → Valuation τ sig (Elt F) := fun c => StableHlo.after GenP.hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (Regs.dat2 (U5 m) c).arrAt w cfg2.N
abbrev W7 : Dev nD → Valuation τ sig (Elt F) := fun c => StableHlo.after GenP.hostOps3 (W6 m c)
abbrev U7 : (c : Dev nD) → (b : Ref sig .tc) → Buf (Elt F) ((c : Thread nD τ).loc b) := fun c b => W7 m c b
def W8 (c : Dev nD) : Valuation τ sig (Elt F) :=
  Pipeline.withArrays spec3 c (W7 m c) fun w => (Regs.dat3 (U7 m) c).arrAt w cfg3.N

theorem W2_arr (c : Dev nD) (w : Fin cfg0.W) :
    W2 m c (Proc.devRef .tc (Pipeline.arrRef spec0 w)) = (Regs.dat0 (U1 m) c).arrAt w cfg0.N := by
  unfold W2; exact Pipeline.withArrays_arr spec0 GenP.launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (Regs.dat1 (U3 m) c).arrAt w cfg1.N := by
  unfold W4; exact Pipeline.withArrays_arr spec1 GenP.launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (Regs.dat2 (U5 m) c).arrAt w cfg2.N := by
  unfold W6; exact Pipeline.withArrays_arr spec2 GenP.launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem W8_arr (c : Dev nD) (w : Fin cfg3.W) :
    W8 m c (Proc.devRef .tc (Pipeline.arrRef spec3 w)) = (Regs.dat3 (U7 m) c).arrAt w cfg3.N := by
  unfold W8; exact Pipeline.withArrays_arr spec3 GenP.launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

/-- An unscoped reference of the core is among those whose contents the run names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## After a call: its arrays at what it leaves, every other buffer as it was entered -/

/-- The contents after each call, read at the core's own references. -/
abbrev U2 : (c : Dev nD) → (b : Ref sig .tc) → Buf (Elt F) ((c : Thread nD τ).loc b) := fun c b => W2 m c b
abbrev U4 : (c : Dev nD) → (b : Ref sig .tc) → Buf (Elt F) ((c : Thread nD τ).loc b) := fun c b => W4 m c b
abbrev U6 : (c : Dev nD) → (b : Ref sig .tc) → Buf (Elt F) ((c : Thread nD τ).loc b) := fun c b => W6 m c b
abbrev U8 : (c : Dev nD) → (b : Ref sig .tc) → Buf (Elt F) ((c : Thread nD τ).loc b) := fun c b => W8 m c b

theorem hF0 (c : Dev nD) (w : Fin cfg0.W) : (Regs.dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
theorem hF1 (c : Dev nD) (w : Fin cfg1.W) : (Regs.dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
theorem hF2 (c : Dev nD) (w : Fin cfg2.W) : (Regs.dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
theorem hF3 (c : Dev nD) (w : Fin cfg3.W) : (Regs.dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)

/-! ## The calls' records and the state between items -/

/-- Each call's record, at the contents the call is entered with. -/
def pdats : (p : Fin 4) → (c : Dev nD) → Dat τ (Elt F) Unit ℕ (UR sig nD τ) ℕ (Pipeline.pin (pcfgs (F := F)) GenP.adm p) c
  | ⟨0, _⟩ => fun c => Regs.dat0 (U1 m) c
  | ⟨1, _⟩ => fun c => Regs.dat1 (U3 m) c
  | ⟨2, _⟩ => fun c => Regs.dat2 (U5 m) c
  | ⟨3, _⟩ => fun c => Regs.dat3 (U7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch between two boundaries: from the buffers at W it leaves them at what its operations compute from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The state at the return, without the core's dues: every buffer that outlives the calls at the last fold's contents,
    the generator register at some state. -/
abbrev Tₙ (c : Dev nD) : sProp 𝕄 := iprop(StableHlo.held (c : Thread nD τ) (Pipeline.ucRefs τ sig) (W8 m c) ∗ ∃ r, prngReg c r)

/-! ## The calls as items of the run -/

set_option backward.isDefEq.respectTransparency.types false in
/-- Call 0 between the items around it: entered with every buffer that outlives the calls at the contents before it,
    left with them at the contents after it. Its arrays are taken out of those buffers on entry and put back, at what
    the write-backs leave, on exit; the generator register goes into the call's invariant and comes back; the core
    owes nothing throughout, and the call has no semaphore of its own. -/
def reg0 : Pipeline.RegionSeg (pcfgs (F := F)) GenP.adm (pdats m) () defs₀ 𝒱₀ L lv 0 where
  win := GenP.launch0.win.to₀
  block_pos := GenP.launch0.block_pos
  stage_whole := GenP.launch0.stage_whole
  K := PEmpty
  osem k := k.elim
  ho := Pipeline.OwnSemFacts.none _
  hbody c := (Regs.body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) GenP.adm (pdats m) GenP.launch0.win GenP.launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      GenP.launch0.win GenP.launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 between the items around it: entered with every buffer that outlives the calls at the contents before it,
    left with them at the contents after it. Its arrays are taken out of those buffers on entry and put back, at what
    the write-backs leave, on exit; the generator register goes into the call's invariant and comes back; the core
    owes nothing throughout, and the call has no semaphore of its own. -/
def reg1 : Pipeline.RegionSeg (pcfgs (F := F)) GenP.adm (pdats m) () defs₀ 𝒱₀ L lv 1 where
  win := GenP.launch1.win.to₀
  block_pos := GenP.launch1.block_pos
  stage_whole := GenP.launch1.stage_whole
  K := PEmpty
  osem k := k.elim
  ho := Pipeline.OwnSemFacts.none _
  hbody c := (Regs.body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) GenP.adm (pdats m) GenP.launch1.win GenP.launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      GenP.launch1.win GenP.launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 between the items around it: entered with every buffer that outlives the calls at the contents before it,
    left with them at the contents after it. Its arrays are taken out of those buffers on entry and put back, at what
    the write-backs leave, on exit; the generator register goes into the call's invariant and comes back; the core
    owes nothing throughout, and the call has no semaphore of its own. -/
def reg2 : Pipeline.RegionSeg (pcfgs (F := F)) GenP.adm (pdats m) () defs₀ 𝒱₀ L lv 2 where
  win := GenP.launch2.win.to₀
  block_pos := GenP.launch2.block_pos
  stage_whole := GenP.launch2.stage_whole
  K := PEmpty
  osem k := k.elim
  ho := Pipeline.OwnSemFacts.none _
  hbody c := (Regs.body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) GenP.adm (pdats m) GenP.launch2.win GenP.launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      GenP.launch2.win GenP.launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 between the items around it: entered with every buffer that outlives the calls at the contents before it,
    left with them at the contents after it. Its arrays are taken out of those buffers on entry and put back, at what
    the write-backs leave, on exit; the generator register goes into the call's invariant and comes back; the core
    owes nothing throughout, and the call has no semaphore of its own. -/
def reg3 : Pipeline.RegionSeg (pcfgs (F := F)) GenP.adm (pdats m) () defs₀ 𝒱₀ L lv 3 where
  win := GenP.launch3.win.to₀
  block_pos := GenP.launch3.block_pos
  stage_whole := GenP.launch3.stage_whole
  K := PEmpty
  osem k := k.elim
  ho := Pipeline.OwnSemFacts.none _
  hbody c := (Regs.body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) GenP.adm (pdats m) GenP.launch3.win GenP.launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Regs.hin3 (U7 m) c)
    iintro ⟨Hp, -, Hr⟩
    isplitl [Hp]; · iexact Hp
    iexact Hr
  hout c := by
    rw [Pipeline.ownSems0_none]
    refine BIBase.Entails.trans (Regs.hout3 (U7 m) c) ?_
    iintro ⟨Hp, Hr⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      GenP.launch3.win GenP.launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's eight items in order: a host stretch from its boundary's contents, then the call it feeds. -/
abbrev segs : List (Pipeline.Seg (pcfgs (F := F)) GenP.adm (pdats m) () defs₀ 𝒱₀ L lv) :=
  [ .host (hseg GenP.hostOps0 GenP.hostOps0_sub GenP.hostOps0_fresh (W0 m)),
    .region (reg0 m),
    .host (hseg GenP.hostOps1 GenP.hostOps1_sub GenP.hostOps1_fresh (W2 m)),
    .region (reg1 m),
    .host (hseg GenP.hostOps2 GenP.hostOps2_sub GenP.hostOps2_fresh (W4 m)),
    .region (reg2 m),
    .host (hseg GenP.hostOps3 GenP.hostOps3_sub GenP.hostOps3_fresh (W6 m)),
    .region (reg3 m) ]
/-- The program is the run of its items. -/
theorem main_run (c : Dev nD) : main (F := F) c = Pipeline.Seg.run (segs m) := (GenP.main_chain c).trans (by chain_rfl)

set_option backward.isDefEq.respectTransparency.types false in
/-- Every execution of the program from memory m ends, nothing faulting, with every buffer that outlives the kernel calls
    at the last fold's contents. -/
theorem run : θ_run (defs (F := F)) (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) GenP.adm (pdats m) () GenP.cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs GenP.cellOf_inj) (Pipeline.launchToks cfgs GenP.cellOf_inj))
    (hu₀ := by
      iintro Hu; imodintro
      isplitl [Hu]
      · iapply (show (ownU (initOf (Pipeline.cells cfgs GenP.cellOf_inj) (Pipeline.launchToks cfgs GenP.cellOf_inj)) : sProp 𝕄)
            ⊢ BI.own (emb₁ (initOf (Pipeline.cells cfgs GenP.cellOf_inj) (Pipeline.launchToks cfgs GenP.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-! ## The arguments end as launched

No host stretch writes an argument, and a call that takes one takes it through an input window, whose array the call
leaves as it found it; so the fold at an argument's buffer walks back, item by item, to the launch memory. -/

/-- Argument 0 ends as launched: no host stretch writes it, and a call at most reads it. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub GenP.hostOps3 _ GenP.hostOps3_writes (by decide)
    _ = W5 m c (Proc.devRef .tc main_arg0) := W6_of_ne m c main_arg0 (by decide)
    _ = W4 m c (Proc.devRef .tc main_arg0) := StableHlo.after_of_writes_sub GenP.hostOps2 _ GenP.hostOps2_writes (by decide)
    _ = W3 m c (Proc.devRef .tc main_arg0) := W4_of_ne m c main_arg0 (by decide)
    _ = W2 m c (Proc.devRef .tc main_arg0) := StableHlo.after_of_writes_sub GenP.hostOps1 _ GenP.hostOps1_writes (by decide)
    _ = W1 m c (Proc.devRef .tc main_arg0) := (W2_arr m c 1).trans (((Regs.dat0 (U1 m) c).arrAt_in 1 rfl _).trans (Regs.A_eq0 (U1 m) c 1))
    _ = W0 m c (Proc.devRef .tc main_arg0) := StableHlo.after_of_writes_sub GenP.hostOps0 _ GenP.hostOps0_writes (by decide)
    _ = m ((c : Thread nD τ).loc main_arg0) := rfl
/-- Argument 1 ends as launched: no host stretch writes it, and a call at most reads it. -/
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub GenP.hostOps3 _ GenP.hostOps3_writes (by decide)
    _ = W5 m c (Proc.devRef .tc main_arg1) := W6_of_ne m c main_arg1 (by decide)
    _ = W4 m c (Proc.devRef .tc main_arg1) := StableHlo.after_of_writes_sub GenP.hostOps2 _ GenP.hostOps2_writes (by decide)
    _ = W3 m c (Proc.devRef .tc main_arg1) := W4_of_ne m c main_arg1 (by decide)
    _ = W2 m c (Proc.devRef .tc main_arg1) := StableHlo.after_of_writes_sub GenP.hostOps1 _ GenP.hostOps1_writes (by decide)
    _ = W1 m c (Proc.devRef .tc main_arg1) := W2_of_ne m c main_arg1 (by decide)
    _ = W0 m c (Proc.devRef .tc main_arg1) := StableHlo.after_of_writes_sub GenP.hostOps0 _ GenP.hostOps0_writes (by decide)
    _ = m ((c : Thread nD τ).loc main_arg1) := rfl
/-- Argument 2 ends as launched: no host stretch writes it, and a call at most reads it. -/
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub GenP.hostOps3 _ GenP.hostOps3_writes (by decide)
    _ = W5 m c (Proc.devRef .tc main_arg2) := W6_of_ne m c main_arg2 (by decide)
    _ = W4 m c (Proc.devRef .tc main_arg2) := StableHlo.after_of_writes_sub GenP.hostOps2 _ GenP.hostOps2_writes (by decide)
    _ = W3 m c (Proc.devRef .tc main_arg2) := W4_of_ne m c main_arg2 (by decide)
    _ = W2 m c (Proc.devRef .tc main_arg2) := StableHlo.after_of_writes_sub GenP.hostOps1 _ GenP.hostOps1_writes (by decide)
    _ = W1 m c (Proc.devRef .tc main_arg2) := W2_of_ne m c main_arg2 (by decide)
    _ = W0 m c (Proc.devRef .tc main_arg2) := StableHlo.after_of_writes_sub GenP.hostOps0 _ GenP.hostOps0_writes (by decide)
    _ = m ((c : Thread nD τ).loc main_arg2) := rfl
/-- Argument 3 ends as launched: no host stretch writes it, and a call at most reads it. -/
theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub GenP.hostOps3 _ GenP.hostOps3_writes (by decide)
    _ = W5 m c (Proc.devRef .tc main_arg3) := W6_of_ne m c main_arg3 (by decide)
    _ = W4 m c (Proc.devRef .tc main_arg3) := StableHlo.after_of_writes_sub GenP.hostOps2 _ GenP.hostOps2_writes (by decide)
    _ = W3 m c (Proc.devRef .tc main_arg3) := W4_of_ne m c main_arg3 (by decide)
    _ = W2 m c (Proc.devRef .tc main_arg3) := StableHlo.after_of_writes_sub GenP.hostOps1 _ GenP.hostOps1_writes (by decide)
    _ = W1 m c (Proc.devRef .tc main_arg3) := (W2_arr m c 2).trans (((Regs.dat0 (U1 m) c).arrAt_in 2 rfl _).trans (Regs.A_eq0 (U1 m) c 2))
    _ = W0 m c (Proc.devRef .tc main_arg3) := StableHlo.after_of_writes_sub GenP.hostOps0 _ GenP.hostOps0_writes (by decide)
    _ = m ((c : Thread nD τ).loc main_arg3) := rfl
/-- Argument 4 ends as launched: no host stretch writes it, and a call at most reads it. -/
theorem W8_main_arg4 (c : Dev nD) : W8 m c (Proc.devRef .tc main_arg4) = m ((c : Thread nD τ).loc main_arg4) :=
  calc W8 m c (Proc.devRef .tc main_arg4)
    _ = W7 m c (Proc.devRef .tc main_arg4) := W8_of_ne m c main_arg4 (by decide)
    _ = W6 m c (Proc.devRef .tc main_arg4) := StableHlo.after_of_writes_sub GenP.hostOps3 _ GenP.hostOps3_writes (by decide)
    _ = W5 m c (Proc.devRef .tc main_arg4) := W6_of_ne m c main_arg4 (by decide)
    _ = W4 m c (Proc.devRef .tc main_arg4) := StableHlo.after_of_writes_sub GenP.hostOps2 _ GenP.hostOps2_writes (by decide)
    _ = W3 m c (Proc.devRef .tc main_arg4) := W4_of_ne m c main_arg4 (by decide)
    _ = W2 m c (Proc.devRef .tc main_arg4) := StableHlo.after_of_writes_sub GenP.hostOps1 _ GenP.hostOps1_writes (by decide)
    _ = W1 m c (Proc.devRef .tc main_arg4) := W2_of_ne m c main_arg4 (by decide)
    _ = W0 m c (Proc.devRef .tc main_arg4) := StableHlo.after_of_writes_sub GenP.hostOps0 _ GenP.hostOps0_writes (by decide)
    _ = m ((c : Thread nD τ).loc main_arg4) := rfl
/-- Argument 5 ends as launched: no host stretch writes it, and a call at most reads it. -/
theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub GenP.hostOps3 _ GenP.hostOps3_writes (by decide)
    _ = W5 m c (Proc.devRef .tc main_arg5) := W6_of_ne m c main_arg5 (by decide)
    _ = W4 m c (Proc.devRef .tc main_arg5) := StableHlo.after_of_writes_sub GenP.hostOps2 _ GenP.hostOps2_writes (by decide)
    _ = W3 m c (Proc.devRef .tc main_arg5) := W4_of_ne m c main_arg5 (by decide)
    _ = W2 m c (Proc.devRef .tc main_arg5) := StableHlo.after_of_writes_sub GenP.hostOps1 _ GenP.hostOps1_writes (by decide)
    _ = W1 m c (Proc.devRef .tc main_arg5) := (W2_arr m c 4).trans (((Regs.dat0 (U1 m) c).arrAt_in 4 rfl _).trans (Regs.A_eq0 (U1 m) c 4))
    _ = W0 m c (Proc.devRef .tc main_arg5) := StableHlo.after_of_writes_sub GenP.hostOps0 _ GenP.hostOps0_writes (by decide)
    _ = m ((c : Thread nD τ).loc main_arg5) := rfl
/-- Argument 6 ends as launched: no host stretch writes it, and a call at most reads it. -/
theorem W8_main_arg6 (c : Dev nD) : W8 m c (Proc.devRef .tc main_arg6) = m ((c : Thread nD τ).loc main_arg6) :=
  calc W8 m c (Proc.devRef .tc main_arg6)
    _ = W7 m c (Proc.devRef .tc main_arg6) := W8_of_ne m c main_arg6 (by decide)
    _ = W6 m c (Proc.devRef .tc main_arg6) := StableHlo.after_of_writes_sub GenP.hostOps3 _ GenP.hostOps3_writes (by decide)
    _ = W5 m c (Proc.devRef .tc main_arg6) := W6_of_ne m c main_arg6 (by decide)
    _ = W4 m c (Proc.devRef .tc main_arg6) := StableHlo.after_of_writes_sub GenP.hostOps2 _ GenP.hostOps2_writes (by decide)
    _ = W3 m c (Proc.devRef .tc main_arg6) := (W4_arr m c 2).trans (((Regs.dat1 (U3 m) c).arrAt_in 2 rfl _).trans (Regs.A_eq1 (U3 m) c 2))
    _ = W2 m c (Proc.devRef .tc main_arg6) := StableHlo.after_of_writes_sub GenP.hostOps1 _ GenP.hostOps1_writes (by decide)
    _ = W1 m c (Proc.devRef .tc main_arg6) := W2_of_ne m c main_arg6 (by decide)
    _ = W0 m c (Proc.devRef .tc main_arg6) := StableHlo.after_of_writes_sub GenP.hostOps0 _ GenP.hostOps0_writes (by decide)
    _ = m ((c : Thread nD τ).loc main_arg6) := rfl
/-- Argument 7 ends as launched: no host stretch writes it, and a call at most reads it. -/
theorem W8_main_arg7 (c : Dev nD) : W8 m c (Proc.devRef .tc main_arg7) = m ((c : Thread nD τ).loc main_arg7) :=
  calc W8 m c (Proc.devRef .tc main_arg7)
    _ = W7 m c (Proc.devRef .tc main_arg7) := W8_of_ne m c main_arg7 (by decide)
    _ = W6 m c (Proc.devRef .tc main_arg7) := StableHlo.after_of_writes_sub GenP.hostOps3 _ GenP.hostOps3_writes (by decide)
    _ = W5 m c (Proc.devRef .tc main_arg7) := W6_of_ne m c main_arg7 (by decide)
    _ = W4 m c (Proc.devRef .tc main_arg7) := StableHlo.after_of_writes_sub GenP.hostOps2 _ GenP.hostOps2_writes (by decide)
    _ = W3 m c (Proc.devRef .tc main_arg7) := W4_of_ne m c main_arg7 (by decide)
    _ = W2 m c (Proc.devRef .tc main_arg7) := StableHlo.after_of_writes_sub GenP.hostOps1 _ GenP.hostOps1_writes (by decide)
    _ = W1 m c (Proc.devRef .tc main_arg7) := W2_of_ne m c main_arg7 (by decide)
    _ = W0 m c (Proc.devRef .tc main_arg7) := StableHlo.after_of_writes_sub GenP.hostOps0 _ GenP.hostOps0_writes (by decide)
    _ = m ((c : Thread nD τ).loc main_arg7) := rfl
/-- Argument 8 ends as launched: no host stretch writes it, and a call at most reads it. -/
theorem W8_main_arg8 (c : Dev nD) : W8 m c (Proc.devRef .tc main_arg8) = m ((c : Thread nD τ).loc main_arg8) :=
  calc W8 m c (Proc.devRef .tc main_arg8)
    _ = W7 m c (Proc.devRef .tc main_arg8) := W8_of_ne m c main_arg8 (by decide)
    _ = W6 m c (Proc.devRef .tc main_arg8) := StableHlo.after_of_writes_sub GenP.hostOps3 _ GenP.hostOps3_writes (by decide)
    _ = W5 m c (Proc.devRef .tc main_arg8) := W6_of_ne m c main_arg8 (by decide)
    _ = W4 m c (Proc.devRef .tc main_arg8) := StableHlo.after_of_writes_sub GenP.hostOps2 _ GenP.hostOps2_writes (by decide)
    _ = W3 m c (Proc.devRef .tc main_arg8) := (W4_arr m c 4).trans (((Regs.dat1 (U3 m) c).arrAt_in 4 rfl _).trans (Regs.A_eq1 (U3 m) c 4))
    _ = W2 m c (Proc.devRef .tc main_arg8) := StableHlo.after_of_writes_sub GenP.hostOps1 _ GenP.hostOps1_writes (by decide)
    _ = W1 m c (Proc.devRef .tc main_arg8) := W2_of_ne m c main_arg8 (by decide)
    _ = W0 m c (Proc.devRef .tc main_arg8) := StableHlo.after_of_writes_sub GenP.hostOps0 _ GenP.hostOps0_writes (by decide)
    _ = m ((c : Thread nD τ).loc main_arg8) := rfl
/-- Argument 9 ends as launched: no host stretch writes it, and a call at most reads it. -/
theorem W8_main_arg9 (c : Dev nD) : W8 m c (Proc.devRef .tc main_arg9) = m ((c : Thread nD τ).loc main_arg9) :=
  calc W8 m c (Proc.devRef .tc main_arg9)
    _ = W7 m c (Proc.devRef .tc main_arg9) := W8_of_ne m c main_arg9 (by decide)
    _ = W6 m c (Proc.devRef .tc main_arg9) := StableHlo.after_of_writes_sub GenP.hostOps3 _ GenP.hostOps3_writes (by decide)
    _ = W5 m c (Proc.devRef .tc main_arg9) := (W6_arr m c 2).trans (((Regs.dat2 (U5 m) c).arrAt_in 2 rfl _).trans (Regs.A_eq2 (U5 m) c 2))
    _ = W4 m c (Proc.devRef .tc main_arg9) := StableHlo.after_of_writes_sub GenP.hostOps2 _ GenP.hostOps2_writes (by decide)
    _ = W3 m c (Proc.devRef .tc main_arg9) := W4_of_ne m c main_arg9 (by decide)
    _ = W2 m c (Proc.devRef .tc main_arg9) := StableHlo.after_of_writes_sub GenP.hostOps1 _ GenP.hostOps1_writes (by decide)
    _ = W1 m c (Proc.devRef .tc main_arg9) := W2_of_ne m c main_arg9 (by decide)
    _ = W0 m c (Proc.devRef .tc main_arg9) := StableHlo.after_of_writes_sub GenP.hostOps0 _ GenP.hostOps0_writes (by decide)
    _ = m ((c : Thread nD τ).loc main_arg9) := rfl
/-- Argument 10 ends as launched: no host stretch writes it, and a call at most reads it. -/
theorem W8_main_arg10 (c : Dev nD) : W8 m c (Proc.devRef .tc main_arg10) = m ((c : Thread nD τ).loc main_arg10) :=
  calc W8 m c (Proc.devRef .tc main_arg10)
    _ = W7 m c (Proc.devRef .tc main_arg10) := W8_of_ne m c main_arg10 (by decide)
    _ = W6 m c (Proc.devRef .tc main_arg10) := StableHlo.after_of_writes_sub GenP.hostOps3 _ GenP.hostOps3_writes (by decide)
    _ = W5 m c (Proc.devRef .tc main_arg10) := W6_of_ne m c main_arg10 (by decide)
    _ = W4 m c (Proc.devRef .tc main_arg10) := StableHlo.after_of_writes_sub GenP.hostOps2 _ GenP.hostOps2_writes (by decide)
    _ = W3 m c (Proc.devRef .tc main_arg10) := W4_of_ne m c main_arg10 (by decide)
    _ = W2 m c (Proc.devRef .tc main_arg10) := StableHlo.after_of_writes_sub GenP.hostOps1 _ GenP.hostOps1_writes (by decide)
    _ = W1 m c (Proc.devRef .tc main_arg10) := W2_of_ne m c main_arg10 (by decide)
    _ = W0 m c (Proc.devRef .tc main_arg10) := StableHlo.after_of_writes_sub GenP.hostOps0 _ GenP.hostOps0_writes (by decide)
    _ = m ((c : Thread nD τ).loc main_arg10) := rfl
/-- Argument 11 ends as launched: no host stretch writes it, and a call at most reads it. -/
theorem W8_main_arg11 (c : Dev nD) : W8 m c (Proc.devRef .tc main_arg11) = m ((c : Thread nD τ).loc main_arg11) :=
  calc W8 m c (Proc.devRef .tc main_arg11)
    _ = W7 m c (Proc.devRef .tc main_arg11) := W8_of_ne m c main_arg11 (by decide)
    _ = W6 m c (Proc.devRef .tc main_arg11) := StableHlo.after_of_writes_sub GenP.hostOps3 _ GenP.hostOps3_writes (by decide)
    _ = W5 m c (Proc.devRef .tc main_arg11) := (W6_arr m c 4).trans (((Regs.dat2 (U5 m) c).arrAt_in 4 rfl _).trans (Regs.A_eq2 (U5 m) c 4))
    _ = W4 m c (Proc.devRef .tc main_arg11) := StableHlo.after_of_writes_sub GenP.hostOps2 _ GenP.hostOps2_writes (by decide)
    _ = W3 m c (Proc.devRef .tc main_arg11) := W4_of_ne m c main_arg11 (by decide)
    _ = W2 m c (Proc.devRef .tc main_arg11) := StableHlo.after_of_writes_sub GenP.hostOps1 _ GenP.hostOps1_writes (by decide)
    _ = W1 m c (Proc.devRef .tc main_arg11) := W2_of_ne m c main_arg11 (by decide)
    _ = W0 m c (Proc.devRef .tc main_arg11) := StableHlo.after_of_writes_sub GenP.hostOps0 _ GenP.hostOps0_writes (by decide)
    _ = m ((c : Thread nD τ).loc main_arg11) := rfl
/-- Argument 12 ends as launched: no host stretch writes it, and a call at most reads it. -/
theorem W8_main_arg12 (c : Dev nD) : W8 m c (Proc.devRef .tc main_arg12) = m ((c : Thread nD τ).loc main_arg12) :=
  calc W8 m c (Proc.devRef .tc main_arg12)
    _ = W7 m c (Proc.devRef .tc main_arg12) := (W8_arr m c 2).trans (((Regs.dat3 (U7 m) c).arrAt_in 2 rfl _).trans (Regs.A_eq3 (U7 m) c 2))
    _ = W6 m c (Proc.devRef .tc main_arg12) := StableHlo.after_of_writes_sub GenP.hostOps3 _ GenP.hostOps3_writes (by decide)
    _ = W5 m c (Proc.devRef .tc main_arg12) := W6_of_ne m c main_arg12 (by decide)
    _ = W4 m c (Proc.devRef .tc main_arg12) := StableHlo.after_of_writes_sub GenP.hostOps2 _ GenP.hostOps2_writes (by decide)
    _ = W3 m c (Proc.devRef .tc main_arg12) := W4_of_ne m c main_arg12 (by decide)
    _ = W2 m c (Proc.devRef .tc main_arg12) := StableHlo.after_of_writes_sub GenP.hostOps1 _ GenP.hostOps1_writes (by decide)
    _ = W1 m c (Proc.devRef .tc main_arg12) := W2_of_ne m c main_arg12 (by decide)
    _ = W0 m c (Proc.devRef .tc main_arg12) := StableHlo.after_of_writes_sub GenP.hostOps0 _ GenP.hostOps0_writes (by decide)
    _ = m ((c : Thread nD τ).loc main_arg12) := rfl
/-- Argument 13 ends as launched: no host stretch writes it, and a call at most reads it. -/
theorem W8_main_arg13 (c : Dev nD) : W8 m c (Proc.devRef .tc main_arg13) = m ((c : Thread nD τ).loc main_arg13) :=
  calc W8 m c (Proc.devRef .tc main_arg13)
    _ = W7 m c (Proc.devRef .tc main_arg13) := W8_of_ne m c main_arg13 (by decide)
    _ = W6 m c (Proc.devRef .tc main_arg13) := StableHlo.after_of_writes_sub GenP.hostOps3 _ GenP.hostOps3_writes (by decide)
    _ = W5 m c (Proc.devRef .tc main_arg13) := W6_of_ne m c main_arg13 (by decide)
    _ = W4 m c (Proc.devRef .tc main_arg13) := StableHlo.after_of_writes_sub GenP.hostOps2 _ GenP.hostOps2_writes (by decide)
    _ = W3 m c (Proc.devRef .tc main_arg13) := W4_of_ne m c main_arg13 (by decide)
    _ = W2 m c (Proc.devRef .tc main_arg13) := StableHlo.after_of_writes_sub GenP.hostOps1 _ GenP.hostOps1_writes (by decide)
    _ = W1 m c (Proc.devRef .tc main_arg13) := W2_of_ne m c main_arg13 (by decide)
    _ = W0 m c (Proc.devRef .tc main_arg13) := StableHlo.after_of_writes_sub GenP.hostOps0 _ GenP.hostOps0_writes (by decide)
    _ = m ((c : Thread nD τ).loc main_arg13) := rfl
/-- Argument 14 ends as launched: no host stretch writes it, and a call at most reads it. -/
theorem W8_main_arg14 (c : Dev nD) : W8 m c (Proc.devRef .tc main_arg14) = m ((c : Thread nD τ).loc main_arg14) :=
  calc W8 m c (Proc.devRef .tc main_arg14)
    _ = W7 m c (Proc.devRef .tc main_arg14) := (W8_arr m c 4).trans (((Regs.dat3 (U7 m) c).arrAt_in 4 rfl _).trans (Regs.A_eq3 (U7 m) c 4))
    _ = W6 m c (Proc.devRef .tc main_arg14) := StableHlo.after_of_writes_sub GenP.hostOps3 _ GenP.hostOps3_writes (by decide)
    _ = W5 m c (Proc.devRef .tc main_arg14) := W6_of_ne m c main_arg14 (by decide)
    _ = W4 m c (Proc.devRef .tc main_arg14) := StableHlo.after_of_writes_sub GenP.hostOps2 _ GenP.hostOps2_writes (by decide)
    _ = W3 m c (Proc.devRef .tc main_arg14) := W4_of_ne m c main_arg14 (by decide)
    _ = W2 m c (Proc.devRef .tc main_arg14) := StableHlo.after_of_writes_sub GenP.hostOps1 _ GenP.hostOps1_writes (by decide)
    _ = W1 m c (Proc.devRef .tc main_arg14) := W2_of_ne m c main_arg14 (by decide)
    _ = W0 m c (Proc.devRef .tc main_arg14) := StableHlo.after_of_writes_sub GenP.hostOps0 _ GenP.hostOps0_writes (by decide)
    _ = m ((c : Thread nD τ).loc main_arg14) := rfl
/-- Argument 15 ends as launched: no host stretch writes it, and a call at most reads it. -/
theorem W8_main_arg15 (c : Dev nD) : W8 m c (Proc.devRef .tc main_arg15) = m ((c : Thread nD τ).loc main_arg15) :=
  calc W8 m c (Proc.devRef .tc main_arg15)
    _ = W7 m c (Proc.devRef .tc main_arg15) := W8_of_ne m c main_arg15 (by decide)
    _ = W6 m c (Proc.devRef .tc main_arg15) := StableHlo.after_of_writes_sub GenP.hostOps3 _ GenP.hostOps3_writes (by decide)
    _ = W5 m c (Proc.devRef .tc main_arg15) := W6_of_ne m c main_arg15 (by decide)
    _ = W4 m c (Proc.devRef .tc main_arg15) := StableHlo.after_of_writes_sub GenP.hostOps2 _ GenP.hostOps2_writes (by decide)
    _ = W3 m c (Proc.devRef .tc main_arg15) := W4_of_ne m c main_arg15 (by decide)
    _ = W2 m c (Proc.devRef .tc main_arg15) := StableHlo.after_of_writes_sub GenP.hostOps1 _ GenP.hostOps1_writes (by decide)
    _ = W1 m c (Proc.devRef .tc main_arg15) := W2_of_ne m c main_arg15 (by decide)
    _ = W0 m c (Proc.devRef .tc main_arg15) := StableHlo.after_of_writes_sub GenP.hostOps0 _ GenP.hostOps0_writes (by decide)
    _ = m ((c : Thread nD τ).loc main_arg15) := rfl
/-- Argument 16 ends as launched: no host stretch writes it, and a call at most reads it. -/
theorem W8_main_arg16 (c : Dev nD) : W8 m c (Proc.devRef .tc main_arg16) = m ((c : Thread nD τ).loc main_arg16) :=
  calc W8 m c (Proc.devRef .tc main_arg16)
    _ = W7 m c (Proc.devRef .tc main_arg16) := (W8_arr m c 6).trans (((Regs.dat3 (U7 m) c).arrAt_in 6 rfl _).trans (Regs.A_eq3 (U7 m) c 6))
    _ = W6 m c (Proc.devRef .tc main_arg16) := StableHlo.after_of_writes_sub GenP.hostOps3 _ GenP.hostOps3_writes (by decide)
    _ = W5 m c (Proc.devRef .tc main_arg16) := W6_of_ne m c main_arg16 (by decide)
    _ = W4 m c (Proc.devRef .tc main_arg16) := StableHlo.after_of_writes_sub GenP.hostOps2 _ GenP.hostOps2_writes (by decide)
    _ = W3 m c (Proc.devRef .tc main_arg16) := W4_of_ne m c main_arg16 (by decide)
    _ = W2 m c (Proc.devRef .tc main_arg16) := StableHlo.after_of_writes_sub GenP.hostOps1 _ GenP.hostOps1_writes (by decide)
    _ = W1 m c (Proc.devRef .tc main_arg16) := W2_of_ne m c main_arg16 (by decide)
    _ = W0 m c (Proc.devRef .tc main_arg16) := StableHlo.after_of_writes_sub GenP.hostOps0 _ GenP.hostOps0_writes (by decide)
    _ = m ((c : Thread nD τ).loc main_arg16) := rfl
/-- Argument 17 ends as launched: no host stretch writes it, and a call at most reads it. -/
theorem W8_main_arg17 (c : Dev nD) : W8 m c (Proc.devRef .tc main_arg17) = m ((c : Thread nD τ).loc main_arg17) :=
  calc W8 m c (Proc.devRef .tc main_arg17)
    _ = W7 m c (Proc.devRef .tc main_arg17) := W8_of_ne m c main_arg17 (by decide)
    _ = W6 m c (Proc.devRef .tc main_arg17) := StableHlo.after_of_writes_sub GenP.hostOps3 _ GenP.hostOps3_writes (by decide)
    _ = W5 m c (Proc.devRef .tc main_arg17) := W6_of_ne m c main_arg17 (by decide)
    _ = W4 m c (Proc.devRef .tc main_arg17) := StableHlo.after_of_writes_sub GenP.hostOps2 _ GenP.hostOps2_writes (by decide)
    _ = W3 m c (Proc.devRef .tc main_arg17) := W4_of_ne m c main_arg17 (by decide)
    _ = W2 m c (Proc.devRef .tc main_arg17) := StableHlo.after_of_writes_sub GenP.hostOps1 _ GenP.hostOps1_writes (by decide)
    _ = W1 m c (Proc.devRef .tc main_arg17) := W2_of_ne m c main_arg17 (by decide)
    _ = W0 m c (Proc.devRef .tc main_arg17) := StableHlo.after_of_writes_sub GenP.hostOps0 _ GenP.hostOps0_writes (by decide)
    _ = m ((c : Thread nD τ).loc main_arg17) := rfl

/-- The frame: the program runs to the end and its arguments end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run (defs (F := F)) (onTc (τ := τ) (main (F := F))) ⟨m, fun _ => 0, ρ⟩).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c),
     (h c _ (mem_uc main_arg12 (by decide))).trans (W8_main_arg12 m c),
     (h c _ (mem_uc main_arg13 (by decide))).trans (W8_main_arg13 m c),
     (h c _ (mem_uc main_arg14 (by decide))).trans (W8_main_arg14 m c),
     (h c _ (mem_uc main_arg15 (by decide))).trans (W8_main_arg15 m c),
     (h c _ (mem_uc main_arg16 (by decide))).trans (W8_main_arg16 m c),
     (h c _ (mem_uc main_arg17 (by decide))).trans (W8_main_arg17 m c)⟩) (run m ρ)

end Cert.KernelIdeal.Run

end
-- ==== Proof.Math.lean ====
/-
  The network both programs compute, written once over the extended reals, entry by entry.

  A graph-convolution layer sends node features h (one row per node) and their neighbour sums agg to
  elu(agg · W_rel + b + h · W_root), row by row. Pooling sends the last layer's rows to one row per graph: the sum of the
  rows whose graph id is g, divided by max(count of such rows, 1); a row whose id names no graph is counted nowhere.
  The head is three dense layers, the first two followed by elu, then log-softmax along each row.

  Literals are kept as the 32-bit words the programs print (0.0, 1.0, -inf): the same word stands on both sides of every
  comparison made against these definitions, so none of them is ever evaluated here.
-/
import Idealize.ShloMosaic.Lib.ValueIdx
import Idealize.ShloMosaic.PureOps.Ideal

noncomputable section

namespace Cert.Math

open Idealize.ShloMosaic Idealize.ShloMosaic.ValueIdx

/-- The words of 0.0, 1.0 and -inf at f32, read at the ideal values. -/
abbrev zero : EReal := Ideal.ofBits .f32 0x00000000#32
abbrev one : EReal := Ideal.ofBits .f32 0x3F800000#32
abbrev ninf : EReal := Ideal.ofBits .f32 0xFF800000#32

/-- A rank-2 array of extended reals. -/
abbrev Mat (a b : Nat) : Type := (⟨2, ![a, b]⟩ : Shape).Idx → EReal

/-- elu with unit slope: y where y > 0, else 1 · (exp y - 1). -/
def elu (y : EReal) : EReal := Scalar.select (Ideal.cmp .ogt y zero) y (one * (Ideal.exp y - one))

/-- A dense layer: x · W + b, at entry (p, q). -/
def dense {M K N : Nat} (x : Mat M K) (w : Mat K N) (b : Fin N → EReal) : Mat M N :=
  fun i => (∑ k : Fin K, x (ix2 (i 0) k) * w (ix2 k (i 1))) + b (i 1)

/-- One graph-convolution layer: elu(agg · W_rel + b + h · W_root), at entry (n, f). -/
def conv {N Fi Fo : Nat} (agg h : Mat N Fi) (wrel : Mat Fi Fo) (b : Fin Fo → EReal) (wroot : Mat Fi Fo) : Mat N Fo :=
  fun i => elu ((∑ k : Fin Fi, agg (ix2 (i 0) k) * wrel (ix2 k (i 1))) + b (i 1)
    + ∑ k : Fin Fi, h (ix2 (i 0) k) * wroot (ix2 k (i 1)))

/-- Whether node n belongs to graph g: its id word is g's. -/
def member {N G : Nat} (batch : Fin N → BitVec 32) (n : Fin N) (g : Fin G) : Prop := batch n = BitVec.ofNat 32 g.val

instance {N G : Nat} (batch : Fin N → BitVec 32) (n : Fin N) (g : Fin G) : Decidable (member batch n g) := by
  unfold member; infer_instance

/-- The sum over graph g's nodes of column d of h. -/
def graphSum {N G D : Nat} (h : Mat N D) (batch : Fin N → BitVec 32) : Mat G D :=
  fun i => ∑ n : Fin N, if member batch n (i 0) then h (ix2 n (i 1)) else 0

/-- The number of graph g's nodes. -/
def graphCount {N G : Nat} (batch : Fin N → BitVec 32) (g : Fin G) : EReal :=
  ∑ n : Fin N, if member batch n g then (1 : EReal) else 0

/-- The mean row of each graph: its sum divided by max(count, 1). -/
def graphMean {N G D : Nat} (h : Mat N D) (batch : Fin N → BitVec 32) : Mat G D :=
  fun i => Ideal.div (graphSum (G := G) h batch i) (max (graphCount batch (i 0)) one)

/-- A row's maximum, from -inf. -/
def rowMax {M C : Nat} (z : Mat M C) (p : Fin M) : EReal :=
  (Finset.univ : Finset (Fin C)).fold max ninf (fun c => z (ix2 p c))

/-- Log-softmax along each row: with s = z - max(-inf, row maximum), s - log(0 + Σ exp s). -/
def logSoftmax {M C : Nat} (z : Mat M C) : Mat M C :=
  fun i =>
    let mx := max ninf (rowMax z (i 0))
    (z i - mx) - Ideal.log (zero + ∑ c : Fin C, Ideal.exp (z (ix2 (i 0) c) - mx))

/-- elu applied to every entry. -/
def eluAll {M N : Nat} (x : Mat M N) : Mat M N := fun i => elu (x i)

/-- Pooling and the head: graph means, two dense layers with elu, a dense layer, log-softmax. -/
def head {N G D1 D2 D3 C : Nat} (h : Mat N D1) (batch : Fin N → BitVec 32)
    (w1 : Mat D1 D2) (b1 : Fin D2 → EReal) (w2 : Mat D2 D3) (b2 : Fin D3 → EReal) (w3 : Mat D3 C) (b3 : Fin C → EReal) :
    Mat G C :=
  logSoftmax (dense (eluAll (dense (eluAll (dense (graphMean (G := G) h batch) w1 b1)) w2 b2)) w3 b3)

end Cert.Math

end
-- ==== Proof.LibMatmul.lean ====
/-
  Two facts every tiled matrix product here rests on, for any sizes.

  A plain product of an M × K by a K × N matrix accumulated into zeros, read at entry (a, b) at the ideal values, is
  Σ_c A(a, c) · B(c, b): the contraction index of the dimension numbers has one coordinate, which runs over the K
  columns of A and rows of B. And the offsets (0, 0) of a whole-buffer access are the zero offsets.
-/
import Idealize.ShloMosaic.Lib.ValueIdx
import Idealize.ShloMosaic.PureOps.Ideal.Laws

noncomputable section

namespace Cert.KernelIdeal.RegVal.Matmul

open Idealize.ShloMosaic Idealize.ShloMosaic.ValueIdx

/-- The offsets of an access to a whole rank-2 buffer are zero on both axes. -/
theorem zero_offsets : (![0, 0] : Fin 2 → Nat) = fun _ => 0 := funext fun a => by fin_cases a <;> rfl

/-- A plain product into a zero accumulator, read at an entry: the sum over the contracted coordinate of the products
    of the two operands' entries. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.KernelIdeal.RegVal.Matmul

end
-- ==== Proof.KernelIdeal.Val0.lean ====
/-
  What the first graph-convolution call leaves in its output array, at the ideal values.

  Each of the ten points writes its own block of 5000 rows, and the blocks tile the 50000 rows; a point's block is
  elu(agg · W_rel + b + h · W_root) of its rows. So after the call the whole array is that function of the whole inputs,
  entry by entry.
-/
import proofs.«431204_j57801669869757_2_alg».proof.Proof.KernelIdeal.Reg0
import proofs.«431204_j57801669869757_2_alg».proof.Proof.Math
import proofs.«431204_j57801669869757_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.GenP Cert.KernelIdeal.Regs

variable (V : (c : Dev nD) → (b : Ref sig .tc) → Buf (Elt Ideal) ((c : Thread nD τ).loc b))

/-- The dimension numbers of the call's two products are those of a plain product of a 5000 x 128 by a 128 x 128 matrix. -/
theorem dot0_plain : dot_S5000x128_S128x128_S5000x128_1_0_0_1_n_n = DotDims.plain 5000 128 128 := rfl

/-- An exponential of an array, read at an index, is the exponential of the entry. -/
theorem exp0_apply {s : Shape} {φ : FTy} (a : FVec Ideal s φ) (i : s.Idx) : exp a i = Ideal.exp (a i) := rfl

/-- The body's stored value at entry (p, q) of its block: elu of row p of the neighbour sums times column q of W_rel,
    plus the bias at q, plus row p of the features times column q of W_root. -/
theorem pay0_apply (x0 x1 : Vec Ideal S5000x128 .f32) (x2 : Vec Ideal S128x128 .f32) (x3 : Vec Ideal S1x128 .f32)
    (x4 : Vec Ideal S128x128 .f32) (p : Fin 5000) (q : Fin 128) :
    k0_pay1 x0 x1 x2 x3 x4 (ix2 p q)
      = Math.elu ((∑ k : Fin 128, x0 (ix2 p k) * x2 (ix2 k q)) + x3 (ix2 0 q) + ∑ k : Fin 128, x1 (ix2 p k) * x4 (ix2 k q)) := by
  unfold k0_pay1 Math.elu
  simp only [shapeCast_self, dot0_plain, select_apply, cmpf_apply, exp0_apply, addf_apply, subf_apply, mulf_apply, broadcast_apply,
    Matmul.matmul_plain_zero_apply, broadcastTo_1b_ab_apply, Ideal.cmpf_def, Ideal.ofBits_def]

/-- The array the call's output window ends holding: the layer's function of the five arrays the call reads. -/
abbrev layer0 (c : Dev nD) : Math.Mat 50000 128 :=
  Math.conv (V c main_v15 : Math.Mat 50000 128) (V c main_arg0 : Math.Mat 50000 128) (V c main_arg3 : Math.Mat 128 128)
    (fun q => (V c main_v16 : Math.Mat 1 128) (ix2 0 q)) (V c main_arg5 : Math.Mat 128 128)

/-- The windows' index maps at the ten points: the three row windows sit at block (t, 0), the three whole windows at
    block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 5000 t + p of the array. -/
def row0 (t : Fin cfg0.N) (p : Fin 5000) : Fin 50000 :=
  ⟨5000 * t.val + p.val, by have ht : t.val < 10 := t.isLt; have hp := p.isLt; omega⟩

/-- Where entry (p, k) of point t's block of the neighbour sums sits in their array. -/
theorem emb0_0 (t : Fin cfg0.N) (p : Fin 5000) (k : Fin 128) :
    ((cfg0.win 0).blk t).view.emb (ix2 p k) = ix2 (row0 t p) k := by
  obtain ⟨e00, e01, e10, e11, e20, e21, e30, e31, e40, e41, e50, e51⟩ := index_facts0 t
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- Where entry (p, k) of point t's block of the node features sits in their array. -/
theorem emb0_1 (t : Fin cfg0.N) (p : Fin 5000) (k : Fin 128) :
    ((cfg0.win 1).blk t).view.emb (ix2 p k) = ix2 (row0 t p) k := by
  obtain ⟨e00, e01, e10, e11, e20, e21, e30, e31, e40, e41, e50, e51⟩ := index_facts0 t
  funext a; apply Fin.ext
  match a with
  | ⟨0, _⟩ => show win0_1.index t (0 : Fin 2) * 5000 + 1 * p.val = 5000 * t.val + p.val; omega
  | ⟨1, _⟩ => show win0_1.index t (1 : Fin 2) * 128 + 1 * k.val = k.val; omega

/-- The first weight matrix's one block is the matrix. -/
theorem emb0_2 (t : Fin cfg0.N) (k : Fin 128) (q : Fin 128) : ((cfg0.win 2).blk t).view.emb (ix2 k q) = ix2 k q := by
  obtain ⟨e00, e01, e10, e11, e20, e21, e30, e31, e40, e41, e50, e51⟩ := index_facts0 t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The bias row's one block is the row. -/
theorem emb0_3 (t : Fin cfg0.N) (z : Fin 1) (q : Fin 128) : ((cfg0.win 3).blk t).view.emb (ix2 z q) = ix2 z q := by
  obtain ⟨e00, e01, e10, e11, e20, e21, e30, e31, e40, e41, e50, e51⟩ := index_facts0 t
  funext a; apply Fin.ext
  match a with
  | ⟨0, _⟩ => show win0_3.index t (0 : Fin 2) * 1 + 1 * z.val = z.val; omega
  | ⟨1, _⟩ => show win0_3.index t (1 : Fin 2) * 128 + 1 * q.val = q.val; omega

/-- The second weight matrix's one block is the matrix. -/
theorem emb0_4 (t : Fin cfg0.N) (k : Fin 128) (q : Fin 128) : ((cfg0.win 4).blk t).view.emb (ix2 k q) = ix2 k q := by
  obtain ⟨e00, e01, e10, e11, e20, e21, e30, e31, e40, e41, e50, e51⟩ := index_facts0 t
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- Where entry (p, q) of point t's output block sits in the output array. -/
theorem emb0_5 (t : Fin cfg0.N) (p : Fin 5000) (q : Fin 128) :
    ((cfg0.win 5).blk t).view.emb (ix2 p q) = ix2 (row0 t p) q := by
  obtain ⟨e00, e01, e10, e11, e20, e21, e30, e31, e40, e41, e50, e51⟩ := index_facts0 t
  funext a; apply Fin.ext
  match a with
  | ⟨0, _⟩ => show win0_5.index t (0 : Fin 2) * 5000 + 1 * p.val = 5000 * t.val + p.val; omega
  | ⟨1, _⟩ => show win0_5.index t (1 : Fin 2) * 128 + 1 * q.val = q.val; omega

/-- Point t's block of the neighbour sums, read at (p, k), is the array at row 5000 t + p. -/
theorem iblk0_0_apply (c : Dev nD) (t : Fin cfg0.N) (p : Fin 5000) (k : Fin 128) :
    iblk0 V c 0 t (ix2 p k) = (V c main_v15 : Math.Mat 50000 128) (ix2 (row0 t p) k) := by
  unfold iblk0; exact congrArg (V c main_v15) (emb0_0 t p k)

/-- Point t's block of the node features, read at (p, k), is the array at row 5000 t + p. -/
theorem iblk0_1_apply (c : Dev nD) (t : Fin cfg0.N) (p : Fin 5000) (k : Fin 128) :
    iblk0 V c 1 t (ix2 p k) = (V c main_arg0 : Math.Mat 50000 128) (ix2 (row0 t p) k) := by
  unfold iblk0; exact congrArg (V c main_arg0) (emb0_1 t p k)

/-- The first weight matrix's block is the matrix at every point. -/
theorem iblk0_2_apply (c : Dev nD) (t : Fin cfg0.N) (k : Fin 128) (q : Fin 128) :
    iblk0 V c 2 t (ix2 k q) = (V c main_arg3 : Math.Mat 128 128) (ix2 k q) := by
  unfold iblk0; exact congrArg (V c main_arg3) (emb0_2 t k q)

/-- The bias row's block is the row at every point. -/
theorem iblk0_3_apply (c : Dev nD) (t : Fin cfg0.N) (z : Fin 1) (q : Fin 128) :
    iblk0 V c 3 t (ix2 z q) = (V c main_v16 : Math.Mat 1 128) (ix2 z q) := by
  unfold iblk0; exact congrArg (V c main_v16) (emb0_3 t z q)

/-- The second weight matrix's block is the matrix at every point. -/
theorem iblk0_4_apply (c : Dev nD) (t : Fin cfg0.N) (k : Fin 128) (q : Fin 128) :
    iblk0 V c 4 t (ix2 k q) = (V c main_arg5 : Math.Mat 128 128) (ix2 k q) := by
  unfold iblk0; exact congrArg (V c main_arg5) (emb0_4 t k q)

/-- What point t writes back is block t of the layer's function of the whole arrays: the rows of its two row blocks are
    the rows 5000 t .. 5000 t + 4999 of their arrays, and the weights and the bias are whole. -/
theorem flushed0_5_eq (c : Dev nD) (t : Fin cfg0.N) :
    (dat0 (F := Ideal) V c).flushed 5 t = ((cfg0.win 5).blk t).view.read (Elt Ideal) (layer0 V c) := by
  show (cfg0.win 5).cut (grid0.coords t) ((dat0 (F := Ideal) V c).after 5 t) = _
  rw [after0_5]
  unfold out0_5
  rw [View.canon_unit_zero Matmul.zero_offsets]
  simp only [View.ld_unit_zero (S := S5000x128) Matmul.zero_offsets, View.ld_unit_zero (S := S128x128) Matmul.zero_offsets,
    View.ld_unit_zero (S := S1x128) Matmul.zero_offsets]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = layer0 V c (((cfg0.win 5).blk t).view.emb (ix2 p q))
  rw [pay0_apply, emb0_5]
  simp only [iblk0_0_apply, iblk0_1_apply, iblk0_2_apply, iblk0_3_apply, iblk0_4_apply]
  rfl

/-- An index of the output array is in point t's block iff each coordinate is in the block's range on its axis. -/
theorem mem_blk0_5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- The ten blocks of 5000 rows tile the 50000 rows: row r is in the block of point r / 5000. -/
theorem cover0_5_arr (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by show (i 0).val / 5000 < 10; omega⟩
  have ht : t.val = (i 0).val / 5000 := rfl
  obtain ⟨e00, e01, e10, e11, e20, e21, e30, e31, e40, e41, e50, e51⟩ := index_facts0 t
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the call its output array is the layer's function of the arrays it was given. -/
theorem arrAt0_5 (c : Dev nD) :
    ((dat0 (F := Ideal) V c).arrAt 5 cfg0.N : Math.Mat 50000 128)
      = Math.conv (V c main_v15 : Math.Mat 50000 128) (V c main_arg0 : Math.Mat 50000 128) (V c main_arg3 : Math.Mat 128 128)
          (fun q => (V c main_v16 : Math.Mat 1 128) (ix2 0 q)) (V c main_arg5 : Math.Mat 128 128) :=
  (dat0 (F := Ideal) V c).arrAt_eq_of_cover 5 (layer0 V c) (fun t _ => flushed0_5_eq V c t) cover0_5_arr

end Cert.KernelIdeal.RegVal

end
-- ==== Proof.KernelIdeal.Val1.lean ====
/-
  What the second graph-convolution call leaves in its output array, at the ideal values.

  Each of the ten points writes its own block of 5000 rows, and the blocks tile the 50000 rows; a point's block is
  elu(agg · W_rel + b + h · W_root) of its rows. So after the call the whole array is that function of the whole inputs,
  entry by entry.
-/
import proofs.«431204_j57801669869757_2_alg».proof.Proof.KernelIdeal.Reg1
import proofs.«431204_j57801669869757_2_alg».proof.Proof.Math
import proofs.«431204_j57801669869757_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.GenP Cert.KernelIdeal.Regs

variable (V : (c : Dev nD) → (b : Ref sig .tc) → Buf (Elt Ideal) ((c : Thread nD τ).loc b))

/-- The dimension numbers of the call's two products are those of a plain product of a 5000 x 128 by a 128 x 256 matrix. -/
theorem dot1_plain : dot_S5000x128_S128x256_S5000x256_1_0_0_1_n_n = DotDims.plain 5000 128 256 := rfl

/-- An exponential of an array, read at an index, is the exponential of the entry. -/
theorem exp1_apply {s : Shape} {φ : FTy} (a : FVec Ideal s φ) (i : s.Idx) : exp a i = Ideal.exp (a i) := rfl

/-- The body's stored value at entry (p, q) of its block: elu of row p of the neighbour sums times column q of W_rel,
    plus the bias at q, plus row p of the features times column q of W_root. -/
theorem pay1_apply (x0 x1 : Vec Ideal S5000x128 .f32) (x2 : Vec Ideal S128x256 .f32) (x3 : Vec Ideal S1x256 .f32)
    (x4 : Vec Ideal S128x256 .f32) (p : Fin 5000) (q : Fin 256) :
    k1_pay1 x0 x1 x2 x3 x4 (ix2 p q)
      = Math.elu ((∑ k : Fin 128, x0 (ix2 p k) * x2 (ix2 k q)) + x3 (ix2 0 q) + ∑ k : Fin 128, x1 (ix2 p k) * x4 (ix2 k q)) := by
  unfold k1_pay1 Math.elu
  simp only [shapeCast_self, dot1_plain, select_apply, cmpf_apply, exp1_apply, addf_apply, subf_apply, mulf_apply, broadcast_apply,
    Matmul.matmul_plain_zero_apply, broadcastTo_1b_ab_apply, Ideal.cmpf_def, Ideal.ofBits_def]

/-- The array the call's output window ends holding: the layer's function of the five arrays the call reads. -/
abbrev layer1 (c : Dev nD) : Math.Mat 50000 256 :=
  Math.conv (V c main_v29 : Math.Mat 50000 128) (V c main_v17 : Math.Mat 50000 128) (V c main_arg6 : Math.Mat 128 256)
    (fun q => (V c main_v30 : Math.Mat 1 256) (ix2 0 q)) (V c main_arg8 : Math.Mat 128 256)

/-- The windows' index maps at the ten points: the three row windows sit at block (t, 0), the three whole windows at
    block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 5000 t + p of the array. -/
def row1 (t : Fin cfg1.N) (p : Fin 5000) : Fin 50000 :=
  ⟨5000 * t.val + p.val, by have ht : t.val < 10 := t.isLt; have hp := p.isLt; omega⟩

/-- Where entry (p, k) of point t's block of the neighbour sums sits in their array. -/
theorem emb1_0 (t : Fin cfg1.N) (p : Fin 5000) (k : Fin 128) :
    ((cfg1.win 0).blk t).view.emb (ix2 p k) = ix2 (row1 t p) k := by
  obtain ⟨e00, e01, e10, e11, e20, e21, e30, e31, e40, e41, e50, e51⟩ := index_facts1 t
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- Where entry (p, k) of point t's block of the node features sits in their array. -/
theorem emb1_1 (t : Fin cfg1.N) (p : Fin 5000) (k : Fin 128) :
    ((cfg1.win 1).blk t).view.emb (ix2 p k) = ix2 (row1 t p) k := by
  obtain ⟨e00, e01, e10, e11, e20, e21, e30, e31, e40, e41, e50, e51⟩ := index_facts1 t
  funext a; apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- The first weight matrix's one block is the matrix. -/
theorem emb1_2 (t : Fin cfg1.N) (k : Fin 128) (q : Fin 256) : ((cfg1.win 2).blk t).view.emb (ix2 k q) = ix2 k q := by
  obtain ⟨e00, e01, e10, e11, e20, e21, e30, e31, e40, e41, e50, e51⟩ := index_facts1 t
  funext a; apply Fin.ext
  match a with
  | ⟨0, _⟩ => show win1_2.index t (0 : Fin 2) * 128 + 1 * k.val = k.val; omega
  | ⟨1, _⟩ => show win1_2.index t (1 : Fin 2) * 256 + 1 * q.val = q.val; omega

/-- The bias row's one block is the row. -/
theorem emb1_3 (t : Fin cfg1.N) (z : Fin 1) (q : Fin 256) : ((cfg1.win 3).blk t).view.emb (ix2 z q) = ix2 z q := by
  obtain ⟨e00, e01, e10, e11, e20, e21, e30, e31, e40, e41, e50, e51⟩ := index_facts1 t
  funext a; apply Fin.ext
  match a with
  | ⟨0, _⟩ => show win1_3.index t (0 : Fin 2) * 1 + 1 * z.val = z.val; omega
  | ⟨1, _⟩ => show win1_3.index t (1 : Fin 2) * 256 + 1 * q.val = q.val; omega

/-- The second weight matrix's one block is the matrix. -/
theorem emb1_4 (t : Fin cfg1.N) (k : Fin 128) (q : Fin 256) : ((cfg1.win 4).blk t).view.emb (ix2 k q) = ix2 k q := by
  obtain ⟨e00, e01, e10, e11, e20, e21, e30, e31, e40, e41, e50, e51⟩ := index_facts1 t
  funext a; apply Fin.ext
  match a with
  | ⟨0, _⟩ => show win1_4.index t (0 : Fin 2) * 128 + 1 * k.val = k.val; omega
  | ⟨1, _⟩ => show win1_4.index t (1 : Fin 2) * 256 + 1 * q.val = q.val; omega

/-- Where entry (p, q) of point t's output block sits in the output array. -/
theorem emb1_5 (t : Fin cfg1.N) (p : Fin 5000) (q : Fin 256) :
    ((cfg1.win 5).blk t).view.emb (ix2 p q) = ix2 (row1 t p) q := by
  obtain ⟨e00, e01, e10, e11, e20, e21, e30, e31, e40, e41, e50, e51⟩ := index_facts1 t
  funext a; apply Fin.ext
  match a with
  | ⟨0, _⟩ => show win1_5.index t (0 : Fin 2) * 5000 + 1 * p.val = 5000 * t.val + p.val; omega
  | ⟨1, _⟩ => show win1_5.index t (1 : Fin 2) * 256 + 1 * q.val = q.val; omega

/-- Point t's block of the neighbour sums, read at (p, k), is the array at row 5000 t + p. -/
theorem iblk1_0_apply (c : Dev nD) (t : Fin cfg1.N) (p : Fin 5000) (k : Fin 128) :
    iblk1 V c 0 t (ix2 p k) = (V c main_v29 : Math.Mat 50000 128) (ix2 (row1 t p) k) := by
  unfold iblk1; exact congrArg (V c main_v29) (emb1_0 t p k)

/-- Point t's block of the node features, read at (p, k), is the array at row 5000 t + p. -/
theorem iblk1_1_apply (c : Dev nD) (t : Fin cfg1.N) (p : Fin 5000) (k : Fin 128) :
    iblk1 V c 1 t (ix2 p k) = (V c main_v17 : Math.Mat 50000 128) (ix2 (row1 t p) k) := by
  unfold iblk1; exact congrArg (V c main_v17) (emb1_1 t p k)

/-- The first weight matrix's block is the matrix at every point. -/
theorem iblk1_2_apply (c : Dev nD) (t : Fin cfg1.N) (k : Fin 128) (q : Fin 256) :
    iblk1 V c 2 t (ix2 k q) = (V c main_arg6 : Math.Mat 128 256) (ix2 k q) := by
  unfold iblk1; exact congrArg (V c main_arg6) (emb1_2 t k q)

/-- The bias row's block is the row at every point. -/
theorem iblk1_3_apply (c : Dev nD) (t : Fin cfg1.N) (z : Fin 1) (q : Fin 256) :
    iblk1 V c 3 t (ix2 z q) = (V c main_v30 : Math.Mat 1 256) (ix2 z q) := by
  unfold iblk1; exact congrArg (V c main_v30) (emb1_3 t z q)

/-- The second weight matrix's block is the matrix at every point. -/
theorem iblk1_4_apply (c : Dev nD) (t : Fin cfg1.N) (k : Fin 128) (q : Fin 256) :
    iblk1 V c 4 t (ix2 k q) = (V c main_arg8 : Math.Mat 128 256) (ix2 k q) := by
  unfold iblk1; exact congrArg (V c main_arg8) (emb1_4 t k q)

/-- What point t writes back is block t of the layer's function of the whole arrays: the rows of its two row blocks are
    the rows 5000 t .. 5000 t + 4999 of their arrays, and the weights and the bias are whole. -/
theorem flushed1_5_eq (c : Dev nD) (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero Matmul.zero_offsets]
  simp only [View.ld_unit_zero (S := S5000x128) Matmul.zero_offsets, View.ld_unit_zero (S := S128x256) Matmul.zero_offsets,
    View.ld_unit_zero (S := S1x256) Matmul.zero_offsets]
  funext j
  obtain ⟨p, q, rfl⟩ : ∃ (p : Fin 5000) (q : Fin 256), j = ix2 p q := ⟨j 0, j 1, eq_ix2 j⟩
  show k1_pay1 (iblk1 V c 0 t) (iblk1 V c 1 t) (iblk1 V c 2 t) (iblk1 V c 3 t) (iblk1 V c 4 t) (ix2 p q)
    = layer1 V c (((cfg1.win 5).blk t).view.emb (ix2 p q))
  rw [pay1_apply, emb1_5]
  simp only [iblk1_0_apply, iblk1_1_apply, iblk1_2_apply, iblk1_3_apply, iblk1_4_apply]
  rfl

/-- An index of the output array is in point t's block iff each coordinate is in the block's range on its axis. -/
theorem mem_blk1_5 (t : Fin cfg1.N) (i : S50000x256.Idx) :
    i ∈ ((cfg1.win 5).blk t).view.set ↔ ∀ a : Fin 2, win1_5.index t a * S5000x256.size a ≤ (i a).val
      ∧ (i a).val < win1_5.index t a * S5000x256.size a + S5000x256.size a := by
  show i ∈ ((View.whole main_v31).slice (win1_5.rect t)).set ↔ _
  rw [View.set_slice_whole, Rect.mem_set_unit]
  exact Iff.rfl

/-- The ten blocks of 5000 rows tile the 50000 rows: row r is in the block of point r / 5000. -/
theorem cover1_5_arr (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  let t : Fin cfg1.N := ⟨(i 0).val / 5000, by show (i 0).val / 5000 < 10; omega⟩
  have ht : t.val = (i 0).val / 5000 := rfl
  obtain ⟨e00, e01, e10, e11, e20, e21, e30, e31, e40, e41, e50, e51⟩ := index_facts1 t
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 256 ≤ (i 1).val ∧ (i 1).val < win1_5.index t (1 : Fin 2) * 256 + 256; omega

/-- After the call its output array is the layer's function of the arrays it was given. -/
theorem arrAt1_5 (c : Dev nD) :
    ((dat1 (F := Ideal) V c).arrAt 5 cfg1.N : Math.Mat 50000 256)
      = Math.conv (V c main_v29 : Math.Mat 50000 128) (V c main_v17 : Math.Mat 50000 128) (V c main_arg6 : Math.Mat 128 256)
          (fun q => (V c main_v30 : Math.Mat 1 256) (ix2 0 q)) (V c main_arg8 : Math.Mat 128 256) :=
  (dat1 (F := Ideal) V c).arrAt_eq_of_cover 5 (layer1 V c) (fun t _ => flushed1_5_eq V c t) cover1_5_arr

end Cert.KernelIdeal.RegVal

end
-- ==== Proof.KernelIdeal.Val2.lean ====
/-
  What the third graph-convolution call leaves in its output array, at the ideal values.

  Each of the ten points writes its own block of 5000 rows, and the blocks tile the 50000 rows; a point's block is
  elu(agg · W_rel + b + h · W_root) of its rows. So after the call the whole array is that function of the whole inputs,
  entry by entry.
-/
import proofs.«431204_j57801669869757_2_alg».proof.Proof.KernelIdeal.Reg2
import proofs.«431204_j57801669869757_2_alg».proof.Proof.Math
import proofs.«431204_j57801669869757_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.GenP Cert.KernelIdeal.Regs

variable (V : (c : Dev nD) → (b : Ref sig .tc) → Buf (Elt Ideal) ((c : Thread nD τ).loc b))

/-- The dimension numbers of the call's two products are those of a plain product of a 5000 x 256 by a 256 x 256 matrix. -/
theorem dot2_plain : dot_S5000x256_S256x256_S5000x256_1_0_0_1_n_n = DotDims.plain 5000 256 256 := rfl

/-- An exponential of an array, read at an index, is the exponential of the entry. -/
theorem exp2_apply {s : Shape} {φ : FTy} (a : FVec Ideal s φ) (i : s.Idx) : exp a i = Ideal.exp (a i) := rfl

/-- The body's stored value at entry (p, q) of its block: elu of row p of the neighbour sums times column q of W_rel,
    plus the bias at q, plus row p of the features times column q of W_root. -/
theorem pay2_apply (x0 x1 : Vec Ideal S5000x256 .f32) (x2 : Vec Ideal S256x256 .f32) (x3 : Vec Ideal S1x256 .f32)
    (x4 : Vec Ideal S256x256 .f32) (p : Fin 5000) (q : Fin 256) :
    k2_pay1 x0 x1 x2 x3 x4 (ix2 p q)
      = Math.elu ((∑ k : Fin 256, x0 (ix2 p k) * x2 (ix2 k q)) + x3 (ix2 0 q) + ∑ k : Fin 256, x1 (ix2 p k) * x4 (ix2 k q)) := by
  unfold k2_pay1 Math.elu
  simp only [shapeCast_self, dot2_plain, select_apply, cmpf_apply, exp2_apply, addf_apply, subf_apply, mulf_apply, broadcast_apply,
    Matmul.matmul_plain_zero_apply, broadcastTo_1b_ab_apply, Ideal.cmpf_def, Ideal.ofBits_def]

/-- The array the call's output window ends holding: the layer's function of the five arrays the call reads. -/
abbrev layer2 (c : Dev nD) : Math.Mat 50000 256 :=
  Math.conv (V c main_v43 : Math.Mat 50000 256) (V c main_v31 : Math.Mat 50000 256) (V c main_arg9 : Math.Mat 256 256)
    (fun q => (V c main_v44 : Math.Mat 1 256) (ix2 0 q)) (V c main_arg11 : Math.Mat 256 256)

/-- The windows' index maps at the ten points: the three row windows sit at block (t, 0), the three whole windows at
    block (0, 0). -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's block is row 5000 t + p of the array. -/
def row2 (t : Fin cfg2.N) (p : Fin 5000) : Fin 50000 :=
  ⟨5000 * t.val + p.val, by have ht : t.val < 10 := t.isLt; have hp := p.isLt; omega⟩

/-- Where entry (p, k) of point t's block of the neighbour sums sits in their array. -/
theorem emb2_0 (t : Fin cfg2.N) (p : Fin 5000) (k : Fin 256) :
    ((cfg2.win 0).blk t).view.emb (ix2 p k) = ix2 (row2 t p) k := by
  obtain ⟨e00, e01, e10, e11, e20, e21, e30, e31, e40, e41, e50, e51⟩ := index_facts2 t
  funext a; apply Fin.ext
  match a with
  | ⟨0, _⟩ => show win2_0.index t (0 : Fin 2) * 5000 + 1 * p.val = 5000 * t.val + p.val; omega
  | ⟨1, _⟩ => show win2_0.index t (1 : Fin 2) * 256 + 1 * k.val = k.val; omega

/-- Where entry (p, k) of point t's block of the node features sits in their array. -/
theorem emb2_1 (t : Fin cfg2.N) (p : Fin 5000) (k : Fin 256) :
    ((cfg2.win 1).blk t).view.emb (ix2 p k) = ix2 (row2 t p) k := by
  obtain ⟨e00, e01, e10, e11, e20, e21, e30, e31, e40, e41, e50, e51⟩ := index_facts2 t
  funext a; apply Fin.ext
  match a with
  | ⟨0, _⟩ => show win2_1.index t (0 : Fin 2) * 5000 + 1 * p.val = 5000 * t.val + p.val; omega
  | ⟨1, _⟩ => show win2_1.index t (1 : Fin 2) * 256 + 1 * k.val = k.val; omega

/-- The first weight matrix's one block is the matrix. -/
theorem emb2_2 (t : Fin cfg2.N) (k : Fin 256) (q : Fin 256) : ((cfg2.win 2).blk t).view.emb (ix2 k q) = ix2 k q := by
  obtain ⟨e00, e01, e10, e11, e20, e21, e30, e31, e40, e41, e50, e51⟩ := index_facts2 t
  funext a; apply Fin.ext
  match a with
  | ⟨0, _⟩ => show win2_2.index t (0 : Fin 2) * 256 + 1 * k.val = k.val; omega
  | ⟨1, _⟩ => show win2_2.index t (1 : Fin 2) * 256 + 1 * q.val = q.val; omega

/-- The bias row's one block is the row. -/
theorem emb2_3 (t : Fin cfg2.N) (z : Fin 1) (q : Fin 256) : ((cfg2.win 3).blk t).view.emb (ix2 z q) = ix2 z q := by
  obtain ⟨e00, e01, e10, e11, e20, e21, e30, e31, e40, e41, e50, e51⟩ := index_facts2 t
  funext a; apply Fin.ext
  match a with
  | ⟨0, _⟩ => show win2_3.index t (0 : Fin 2) * 1 + 1 * z.val = z.val; omega
  | ⟨1, _⟩ => show win2_3.index t (1 : Fin 2) * 256 + 1 * q.val = q.val; omega

/-- The second weight matrix's one block is the matrix. -/
theorem emb2_4 (t : Fin cfg2.N) (k : Fin 256) (q : Fin 256) : ((cfg2.win 4).blk t).view.emb (ix2 k q) = ix2 k q := by
  obtain ⟨e00, e01, e10, e11, e20, e21, e30, e31, e40, e41, e50, e51⟩ := index_facts2 t
  funext a; apply Fin.ext
  match a with
  | ⟨0, _⟩ => show win2_4.index t (0 : Fin 2) * 256 + 1 * k.val = k.val; omega
  | ⟨1, _⟩ => show win2_4.index t (1 : Fin 2) * 256 + 1 * q.val = q.val; omega

/-- Where entry (p, q) of point t's output block sits in the output array. -/
theorem emb2_5 (t : Fin cfg2.N) (p : Fin 5000) (q : Fin 256) :
    ((cfg2.win 5).blk t).view.emb (ix2 p q) = ix2 (row2 t p) q := by
  obtain ⟨e00, e01, e10, e11, e20, e21, e30, e31, e40, e41, e50, e51⟩ := index_facts2 t
  funext a; apply Fin.ext
  match a with
  | ⟨0, _⟩ => show win2_5.index t (0 : Fin 2) * 5000 + 1 * p.val = 5000 * t.val + p.val; omega
  | ⟨1, _⟩ => show win2_5.index t (1 : Fin 2) * 256 + 1 * q.val = q.val; omega

/-- Point t's block of the neighbour sums, read at (p, k), is the array at row 5000 t + p. -/
theorem iblk2_0_apply (c : Dev nD) (t : Fin cfg2.N) (p : Fin 5000) (k : Fin 256) :
    iblk2 V c 0 t (ix2 p k) = (V c main_v43 : Math.Mat 50000 256) (ix2 (row2 t p) k) := by
  unfold iblk2; exact congrArg (V c main_v43) (emb2_0 t p k)

/-- Point t's block of the node features, read at (p, k), is the array at row 5000 t + p. -/
theorem iblk2_1_apply (c : Dev nD) (t : Fin cfg2.N) (p : Fin 5000) (k : Fin 256) :
    iblk2 V c 1 t (ix2 p k) = (V c main_v31 : Math.Mat 50000 256) (ix2 (row2 t p) k) := by
  unfold iblk2; exact congrArg (V c main_v31) (emb2_1 t p k)

/-- The first weight matrix's block is the matrix at every point. -/
theorem iblk2_2_apply (c : Dev nD) (t : Fin cfg2.N) (k : Fin 256) (q : Fin 256) :
    iblk2 V c 2 t (ix2 k q) = (V c main_arg9 : Math.Mat 256 256) (ix2 k q) := by
  unfold iblk2; exact congrArg (V c main_arg9) (emb2_2 t k q)

/-- The bias row's block is the row at every point. -/
theorem iblk2_3_apply (c : Dev nD) (t : Fin cfg2.N) (z : Fin 1) (q : Fin 256) :
    iblk2 V c 3 t (ix2 z q) = (V c main_v44 : Math.Mat 1 256) (ix2 z q) := by
  unfold iblk2; exact congrArg (V c main_v44) (emb2_3 t z q)

/-- The second weight matrix's block is the matrix at every point. -/
theorem iblk2_4_apply (c : Dev nD) (t : Fin cfg2.N) (k : Fin 256) (q : Fin 256) :
    iblk2 V c 4 t (ix2 k q) = (V c main_arg11 : Math.Mat 256 256) (ix2 k q) := by
  unfold iblk2; exact congrArg (V c main_arg11) (emb2_4 t k q)

/-- What point t writes back is block t of the layer's function of the whole arrays: the rows of its two row blocks are
    the rows 5000 t .. 5000 t + 4999 of their arrays, and the weights and the bias are whole. -/
theorem flushed2_5_eq (c : Dev nD) (t : Fin cfg2.N) :
    (dat2 (F := Ideal) V c).flushed 5 t = ((cfg2.win 5).blk t).view.read (Elt Ideal) (layer2 V c) := by
  show (cfg2.win 5).cut (grid2.coords t) ((dat2 (F := Ideal) V c).after 5 t) = _
  rw [after2_5]
  unfold out2_5
  rw [View.canon_unit_zero Matmul.zero_offsets]
  simp only [View.ld_unit_zero (S := S5000x256) Matmul.zero_offsets, View.ld_unit_zero (S := S256x256) Matmul.zero_offsets,
    View.ld_unit_zero (S := S1x256) Matmul.zero_offsets]
  funext j
  obtain ⟨p, q, rfl⟩ : ∃ (p : Fin 5000) (q : Fin 256), j = ix2 p q := ⟨j 0, j 1, eq_ix2 j⟩
  show k2_pay1 (iblk2 V c 0 t) (iblk2 V c 1 t) (iblk2 V c 2 t) (iblk2 V c 3 t) (iblk2 V c 4 t) (ix2 p q)
    = layer2 V c (((cfg2.win 5).blk t).view.emb (ix2 p q))
  rw [pay2_apply, emb2_5]
  simp only [iblk2_0_apply, iblk2_1_apply, iblk2_2_apply, iblk2_3_apply, iblk2_4_apply]
  rfl

/-- An index of the output array is in point t's block iff each coordinate is in the block's range on its axis. -/
theorem mem_blk2_5 (t : Fin cfg2.N) (i : S50000x256.Idx) :
    i ∈ ((cfg2.win 5).blk t).view.set ↔ ∀ a : Fin 2, win2_5.index t a * S5000x256.size a ≤ (i a).val
      ∧ (i a).val < win2_5.index t a * S5000x256.size a + S5000x256.size a := by
  show i ∈ ((View.whole main_v45).slice (win2_5.rect t)).set ↔ _
  rw [View.set_slice_whole, Rect.mem_set_unit]
  exact Iff.rfl

/-- The ten blocks of 5000 rows tile the 50000 rows: row r is in the block of point r / 5000. -/
theorem cover2_5_arr (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  let t : Fin cfg2.N := ⟨(i 0).val / 5000, by show (i 0).val / 5000 < 10; omega⟩
  have ht : t.val = (i 0).val / 5000 := rfl
  obtain ⟨e00, e01, e10, e11, e20, e21, e30, e31, e40, e41, e50, e51⟩ := index_facts2 t
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 256 ≤ (i 1).val ∧ (i 1).val < win2_5.index t (1 : Fin 2) * 256 + 256; omega

/-- After the call its output array is the layer's function of the arrays it was given. -/
theorem arrAt2_5 (c : Dev nD) :
    ((dat2 (F := Ideal) V c).arrAt 5 cfg2.N : Math.Mat 50000 256)
      = Math.conv (V c main_v43 : Math.Mat 50000 256) (V c main_v31 : Math.Mat 50000 256) (V c main_arg9 : Math.Mat 256 256)
          (fun q => (V c main_v44 : Math.Mat 1 256) (ix2 0 q)) (V c main_arg11 : Math.Mat 256 256) :=
  (dat2 (F := Ideal) V c).arrAt_eq_of_cover 5 (layer2 V c) (fun t _ => flushed2_5_eq V c t) cover2_5_arr

end Cert.KernelIdeal.RegVal

end
-- ==== Proof.LibMatmulT.lean ====
/-
  A matrix product whose LEFT operand is read transposed, for any sizes.

  The dimension numbers contract the first axis of both operands: a K × M matrix A and a K × N matrix B give the M × N
  matrix Aᵀ · B. Accumulated into zeros and read at entry (a, b) at the ideal values it is Σ_c A(c, a) · B(c, b): the
  contraction index has one coordinate, which runs over the K rows of both operands.
-/
import Idealize.ShloMosaic.Lib.ValueIdx
import Idealize.ShloMosaic.PureOps.Ideal.Laws

noncomputable section

namespace Cert.Lib.MatmulT

open Idealize.ShloMosaic Idealize.ShloMosaic.ValueIdx

/-- The dimension numbers of Aᵀ · B: both operands contracted on axis 0, their axes 1 kept, no batch axes. -/
def lhsT (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The product with the left operand transposed, into a zero accumulator, read at an entry: the sum over the shared first
    coordinate of the products of the two operands' entries. -/
theorem matmul_lhsT_zero_apply {K M N : Nat} {φ₁ φ₂ : FTy} (prec : Option ContractPrecision)
    (A : FVec Ideal ⟨2, ![K, M]⟩ φ₁) (B : FVec Ideal ⟨2, ![K, N]⟩ φ₂) (a : Fin M) (b : Fin N) :
    matmul (F := Ideal) (lhsT K M N) prec A B (constant ⟨2, ![M, N]⟩ .f32 0x00000000#32) (ix2 a b)
      = ∑ c : Fin K, A (ix2 c a) * B (ix2 c b) := by
  show FloatOps.matmul _ prec A B _ (ix2 a b) = _
  rw [Ideal.matmul_constant_zero_apply, ← Equiv.sum_comp (contrEquiv1 (lhsT K M N) K rfl rfl).symm]
  refine Finset.sum_congr rfl fun c _ => ?_
  have c2 := contrEquiv1_symm_val (lhsT K M N) K rfl rfl c
  have l2 : (lhsT K M N).lhsIdx (ix2 a b) ((contrEquiv1 _ K rfl rfl).symm c) = ix2 c a := by
    funext ax; apply Fin.ext
    match ax with
    | ⟨0, _⟩ => simp [DotDims.lhsIdx, lhsT]; exact c2
    | ⟨1, _⟩ => simp [DotDims.lhsIdx, lhsT]; rfl
  have r2 : (lhsT K M N).rhsIdx (ix2 a b) ((contrEquiv1 _ K rfl rfl).symm c) = ix2 c b := by
    funext ax; apply Fin.ext
    match ax with
    | ⟨0, _⟩ => simp [DotDims.rhsIdx, lhsT]; exact c2
    | ⟨1, _⟩ => simp [DotDims.rhsIdx, lhsT]; rfl
  rw [l2, r2]

end Cert.Lib.MatmulT

end
-- ==== Proof.KernelIdeal.Val3Acc.lean ====
/-
  The pooling call's two running totals, at the ideal values.

  A block's one-hot matrix has a 1 at (r, g) exactly when row r's id word is g's. Its transpose times the block's rows adds,
  to each graph's sum, the rows of that graph in the block; its column sums add their number to each graph's count. Point
  t's block holds nodes 5000·t to 5000·t + 4999, so after point n the totals are the sums over the first 5000·(n + 1)
  nodes, and after the last point over all 50000: the graph sums and graph counts of the whole arrays.
-/
import proofs.«431204_j57801669869757_2_alg».proof.Proof.KernelIdeal.Reg3
import proofs.«431204_j57801669869757_2_alg».proof.Proof.Math
import proofs.«431204_j57801669869757_2_alg».proof.Proof.LibMatmul
import proofs.«431204_j57801669869757_2_alg».proof.Proof.LibMatmulT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal.Pool

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.GenP Cert.KernelIdeal.Regs

variable (V : (c : Dev nD) → (b : Ref sig .tc) → Buf (Elt Ideal) ((c : Thread nD τ).loc b))

/-! ## Reading rank-2 arrays by coordinates -/

/-- Two rank-2 arrays are equal when they agree at every pair of coordinates. -/
theorem ext_ix2 {n0 n1 : Nat} {α : Type} {f g : (⟨2, ![n0, n1]⟩ : Shape).Idx → α}
    (h : ∀ (p : Fin n0) (q : Fin n1), f (ix2 p q) = g (ix2 p q)) : f = g := by
  funext i
  have hi : i = ix2 (n0 := n0) (n1 := n1) (i 0) (i 1) := by
    funext a; match a with | ⟨0, _⟩ => rfl | ⟨1, _⟩ => rfl
  exact (congrArg f hi).trans ((h _ _).trans (congrArg g hi).symm)

/-- A column broadcast across the columns reads, at (p, q), the column's entry p. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector cast to a column reads, at (i, u), its entry i. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## One block's share -/

/-- An equality comparison of two words is the bit 1 when they are equal, else the bit 0. -/
theorem cmpi_eq_word {w : Nat} (a b : BitVec w) : IntOp.cmpi .eq a b = if a = b then 1#1 else 0#1 := by
  by_cases h : a = b
  · simp [IntOp.cmpi, h]
  · have hb : (a == b) = false := beq_eq_false_iff_ne.mpr h
    simp [IntOp.cmpi, h, hb]

/-- The one-hot matrix of a block's ids: at (r, g) it is 1 when row r's id word is g's, else 0. -/
theorem onehot_apply (ids : Vec Ideal S5000x1 .i32) (r : Fin 5000) (g : Fin 512) :
    k3_pay3 (F := Ideal) ids (ix2 r g) = if ids (ix2 r 0) = BitVec.ofNat 32 g.val then (1 : EReal) else 0 := by
  unfold k3_pay3
  dsimp only
  rw [sitofp_apply, extui_apply]
  show FloatOps.sitofp (F := Ideal) .f32 ((IntOp.cmpi .eq
      (broadcastTo S5000x512 (shapeCast S5000x1 ids shapeCasts_S5000x1_S5000x1) broadcasts_S5000x1_S5000x512 (ix2 r g))
      (iota .tc S5000x512 32 [1] iota_S5000x512_d1_w32 (ix2 r g))).setWidth 32) = _
  rw [broadcastTo_a1_ab_apply, shapeCast_self, iota_single_apply, cmpi_eq_word]
  show ((((if ids (ix2 r 0) = BitVec.ofNat 32 g.val then 1#1 else 0#1 : BitVec 1).setWidth 32).toInt : ℝ) : EReal) = _
  by_cases hm : ids (ix2 r 0) = BitVec.ofNat 32 g.val
  · rw [if_pos hm, if_pos hm]
    norm_num
  · rw [if_neg hm, if_neg hm]
    norm_num

/-- The index over column g of a rank-2 array with coordinate r put back on the reduced axis 0 is (r, g). -/
theorem lift_col {R G : Nat} (h : (⟨2, ![R, G]⟩ : Shape).Reduces [0] ⟨1, ![G]⟩) (g : Fin G) (r : Fin R) :
    h.lift (ix1 g) r = ix2 r g := by
  funext ax; apply Fin.ext
  match ax with
  | ⟨0, _⟩ => rfl
  | ⟨1, _⟩ => rfl

/-- One block's update of the sums: the old total plus the block's rows whose id is g's. -/
theorem pay4_apply (rows : Vec Ideal S5000x256 .f32) (ids : Vec Ideal S5000x1 .i32) (acc : Vec Ideal S512x256 .f32)
    (g : Fin 512) (d : Fin 256) :
    k3_pay4 (F := Ideal) rows ids acc (ix2 g d)
      = acc (ix2 g d) + ∑ r : Fin 5000, if ids (ix2 r 0) = BitVec.ofNat 32 g.val then rows (ix2 r d) else 0 := by
  unfold k3_pay4
  rw [shapeCast_self, addf_apply, shapeCast_self,
    show dot_S5000x512_S5000x256_S512x256_0_0_1_1_n_n = Cert.Lib.MatmulT.lhsT 5000 512 256 from rfl,
    Cert.Lib.MatmulT.matmul_lhsT_zero_apply]
  refine congrArg (acc (ix2 g d) + ·) (Finset.sum_congr rfl fun r _ => ?_)
  rw [onehot_apply]
  by_cases hm : ids (ix2 r 0) = BitVec.ofNat 32 g.val
  · rw [if_pos hm, if_pos hm, one_mul]
  · rw [if_neg hm, if_neg hm, zero_mul]

/-- One block's update of the counts: the old count plus the number of the block's rows whose id is g's. -/
theorem pay5_apply (ids : Vec Ideal S5000x1 .i32) (acc : Vec Ideal S1x512 .f32) (g : Fin 512) :
    k3_pay5 (F := Ideal) ids acc (ix2 0 g)
      = acc (ix2 0 g) + ∑ r : Fin 5000, if ids (ix2 r 0) = BitVec.ofNat 32 g.val then (1 : EReal) else 0 := by
  unfold k3_pay5
  dsimp only
  rw [shapeCast_self, addf_apply, shapeCast_a_1a_apply]
  refine congrArg (acc (ix2 0 g) + ·) ((Ideal.multiReduction_add_single (k3_pay3 (F := Ideal) ids) 0x00000000#32
    reduces_S5000x512_S512 (.inl rfl) rfl (ix1 g)).trans (Finset.sum_congr rfl fun r _ => ?_))
  rw [lift_col reduces_S5000x512_S512 g r]
  exact onehot_apply ids r g

/-- A running total that starts from zero and adds, at step n, the R terms f(R·n), …, f(R·n + R - 1) is after step n the sum
    of the first R·(n + 1) terms. -/
theorem sum_blocks {β : Type} [AddCommMonoid β] (R N : ℕ) (f : ℕ → β) (a : (n : ℕ) → n < N → β)
    (h0 : ∀ h : 0 < N, a 0 h = 0 + ∑ r : Fin R, f (R * 0 + r.val))
    (hs : ∀ n (h : n + 1 < N), a (n + 1) h = a n (Nat.lt_of_succ_lt h) + ∑ r : Fin R, f (R * (n + 1) + r.val)) :
    ∀ n (h : n < N), a n h = ∑ i ∈ Finset.range (R * (n + 1)), f i
  | 0, h => by
    rw [h0 h, zero_add, Nat.mul_zero, Nat.zero_add, Nat.mul_one, Finset.sum_range]
    refine Finset.sum_congr rfl fun r _ => ?_
    rw [Nat.zero_add]
  | n + 1, h => by
    rw [hs n h, sum_blocks R N f a h0 hs n (Nat.lt_of_succ_lt h), Nat.mul_succ R (n + 1), Finset.sum_range_add,
      Finset.sum_range (fun x => f (R * (n + 1) + x))]

/-- The block index of the two row-blocked windows is (point, 0). -/
theorem idx3_in : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Point t's block of node rows is rows 5000·t … 5000·t + 4999 of the array. -/
theorem iblk3_0_apply (c : Dev nD) (t : Fin cfg3.N) (r : Fin 5000) (d : Fin 256) (hi : 5000 * t.val + r.val < 50000) :
    iblk3 V c 0 t (ix2 r d) = (V c main_v45 : Math.Mat 50000 256) (ix2 ⟨5000 * t.val + r.val, hi⟩ d) := by
  unfold iblk3
  rw [View.read_apply]
  have h : ((cfg3.win 0).blk t).view.emb (ix2 r d) = ix2 ⟨5000 * t.val + r.val, hi⟩ d := by
    obtain ⟨e0, e1, -, -⟩ := idx3_in t
    funext a; apply Fin.ext
    match a with
    | ⟨0, _⟩ => show win3_0.index t (0 : Fin 2) * 5000 + 1 * r.val = 5000 * t.val + r.val; omega
    | ⟨1, _⟩ => show win3_0.index t (1 : Fin 2) * 256 + 1 * d.val = d.val; omega
  rw [h]
  rfl

/-- Point t's block of graph ids is ids 5000·t … 5000·t + 4999 of the array. -/
theorem iblk3_1_apply (c : Dev nD) (t : Fin cfg3.N) (r : Fin 5000) (hi : 5000 * t.val + r.val < 50000) :
    iblk3 V c 1 t (ix2 r 0) = (V c main_v46 : (⟨2, ![50000, 1]⟩ : Shape).Idx → BitVec 32) (ix2 ⟨5000 * t.val + r.val, hi⟩ 0) := by
  unfold iblk3
  rw [View.read_apply]
  have h : ((cfg3.win 1).blk t).view.emb (ix2 r 0) = ix2 ⟨5000 * t.val + r.val, hi⟩ 0 := by
    obtain ⟨-, -, e0, e1⟩ := idx3_in t
    funext a; apply Fin.ext
    match a with
    | ⟨0, _⟩ => show win3_1.index t (0 : Fin 2) * 5000 + 1 * r.val = 5000 * t.val + r.val; omega
    | ⟨1, _⟩ => show win3_1.index t (1 : Fin 2) * 1 + 1 * 0 = 0; omega
  rw [h]
  rfl

/-- Node i's term in a sum over graph g's nodes: x i when i is one of the 50000 nodes and its id word is g's, else 0. -/
def nodeTerm (batch : Fin 50000 → BitVec 32) (g : Fin 512) (x : Fin 50000 → EReal) (i : ℕ) : EReal :=
  if hi : i < 50000 then (if batch ⟨i, hi⟩ = BitVec.ofNat 32 g.val then x ⟨i, hi⟩ else 0) else 0

/-- Over all 50000 nodes those terms add up to the sum over graph g's members. -/
theorem nodeTerm_sum (batch : Fin 50000 → BitVec 32) (g : Fin 512) (x : Fin 50000 → EReal) :
    ∑ i ∈ Finset.range 50000, nodeTerm batch g x i = ∑ n : Fin 50000, if Math.member batch n g then x n else 0 := by
  rw [Finset.sum_range]
  refine Finset.sum_congr rfl fun n _ => ?_
  unfold nodeTerm
  rw [dif_pos n.isLt]
  by_cases hm : batch n = BitVec.ofNat 32 g.val
  · rw [if_pos (show batch ⟨n.val, n.isLt⟩ = BitVec.ofNat 32 g.val from hm), if_pos (show Math.member batch n g from hm)]
  · rw [if_neg (show ¬ batch ⟨n.val, n.isLt⟩ = BitVec.ofNat 32 g.val from hm), if_neg (show ¬ Math.member batch n g from hm)]

/-- Row r of point t's block contributes node 5000·t + r's term. -/
theorem block_nodeTerm (c : Dev nD) (t : Fin cfg3.N) (g : Fin 512) (r : Fin 5000) (x : Fin 50000 → EReal) (y : EReal)
    (hy : ∀ hi : 5000 * t.val + r.val < 50000, y = x ⟨5000 * t.val + r.val, hi⟩) :
    (if iblk3 V c 1 t (ix2 r 0) = BitVec.ofNat 32 g.val then y else 0)
      = nodeTerm (fun n => (V c main_v46 : (⟨2, ![50000, 1]⟩ : Shape).Idx → BitVec 32) (ix2 n 0)) g x (5000 * t.val + r.val) := by
  have ht : t.val < grid3.N := t.isLt
  rw [N_3] at ht
  have hr : r.val < 5000 := r.isLt
  have hi : 5000 * t.val + r.val < 50000 := by omega
  rw [iblk3_1_apply V c t r hi, hy hi]
  unfold nodeTerm
  rw [dif_pos hi]

/-- After point n the sums hold, per graph and column, the terms of the first 5000·(n + 1) nodes. -/
theorem sums_apply (c : Dev nD) (g : Fin 512) (d : Fin 256) (n : ℕ) (hn : n < cfg3.N) :
    (accAt3 (F := Ideal) V c n hn).1 (ix2 g d)
      = ∑ i ∈ Finset.range (5000 * (n + 1)),
          nodeTerm (fun n => (V c main_v46 : (⟨2, ![50000, 1]⟩ : Shape).Idx → BitVec 32) (ix2 n 0)) g
            (fun n => (V c main_v45 : Math.Mat 50000 256) (ix2 n d)) i := by
  refine sum_blocks 5000 cfg3.N _ (fun n hn => (accAt3 (F := Ideal) V c n hn).1 (ix2 g d)) (fun h => ?_) (fun n h => ?_) n hn
  · show k3_pay4 (F := Ideal) (iblk3 V c 0 ⟨0, h⟩) (iblk3 V c 1 ⟨0, h⟩) (k3_pay1 (F := Ideal)) (ix2 g d) = _
    rw [pay4_apply]
    refine congrArg₂ (· + ·) Ideal.ofBits_zero_f32 (Finset.sum_congr rfl fun r _ => ?_)
    exact block_nodeTerm V c ⟨0, h⟩ g r _ _ fun hi => iblk3_0_apply V c ⟨0, h⟩ r d hi
  · show k3_pay4 (F := Ideal) (iblk3 V c 0 ⟨n + 1, h⟩) (iblk3 V c 1 ⟨n + 1, h⟩) (accAt3 V c n (Nat.lt_of_succ_lt h)).1 (ix2 g d) = _
    rw [pay4_apply]
    refine congrArg (_ + ·) (Finset.sum_congr rfl fun r _ => ?_)
    exact block_nodeTerm V c ⟨n + 1, h⟩ g r _ _ fun hi => iblk3_0_apply V c ⟨n + 1, h⟩ r d hi

/-- After point n the counts hold, per graph, the number of its nodes among the first 5000·(n + 1). -/
theorem counts_apply (c : Dev nD) (g : Fin 512) (n : ℕ) (hn : n < cfg3.N) :
    (accAt3 (F := Ideal) V c n hn).2 (ix2 0 g)
      = ∑ i ∈ Finset.range (5000 * (n + 1)),
          nodeTerm (fun n => (V c main_v46 : (⟨2, ![50000, 1]⟩ : Shape).Idx → BitVec 32) (ix2 n 0)) g (fun _ => 1) i := by
  refine sum_blocks 5000 cfg3.N _ (fun n hn => (accAt3 (F := Ideal) V c n hn).2 (ix2 0 g)) (fun h => ?_) (fun n h => ?_) n hn
  · show k3_pay5 (F := Ideal) (iblk3 V c 1 ⟨0, h⟩) (k3_pay2 (F := Ideal)) (ix2 0 g) = _
    rw [pay5_apply]
    refine congrArg₂ (· + ·) Ideal.ofBits_zero_f32 (Finset.sum_congr rfl fun r _ => ?_)
    exact block_nodeTerm V c ⟨0, h⟩ g r _ _ fun _ => rfl
  · show k3_pay5 (F := Ideal) (iblk3 V c 1 ⟨n + 1, h⟩) (accAt3 V c n (Nat.lt_of_succ_lt h)).2 (ix2 0 g) = _
    rw [pay5_apply]
    refine congrArg (_ + ·) (Finset.sum_congr rfl fun r _ => ?_)
    exact block_nodeTerm V c ⟨n + 1, h⟩ g r _ _ fun _ => rfl

/-! ## The totals after the last point -/

/-- After the last point the sums are every graph's sum of its rows over all 50000 nodes. -/
theorem sums_final (c : Dev nD) :
    (accAt3 (F := Ideal) V c 9 t3_9.isLt).1
      = Math.graphSum (G := 512) (V c main_v45 : Math.Mat 50000 256)
          (fun n => (V c main_v46 : (⟨2, ![50000, 1]⟩ : Shape).Idx → BitVec 32) (ix2 n 0)) := by
  refine ext_ix2 fun g d => ?_
  rw [sums_apply V c g d 9 t3_9.isLt]
  show ∑ i ∈ Finset.range 50000, _ = _
  rw [nodeTerm_sum]
  rfl

/-- After the last point the counts are every graph's number of nodes. -/
theorem counts_final (c : Dev nD) (g : Fin 512) :
    (accAt3 (F := Ideal) V c 9 t3_9.isLt).2 (ix2 0 g)
      = Math.graphCount (fun n => (V c main_v46 : (⟨2, ![50000, 1]⟩ : Shape).Idx → BitVec 32) (ix2 n 0)) g := by
  rw [counts_apply V c g 9 t3_9.isLt]
  show ∑ i ∈ Finset.range 50000, _ = _
  rw [nodeTerm_sum]
  rfl

end Cert.KernelIdeal.RegVal.Pool

end
-- ==== Proof.KernelIdeal.Val3.lean ====
/-
  What the pooling call leaves in its output array, at the ideal values.

  The two running totals after the last point are, per graph, the sum of that graph's rows over all 50000 nodes and the
  number of its nodes: each block's one-hot product picks out the rows whose id is the graph's, and the ten blocks tile
  the nodes. The last point stores the head of those totals, and it is the only point that writes the output back.
-/
import proofs.«431204_j57801669869757_2_alg».proof.Proof.KernelIdeal.Reg3
import proofs.«431204_j57801669869757_2_alg».proof.Proof.Math
import proofs.«431204_j57801669869757_2_alg».proof.Proof.LibMatmul
import proofs.«431204_j57801669869757_2_alg».proof.Proof.KernelIdeal.Val3Acc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal.Pool

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.GenP Cert.KernelIdeal.Regs

variable (V : (c : Dev nD) → (b : Ref sig .tc) → Buf (Elt Ideal) ((c : Thread nD τ).loc b))

/-! ## The head on the totals: two dense layers with elu, a dense layer, log-softmax -/

/-- A product into zeros plus a bias row broadcast over the rows is the dense layer, entry by entry. -/
theorem dense_eq {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) :
    addf (matmul (F := Ideal) D none x w (constant ⟨2, ![M, N]⟩ .f32 0x00000000#32))
        (broadcastTo ⟨2, ![M, N]⟩ (shapeCast ⟨2, ![1, N]⟩ b hc) hb)
      = Math.dense x w (fun q => b (ix2 0 q)) := by
  subst hD
  refine ext_ix2 fun p q => ?_
  rw [addf_apply, Matmul.matmul_plain_zero_apply, broadcastTo_1b_ab_apply, shapeCast_self]
  rfl

/-- The kernel's elu, entry by entry: select on y > 0 between y and 1 · (exp y - 1). -/
theorem elu_eq {s : Shape} (y : FVec Ideal s .f32) :
    select (cmpf .ogt y (broadcast s (Scalar.ofBits .f32 0x00000000#32))) y
        (mulf (broadcast s (Scalar.ofBits .f32 0x3F800000#32)) (subf (exp y) (broadcast s (Scalar.ofBits .f32 0x3F800000#32))))
      = fun i => Math.elu (y i) := by
  funext i
  rfl

/-- The totals divided by max(count, 1): the counts row transposed to a column, broadcast across the columns. -/
theorem mean_eq {G D : Nat} (cnt : FVec Ideal ⟨2, ![1, G]⟩ .f32) (sums : FVec Ideal ⟨2, ![G, D]⟩ .f32)
    (ht : (⟨2, ![1, G]⟩ : Shape).Transposes [1, 0] ⟨2, ![G, 1]⟩) (hb : (⟨2, ![G, 1]⟩ : Shape).Broadcasts ⟨2, ![G, D]⟩) :
    divf sums (broadcastTo ⟨2, ![G, D]⟩
        (maximumf (transpose ⟨2, ![G, 1]⟩ [1, 0] cnt ht) (broadcast ⟨2, ![G, 1]⟩ (Scalar.ofBits .f32 0x3F800000#32))) hb)
      = fun i => Ideal.div (sums i) (max (cnt (ix2 0 (i 0))) Math.one) := by
  refine ext_ix2 fun p q => ?_
  rw [divf_apply, broadcastTo_a1_ab_apply, maximumf_apply, transpose_ix2_apply]
  rfl

/-- The head's first two layers on the totals: the mean rows through two dense layers, each followed by elu. -/
theorem pay7_eq (cnt : Vec Ideal S1x512 .f32) (sums : Vec Ideal S512x256 .f32) (w1 : Vec Ideal S256x256 .f32)
    (b1 : Vec Ideal S1x256 .f32) (w2 : Vec Ideal S256x128 .f32) (b2 : Vec Ideal S1x128 .f32) :
    k3_pay7 (F := Ideal) cnt sums w1 b1 w2 b2
      = Math.eluAll (Math.dense (Math.eluAll (Math.dense
          (fun i => Ideal.div (sums i) (max (cnt (ix2 0 (i 0))) Math.one) : Math.Mat 512 256)
          w1 (fun q => b1 (ix2 0 q)))) w2 (fun q => b2 (ix2 0 q))) := by
  have e1 := mean_eq (G := 512) (D := 256) cnt sums transposes_S1x512_p1_0_S512x1 broadcasts_S512x1_S512x256
  have d1 := fun x => dense_eq (M := 512) (K := 256) (N := 256) dot_S512x256_S256x256_S512x256_1_0_0_1_n_n rfl x w1 b1
    shapeCasts_S1x256_S1x256 broadcasts_S1x256_S512x256
  have d2 := fun x => dense_eq (M := 512) (K := 256) (N := 128) dot_S512x256_S256x128_S512x128_1_0_0_1_n_n rfl x w2 b2
    shapeCasts_S1x128_S1x128 broadcasts_S1x128_S512x128
  unfold k3_pay7
  dsimp only
  rw [e1, d1, elu_eq, d2, elu_eq]
  rfl

/-- The index over row p of a rank-2 array with coordinate c put back on the reduced axis 1 is (p, c). -/
theorem lift_row {M C : Nat} (h : (⟨2, ![M, C]⟩ : Shape).Reduces [1] ⟨1, ![M]⟩) (p : Fin M) (c : Fin C) :
    h.lift (ix1 p) c = ix2 p c := by
  funext ax; apply Fin.ext
  match ax with
  | ⟨0, _⟩ => rfl
  | ⟨1, _⟩ => rfl

/-- The row maxima from -inf, capped below by -inf again, as a column broadcast across the row. -/
theorem rowmax_eq {M C : Nat} (z : FVec Ideal ⟨2, ![M, C]⟩ .f32)
    (hr : (⟨2, ![M, C]⟩ : Shape).Reduces [1] ⟨1, ![M]⟩)
    (hc : (⟨1, ![M]⟩ : Shape).ShapeCasts ⟨2, ![M, 1]⟩) (hb : (⟨2, ![M, 1]⟩ : Shape).Broadcasts ⟨2, ![M, C]⟩)
    (hφ : FKind.Formats .f32) (hmax : (0xFF800000#32 : BitVec FTy.f32.bits) = FKind.maximumf.neutral .f32 hφ) :
    broadcastTo ⟨2, ![M, C]⟩ (shapeCast ⟨2, ![M, 1]⟩
        (maximumf (broadcast ⟨1, ![M]⟩ (Scalar.ofBits .f32 0xFF800000#32))
          (multiReduction .maximumf [1] ⟨1, ![M]⟩ z 0xFF800000#32 hr hφ hmax)) hc) hb
      = fun i => max Math.ninf (Math.rowMax z (i 0)) := by
  refine ext_ix2 fun p q => ?_
  rw [broadcastTo_a1_ab_apply, shapeCast_a_a1_apply, maximumf_apply, Ideal.multiReduction_maximumf_single]
  show max Math.ninf ((Finset.univ : Finset (Fin C)).fold max Math.ninf (z ∘ hr.lift (ix1 p))) = _
  rw [show (z ∘ hr.lift (ix1 p)) = fun c => z (ix2 p c) from funext fun c => congrArg z (lift_row hr p c)]
  rfl

/-- The log of a row's sum of exponentials, as a column broadcast across the row. -/
theorem logsum_eq {M C : Nat} (s : FVec Ideal ⟨2, ![M, C]⟩ .f32)
    (hr : (⟨2, ![M, C]⟩ : Shape).Reduces [1] ⟨1, ![M]⟩)
    (hc : (⟨1, ![M]⟩ : Shape).ShapeCasts ⟨2, ![M, 1]⟩) (hb : (⟨2, ![M, 1]⟩ : Shape).Broadcasts ⟨2, ![M, C]⟩)
    (hφ : FKind.Formats .f32) (hadd : (0x00000000#32 : BitVec FTy.f32.bits) = FKind.add.neutral .f32 hφ) :
    broadcastTo ⟨2, ![M, C]⟩ (log (shapeCast ⟨2, ![M, 1]⟩
        (multiReduction .add [1] ⟨1, ![M]⟩ (exp s) 0x00000000#32 hr hφ hadd) hc)) hb
      = fun i => Ideal.log (Math.zero + ∑ c : Fin C, Ideal.exp (s (ix2 (i 0) c))) := by
  refine ext_ix2 fun p q => ?_
  rw [broadcastTo_a1_ab_apply]
  show Ideal.log (shapeCast ⟨2, ![M, 1]⟩ (multiReduction .add [1] ⟨1, ![M]⟩ (exp s) 0x00000000#32 hr hφ hadd) hc (ix2 p 0)) = _
  rw [shapeCast_a_a1_apply, Ideal.multiReduction_add_single]
  show Ideal.log (∑ c : Fin C, exp s (hr.lift (ix1 p) c)) = Ideal.log (Math.zero + ∑ c : Fin C, Ideal.exp (s (ix2 p c)))
  rw [show Math.zero = 0 from Ideal.ofBits_zero_f32, zero_add]
  refine congrArg Ideal.log (Finset.sum_congr rfl fun c _ => ?_)
  rw [lift_row hr p c]
  rfl

/-- The head's last layer and the log-softmax along each row. -/
theorem pay6_eq (x : FVec Ideal S512x128 .f32) (w3 : Vec Ideal S128x10 .f32) (b3 : Vec Ideal S1x10 .f32) :
    k3_pay6 (F := Ideal) x w3 (constant S512x10 .f32 0x00000000#32) b3
      = Math.logSoftmax (Math.dense x w3 (fun q => b3 (ix2 0 q))) := by
  have d3 := dense_eq (M := 512) (K := 128) (N := 10) dot_S512x128_S128x10_S512x10_1_0_0_1_n_n rfl x w3 b3
    shapeCasts_S1x10_S1x10 broadcasts_S1x10_S512x10
  have m3 := fun z => rowmax_eq (M := 512) (C := 10) z reduces_S512x10_S512 shapeCasts_S512_S512x1 broadcasts_S512x1_S512x10
    (.inl rfl) rfl
  have l3 := fun s => logsum_eq (M := 512) (C := 10) s reduces_S512x10_S512 shapeCasts_S512_S512x1 broadcasts_S512x1_S512x10
    (.inl rfl) rfl
  unfold k3_pay6
  dsimp only
  rw [d3, m3, l3]
  rfl

/-! ## The windows that hold a whole array -/

/-- Window 2's one block is its whole array. -/
theorem iblk3_2 (c : Dev nD) : iblk3 V c 2 t3_9 = (V c main_arg12 : Math.Mat 256 256) := by
  funext j
  unfold iblk3
  rw [View.read_apply]
  have h : ((cfg3.win 2).blk t3_9).view.emb j = j := by
    funext ax; apply Fin.ext
    match ax with
    | ⟨0, _⟩ => show win3_2.index t3_9 (0 : Fin 2) * 256 + 1 * (j 0).val = (j 0).val; rw [show win3_2.index t3_9 (0 : Fin 2) = 0 from rfl]; omega
    | ⟨1, _⟩ => show win3_2.index t3_9 (1 : Fin 2) * 256 + 1 * (j 1).val = (j 1).val; rw [show win3_2.index t3_9 (1 : Fin 2) = 0 from rfl]; omega
  rw [h]
  rfl

/-- Window 3's one block is its whole array. -/
theorem iblk3_3 (c : Dev nD) : iblk3 V c 3 t3_9 = (V c main_v47 : Math.Mat 1 256) := by
  funext j
  unfold iblk3
  rw [View.read_apply]
  have h : ((cfg3.win 3).blk t3_9).view.emb j = j := by
    funext ax; apply Fin.ext
    match ax with
    | ⟨0, _⟩ => show win3_3.index t3_9 (0 : Fin 2) * 1 + 1 * (j 0).val = (j 0).val; rw [show win3_3.index t3_9 (0 : Fin 2) = 0 from rfl]; omega
    | ⟨1, _⟩ => show win3_3.index t3_9 (1 : Fin 2) * 256 + 1 * (j 1).val = (j 1).val; rw [show win3_3.index t3_9 (1 : Fin 2) = 0 from rfl]; omega
  rw [h]
  rfl

/-- Window 4's one block is its whole array. -/
theorem iblk3_4 (c : Dev nD) : iblk3 V c 4 t3_9 = (V c main_arg14 : Math.Mat 256 128) := by
  funext j
  unfold iblk3
  rw [View.read_apply]
  have h : ((cfg3.win 4).blk t3_9).view.emb j = j := by
    funext ax; apply Fin.ext
    match ax with
    | ⟨0, _⟩ => show win3_4.index t3_9 (0 : Fin 2) * 256 + 1 * (j 0).val = (j 0).val; rw [show win3_4.index t3_9 (0 : Fin 2) = 0 from rfl]; omega
    | ⟨1, _⟩ => show win3_4.index t3_9 (1 : Fin 2) * 128 + 1 * (j 1).val = (j 1).val; rw [show win3_4.index t3_9 (1 : Fin 2) = 0 from rfl]; omega
  rw [h]
  rfl

/-- Window 5's one block is its whole array. -/
theorem iblk3_5 (c : Dev nD) : iblk3 V c 5 t3_9 = (V c main_v48 : Math.Mat 1 128) := by
  funext j
  unfold iblk3
  rw [View.read_apply]
  have h : ((cfg3.win 5).blk t3_9).view.emb j = j := by
    funext ax; apply Fin.ext
    match ax with
    | ⟨0, _⟩ => show win3_5.index t3_9 (0 : Fin 2) * 1 + 1 * (j 0).val = (j 0).val; rw [show win3_5.index t3_9 (0 : Fin 2) = 0 from rfl]; omega
    | ⟨1, _⟩ => show win3_5.index t3_9 (1 : Fin 2) * 128 + 1 * (j 1).val = (j 1).val; rw [show win3_5.index t3_9 (1 : Fin 2) = 0 from rfl]; omega
  rw [h]
  rfl

/-- Window 6's one block is its whole array. -/
theorem iblk3_6 (c : Dev nD) : iblk3 V c 6 t3_9 = (V c main_arg16 : Math.Mat 128 10) := by
  funext j
  unfold iblk3
  rw [View.read_apply]
  have h : ((cfg3.win 6).blk t3_9).view.emb j = j := by
    funext ax; apply Fin.ext
    match ax with
    | ⟨0, _⟩ => show win3_6.index t3_9 (0 : Fin 2) * 128 + 1 * (j 0).val = (j 0).val; rw [show win3_6.index t3_9 (0 : Fin 2) = 0 from rfl]; omega
    | ⟨1, _⟩ => show win3_6.index t3_9 (1 : Fin 2) * 10 + 1 * (j 1).val = (j 1).val; rw [show win3_6.index t3_9 (1 : Fin 2) = 0 from rfl]; omega
  rw [h]
  rfl

/-- Window 7's one block is its whole array. -/
theorem iblk3_7 (c : Dev nD) : iblk3 V c 7 t3_9 = (V c main_v49 : Math.Mat 1 10) := by
  funext j
  unfold iblk3
  rw [View.read_apply]
  have h : ((cfg3.win 7).blk t3_9).view.emb j = j := by
    funext ax; apply Fin.ext
    match ax with
    | ⟨0, _⟩ => show win3_7.index t3_9 (0 : Fin 2) * 1 + 1 * (j 0).val = (j 0).val; rw [show win3_7.index t3_9 (0 : Fin 2) = 0 from rfl]; omega
    | ⟨1, _⟩ => show win3_7.index t3_9 (1 : Fin 2) * 10 + 1 * (j 1).val = (j 1).val; rw [show win3_7.index t3_9 (1 : Fin 2) = 0 from rfl]; omega
  rw [h]
  rfl

/-- The block the last point stores is the head of the node rows and graph ids. -/
theorem out3_8_eq (c : Dev nD) :
    (out3_8 (F := Ideal) V c : Math.Mat 512 10)
      = Math.head (V c main_v45 : Math.Mat 50000 256)
          (fun n => (V c main_v46 : (⟨2, ![50000, 1]⟩ : Shape).Idx → BitVec 32) (ix2 n 0))
          (V c main_arg12 : Math.Mat 256 256) (fun q => (V c main_v47 : Math.Mat 1 256) (ix2 0 q))
          (V c main_arg14 : Math.Mat 256 128) (fun q => (V c main_v48 : Math.Mat 1 128) (ix2 0 q))
          (V c main_arg16 : Math.Mat 128 10) (fun q => (V c main_v49 : Math.Mat 1 10) (ix2 0 q)) := by
  unfold out3_8
  rw [iblk3_2, iblk3_3, iblk3_4, iblk3_5, iblk3_6, iblk3_7, pay7_eq, pay6_eq, sums_final]
  unfold Math.head
  refine congrArg Math.logSoftmax (congrArg (fun x => Math.dense x _ _) (congrArg Math.eluAll
    (congrArg (fun x => Math.dense x _ _) (congrArg Math.eluAll (congrArg (fun x => Math.dense x _ _) ?_)))))
  refine ext_ix2 fun g d => ?_
  show Ideal.div _ (max ((accAt3 (F := Ideal) V c 9 t3_9.isLt).2 (ix2 0 g)) Math.one) = _
  rw [counts_final V c g]
  rfl

/-! ## The output array after the call -/

/-- The output window's block index is (0, 0) at every point: its one block is the whole array. -/
theorem idx3_8 : ∀ t : Fin cfg3.N, win3_8.index t (0 : Fin 2) = 0 ∧ win3_8.index t (1 : Fin 2) = 0 :=
  (by decide +kernel : ∀ t : Fin grid3.N, _)

/-- What a point writes back to the output window is the stored block, read through the whole array. -/
theorem flushed3_8_eq (c : Dev nD) (t : Fin cfg3.N) :
    (dat3 (F := Ideal) V c).flushed 8 t = ((cfg3.win 8).blk t).view.read (Elt Ideal) (out3_8 V c) := by
  show (cfg3.win 8).cut (grid3.coords t) ((dat3 V c).after 8 t) = _
  rw [after3_8]
  funext j
  rw [View.read_apply]
  have h : ((cfg3.win 8).blk t).view.emb j = j := by
    obtain ⟨e0, e1⟩ := idx3_8 t
    funext a; apply Fin.ext
    match a with
    | ⟨0, _⟩ => show win3_8.index t (0 : Fin 2) * 512 + 1 * (j 0).val = (j 0).val; omega
    | ⟨1, _⟩ => show win3_8.index t (1 : Fin 2) * 10 + 1 * (j 1).val = (j 1).val; omega
  rw [h]
  rfl

/-- Every entry of the output array lies in that one block. -/
theorem mem_blk3_8 (t : Fin cfg3.N) (i : S512x10.Idx) : i ∈ ((cfg3.win 8).blk t).view.set := by
  show i ∈ ((View.whole main_v50).slice (win3_8.rect t)).set
  rw [View.set_slice_whole, Rect.mem_set_unit]
  obtain ⟨e0, e1⟩ := idx3_8 t
  intro a
  match a with
  | ⟨0, _⟩ =>
    show win3_8.index t (0 : Fin 2) * 512 ≤ (i 0).val ∧ (i 0).val < win3_8.index t (0 : Fin 2) * 512 + 512
    have hi : (i 0).val < 512 := (i 0).isLt
    omega
  | ⟨1, _⟩ =>
    show win3_8.index t (1 : Fin 2) * 10 ≤ (i 1).val ∧ (i 1).val < win3_8.index t (1 : Fin 2) * 10 + 10
    have hi : (i 1).val < 10 := (i 1).isLt
    omega

/-- After the call the output array holds the block the last point stored: only that point writes back, and its
    block is the whole array. -/
theorem arrAt3_8_out (c : Dev nD) : (dat3 (F := Ideal) V c).arrAt 8 cfg3.N = out3_8 V c :=
  (dat3 V c).arrAt_eq_of_cover 8 (out3_8 V c) (fun t _ => flushed3_8_eq V c t)
    (fun i => ⟨t3_9, (flush3_8 t3_9).mpr rfl, mem_blk3_8 t3_9 i⟩)

end Cert.KernelIdeal.RegVal.Pool

namespace Cert.KernelIdeal.RegVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.GenP Cert.KernelIdeal.Regs

variable (V : (c : Dev nD) → (b : Ref sig .tc) → Buf (Elt Ideal) ((c : Thread nD τ).loc b))

/-- After the call its output array is the head of the node rows and graph ids it was given. -/
theorem arrAt3_8 (c : Dev nD) :
    ((dat3 (F := Ideal) V c).arrAt 8 cfg3.N : Math.Mat 512 10)
      = Math.head (V c main_v45 : Math.Mat 50000 256)
          (fun n => (V c main_v46 : (⟨2, ![50000, 1]⟩ : Shape).Idx → BitVec 32) (ix2 n 0))
          (V c main_arg12 : Math.Mat 256 256) (fun q => (V c main_v47 : Math.Mat 1 256) (ix2 0 q))
          (V c main_arg14 : Math.Mat 256 128) (fun q => (V c main_v48 : Math.Mat 1 128) (ix2 0 q))
          (V c main_arg16 : Math.Mat 128 10) (fun q => (V c main_v49 : Math.Mat 1 10) (ix2 0 q)) :=
  (Pool.arrAt3_8_out V c).trans (Pool.out3_8_eq V c)

end Cert.KernelIdeal.RegVal

end
-- ==== Proof.RefVal.lean ====
/- The reference program's value as pure functions of its eighteen arguments: a three-layer graph
   convolution (neighbour sum, two linear maps and a bias, ELU), a mean over each graph's nodes, a
   three-layer perceptron and a row-wise log-softmax. Every function below is the composition of the
   operations the reference program states for the values it names, in the program's order, with the
   same shape records, side conditions and literals. -/
import proofs.«431204_j57801669869757_2_alg».proof.ReferenceIdeal

noncomputable section

namespace Cert.ReferenceIdeal.RefVal

open Cert.ReferenceIdeal Idealize.ShloMosaic Idealize.SL.Sem
open Facts₀ Facts

variable {F : FTy → Type} [FloatOps F] [Facts]

/-- The edges' source nodes: row 0 of the edge list, as a vector of length 800000. -/
def src (ei : IVec S2x800000 32) : IVec S800000 32 :=
  shapeCast S800000 (extractStridedSlice S1x800000 ![0, 0] ei slices_S2x800000_S1x800000_0_0) shapeCasts_S1x800000_S800000

/-- The edges' destination nodes: row 1 of the edge list, as a vector of length 800000. -/
def dst (ei : IVec S2x800000 32) : IVec S800000 32 :=
  shapeCast S800000 (extractStridedSlice S1x800000 ![1, 0] ei slices_S2x800000_S1x800000_1_0) shapeCasts_S1x800000_S800000

/-- A node index read the way array indexing reads it: a negative index counts from the end (50000
    is added to it), any other is kept; the result is a column of one-element index vectors. -/
def wrap (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32)))
      i)

/-- The neighbour sum at width 128: starting from zero, row (dst e) of the result collects row
    (src e) of h over every edge e. -/
def agg128 (h : FVec F S50000x128 .f32) (ei : IVec S2x800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 (dst ei))
    (Host.gather gather_S50000x128_S800000x1_S800000x128_1_0_n_n_0_1_1128 h (wrap (src ei)))

/-- The neighbour sum at width 256. -/
def agg256 (h : FVec F S50000x256 .f32) (ei : IVec S2x800000 32) : FVec F S50000x256 .f32 :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 (dst ei))
    (Host.gather gather_S50000x256_S800000x1_S800000x256_1_0_n_n_0_1_1256 h (wrap (src ei)))

/-- ELU on a 50000 × 128 array: an entry x where x > 0, and elsewhere 1 · expm1 x' with x' the entry
    where it is not positive and 0 where it is (the exponential is never taken of a positive entry). -/
def elu128 (x : FVec F S50000x128 .f32) : FVec F S50000x128 .f32 :=
  select (cmpf .ogt x (broadcastInDim S50000x128 ![] bcast_S_S50000x128 (constant (F := F) S_ .f32 0x00000000#32))) x
    (mulf (broadcastInDim S50000x128 ![] bcast_S_S50000x128 (constant (F := F) S_ .f32 0x3F800000#32))
      (Host.expm1 (select (cmpf .ogt x (broadcastInDim S50000x128 ![] bcast_S_S50000x128 (constant (F := F) S_ .f32 0x00000000#32))) (broadcastInDim S50000x128 ![] bcast_S_S50000x128 (id (constant (F := F) S_ .f32 0x00000000#32))) x)))

/-- ELU on a 50000 × 256 array. -/
def elu256 (x : FVec F S50000x256 .f32) : FVec F S50000x256 .f32 :=
  select (cmpf .ogt x (broadcastInDim S50000x256 ![] bcast_S_S50000x256 (constant (F := F) S_ .f32 0x00000000#32))) x
    (mulf (broadcastInDim S50000x256 ![] bcast_S_S50000x256 (constant (F := F) S_ .f32 0x3F800000#32))
      (Host.expm1 (select (cmpf .ogt x (broadcastInDim S50000x256 ![] bcast_S_S50000x256 (constant (F := F) S_ .f32 0x00000000#32))) (broadcastInDim S50000x256 ![] bcast_S_S50000x256 (id (constant (F := F) S_ .f32 0x00000000#32))) x)))

/-- ELU on a 512 × 256 array. -/
def eluG256 (x : FVec F S512x256 .f32) : FVec F S512x256 .f32 :=
  select (cmpf .ogt x (broadcastInDim S512x256 ![] bcast_S_S512x256 (constant (F := F) S_ .f32 0x00000000#32))) x
    (mulf (broadcastInDim S512x256 ![] bcast_S_S512x256 (constant (F := F) S_ .f32 0x3F800000#32))
      (Host.expm1 (select (cmpf .ogt x (broadcastInDim S512x256 ![] bcast_S_S512x256 (constant (F := F) S_ .f32 0x00000000#32))) (broadcastInDim S512x256 ![] bcast_S_S512x256 (id (constant (F := F) S_ .f32 0x00000000#32))) x)))

/-- ELU on a 512 × 128 array. -/
def eluG128 (x : FVec F S512x128 .f32) : FVec F S512x128 .f32 :=
  select (cmpf .ogt x (broadcastInDim S512x128 ![] bcast_S_S512x128 (constant (F := F) S_ .f32 0x00000000#32))) x
    (mulf (broadcastInDim S512x128 ![] bcast_S_S512x128 (constant (F := F) S_ .f32 0x3F800000#32))
      (Host.expm1 (select (cmpf .ogt x (broadcastInDim S512x128 ![] bcast_S_S512x128 (constant (F := F) S_ .f32 0x00000000#32))) (broadcastInDim S512x128 ![] bcast_S_S512x128 (id (constant (F := F) S_ .f32 0x00000000#32))) x)))

/-- The first graph convolution: elu (agg · wrel + b + h · wroot), the bias broadcast along the rows. -/
def layer1 (agg h : FVec F S50000x128 .f32) (wrel : FVec F S128x128 .f32) (b : FVec F S128 .f32) (wroot : FVec F S128x128 .f32) : FVec F S50000x128 .f32 :=
  elu128 (addf
    (addf (Host.dotGeneral dot_S50000x128_S128x128_S50000x128_1_0_0_1_n_n none agg wrel)
      (broadcastInDim S50000x128 ![0, 1] bcast_S1x128_S50000x128_0_1 (broadcastInDim S1x128 ![1] bcast_S128_S1x128_1 b)))
    (Host.dotGeneral dot_S50000x128_S128x128_S50000x128_1_0_0_1_n_n none h wroot))

/-- The second graph convolution, from width 128 to width 256. -/
def layer2 (agg h : FVec F S50000x128 .f32) (wrel : FVec F S128x256 .f32) (b : FVec F S256 .f32) (wroot : FVec F S128x256 .f32) : FVec F S50000x256 .f32 :=
  elu256 (addf
    (addf (Host.dotGeneral dot_S50000x128_S128x256_S50000x256_1_0_0_1_n_n none agg wrel)
      (broadcastInDim S50000x256 ![0, 1] bcast_S1x256_S50000x256_0_1 (broadcastInDim S1x256 ![1] bcast_S256_S1x256_1 b)))
    (Host.dotGeneral dot_S50000x128_S128x256_S50000x256_1_0_0_1_n_n none h wroot))

/-- The third graph convolution, at width 256. -/
def layer3 (agg h : FVec F S50000x256 .f32) (wrel : FVec F S256x256 .f32) (b : FVec F S256 .f32) (wroot : FVec F S256x256 .f32) : FVec F S50000x256 .f32 :=
  elu256 (addf
    (addf (Host.dotGeneral dot_S50000x256_S256x256_S50000x256_1_0_0_1_n_n none agg wrel)
      (broadcastInDim S50000x256 ![0, 1] bcast_S1x256_S50000x256_0_1 (broadcastInDim S1x256 ![1] bcast_S256_S1x256_1 b)))
    (Host.dotGeneral dot_S50000x256_S256x256_S50000x256_1_0_0_1_n_n none h wroot))

/-- The mean of the node features over each of the 512 graphs: the rows summed by graph id, divided
    by the graph's node count, a count below one read as one. -/
def pooled (h : FVec F S50000x256 .f32) (batch : IVec S50000 32) : FVec F S512x256 .f32 :=
  Host.divf
    (Host.scatterAdd scatter_S512x256_S50000x1_S50000x256_1_0_0_1
      (broadcastInDim S512x256 ![] bcast_S_S512x256 (constant (F := F) S_ .f32 0x00000000#32))
      (broadcastInDim S50000x1 ![0] bcast_S50000_S50000x1_0 batch)
      h)
    (broadcastInDim S512x256 ![0, 1] bcast_S512x1_S512x256_0_1
      (broadcastInDim S512x1 ![0] bcast_S512_S512x1_0
        (maximumf
          (Host.scatterAdd scatter_S512_S50000x1_S50000_n_0_0_1
            (broadcastInDim S512 ![] bcast_S_S512 (constant (F := F) S_ .f32 0x00000000#32))
            (broadcastInDim S50000x1 ![0] bcast_S50000_S50000x1_0 batch)
            (broadcastInDim S50000 ![] bcast_S_S50000 (constant (F := F) S_ .f32 0x3F800000#32)))
          (broadcastInDim S512 ![] bcast_S_S512 (constant (F := F) S_ .f32 0x3F800000#32)))))

/-- The row-wise log-softmax of a 512 × 10 array: with m the row's maximum (taken from -∞) and
    y = z - m, the result is y - log (Σ exp y), the sum taken along the row from zero. -/
def logSoftmax (z : FVec F S512x10 .f32) : FVec F S512x10 .f32 :=
  subf
    (subf z
      (broadcastInDim S512x10 ![0, 1] bcast_S512x1_S512x10_0_1
        (broadcastInDim S512x1 ![0] bcast_S512_S512x1_0
          (maximumf (broadcastInDim S512 ![] bcast_S_S512 (constant (F := F) S_ .f32 0xFF800000#32))
            (Host.reduce FloatOps.maximumf z (constant (F := F) S_ .f32 0xFF800000#32) reducesTo_S512x10_S512_d1 h_S_)))))
    (broadcastInDim S512x10 ![0, 1] bcast_S512x1_S512x10_0_1
      (Host.log
        (broadcastInDim S512x1 ![0] bcast_S512_S512x1_0
          (Host.reduceAdd
            (Host.exp
              (subf z
      (broadcastInDim S512x10 ![0, 1] bcast_S512x1_S512x10_0_1
        (broadcastInDim S512x1 ![0] bcast_S512_S512x1_0
          (maximumf (broadcastInDim S512 ![] bcast_S_S512 (constant (F := F) S_ .f32 0xFF800000#32))
            (Host.reduce FloatOps.maximumf z (constant (F := F) S_ .f32 0xFF800000#32) reducesTo_S512x10_S512_d1 h_S_))))))
            (constant (F := F) S_ .f32 0x00000000#32) reducesTo_S512x10_S512_d1 h_S_))))

/-- The read-out: the per-graph mean, then two linear layers each followed by ELU, a third linear
    layer to the 10 classes, and the log-softmax of its rows. -/
def head (h : FVec F S50000x256 .f32) (batch : IVec S50000 32) (wm1 : FVec F S256x256 .f32) (bm1 : FVec F S256 .f32) (wm2 : FVec F S256x128 .f32) (bm2 : FVec F S128 .f32) (wm3 : FVec F S128x10 .f32) (bm3 : FVec F S10 .f32) : FVec F S512x10 .f32 :=
  logSoftmax (addf
    (Host.dotGeneral dot_S512x128_S128x10_S512x10_1_0_0_1_n_n none
      (eluG128 (addf
        (Host.dotGeneral dot_S512x256_S256x128_S512x128_1_0_0_1_n_n none
          (eluG256 (addf
            (Host.dotGeneral dot_S512x256_S256x256_S512x256_1_0_0_1_n_n none (pooled h batch) wm1)
            (broadcastInDim S512x256 ![0, 1] bcast_S1x256_S512x256_0_1 (broadcastInDim S1x256 ![1] bcast_S256_S1x256_1 bm1))))
          wm2)
        (broadcastInDim S512x128 ![0, 1] bcast_S1x128_S512x128_0_1 (broadcastInDim S1x128 ![1] bcast_S128_S1x128_1 bm2))))
      wm3)
    (broadcastInDim S512x10 ![0, 1] bcast_S1x10_S512x10_0_1 (broadcastInDim S1x10 ![1] bcast_S10_S1x10_1 bm3)))

/-- The reference program's output as a function of its eighteen arguments, in the program's order:
    the node features, the edge list, the graph ids, then each layer's weights and bias. -/
def refOut (x : FVec F S50000x128 .f32) (ei : IVec S2x800000 32) (batch : IVec S50000 32) (w1r : FVec F S128x128 .f32) (b1 : FVec F S128 .f32) (w1t : FVec F S128x128 .f32) (w2r : FVec F S128x256 .f32) (b2 : FVec F S256 .f32) (w2t : FVec F S128x256 .f32) (w3r : FVec F S256x256 .f32) (b3 : FVec F S256 .f32) (w3t : FVec F S256x256 .f32) (wm1 : FVec F S256x256 .f32) (bm1 : FVec F S256 .f32) (wm2 : FVec F S256x128 .f32) (bm2 : FVec F S128 .f32) (wm3 : FVec F S128x10 .f32) (bm3 : FVec F S10 .f32) : FVec F S512x10 .f32 :=
  let h1 := layer1 (agg128 x ei) x w1r b1 w1t
  let h2 := layer2 (agg128 h1 ei) h1 w2r b2 w2t
  let h3 := layer3 (agg256 h2 ei) h2 w3r b3 w3t
  head h3 batch wm1 bm1 wm2 bm2 wm3 bm3

end Cert.ReferenceIdeal.RefVal

end
-- ==== Proof.Net.lean ====
/-
  The whole network at the ideal values, as one function of the program's eighteen arguments.

  Three graph-convolution layers, each over the neighbour sum of the layer before it (the sum over every edge of the
  source node's row, collected at the destination node's row, taken as the host computes it), then the pooling head.
  Both programs are shown to compute this.
-/
import proofs.«431204_j57801669869757_2_alg».proof.Proof.RefVal
import proofs.«431204_j57801669869757_2_alg».proof.Proof.Math

noncomputable section

namespace Cert.Net

open Idealize.ShloMosaic Idealize.ShloMosaic.ValueIdx Cert.ReferenceIdeal

variable [Cert.ReferenceIdeal.Facts]

/-- The network's output: 512 rows of 10 log-probabilities. -/
def out (x : FVec Ideal S50000x128 .f32) (ei : IVec S2x800000 32) (batch : IVec S50000 32)
    (w1r : FVec Ideal S128x128 .f32) (b1 : FVec Ideal S128 .f32) (w1t : FVec Ideal S128x128 .f32)
    (w2r : FVec Ideal S128x256 .f32) (b2 : FVec Ideal S256 .f32) (w2t : FVec Ideal S128x256 .f32)
    (w3r : FVec Ideal S256x256 .f32) (b3 : FVec Ideal S256 .f32) (w3t : FVec Ideal S256x256 .f32)
    (wm1 : FVec Ideal S256x256 .f32) (bm1 : FVec Ideal S256 .f32) (wm2 : FVec Ideal S256x128 .f32) (bm2 : FVec Ideal S128 .f32)
    (wm3 : FVec Ideal S128x10 .f32) (bm3 : FVec Ideal S10 .f32) : Math.Mat 512 10 :=
  let h1 : Math.Mat 50000 128 := Math.conv (RefVal.agg128 (F := Ideal) x ei) x w1r (fun q => b1 (ix1 q)) w1t
  let h2 : Math.Mat 50000 256 := Math.conv (RefVal.agg128 (F := Ideal) h1 ei) h1 w2r (fun q => b2 (ix1 q)) w2t
  let h3 : Math.Mat 50000 256 := Math.conv (RefVal.agg256 (F := Ideal) h2 ei) h2 w3r (fun q => b3 (ix1 q)) w3t
  Math.head h3 (fun n => batch (ix1 n)) wm1 (fun q => bm1 (ix1 q)) wm2 (fun q => bm2 (ix1 q)) wm3 (fun q => bm3 (ix1 q))

end Cert.Net

end
-- ==== Proof.KNet.lean ====
/-
  The idealized kernel program computes the network.

  Its last kernel call leaves the head of the third layer's rows in the result array; the third layer's rows are what the
  third graph-convolution call left, a function of the second layer's rows and of their neighbour sum, which the host
  stretch before the call computed; and so on back to the arguments. The host computes each neighbour sum through a
  narrower float format and back, which changes nothing at the ideal values, and otherwise exactly as the reference does.
-/
import proofs.«431204_j57801669869757_2_alg».proof.Proof.KernelIdeal.Run
import proofs.«431204_j57801669869757_2_alg».proof.Proof.KernelIdeal.Val0
import proofs.«431204_j57801669869757_2_alg».proof.Proof.KernelIdeal.Val1
import proofs.«431204_j57801669869757_2_alg».proof.Proof.KernelIdeal.Val2
import proofs.«431204_j57801669869757_2_alg».proof.Proof.KernelIdeal.Val3
import proofs.«431204_j57801669869757_2_alg».proof.Proof.Net
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KNet

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Regs Cert.KernelIdeal.RegVal Cert.KernelIdeal.Run

/-! ## The host's operations, as functions

The kernel program's host stretches take the edges' source and destination nodes off the edge list once, and before
each graph-convolution call compute the neighbour sum of the rows that call is given: the rows rounded to the narrow
format, row (src e) read for every edge e, widened again, and collected at row (dst e) from zero. -/

section Chain
variable {F : FTy → Type} [FloatOps F]

/-- The edges' source nodes: row 0 of the edge list, as a vector. -/
def srcK (ei : IVec S2x800000 32) : IVec S800000 32 :=
  shapeCast S800000 (extractStridedSlice S1x800000 ![0, 0] ei slices_S2x800000_S1x800000_0_0) shapeCasts_S1x800000_S800000

/-- The edges' destination nodes: row 1 of the edge list, as a vector. -/
def dstK (ei : IVec S2x800000 32) : IVec S800000 32 :=
  shapeCast S800000 (extractStridedSlice S1x800000 ![1, 0] ei slices_S2x800000_S1x800000_1_0) shapeCasts_S1x800000_S800000

/-- A node index read the way array indexing reads it: 50000 is added to a negative one. -/
def wrapK (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32)))
      i)

/-- The neighbour sum at width 128 as the kernel program's host computes it, through the narrow format. -/
def aggK128 (h : FVec F S50000x128 .f32) (s d : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 d)
    (extf .f32 (Host.gather gather_S50000x128_S800000x1_S800000x128_1_0_n_n_0_1_1128 (truncf .bf16 h bitsLt_bf16_f32) (wrapK s)) bitsLt_bf16_f32)

/-- The neighbour sum at width 256 as the kernel program's host computes it. -/
def aggK256 (h : FVec F S50000x256 .f32) (s d : IVec S800000 32) : FVec F S50000x256 .f32 :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 d)
    (extf .f32 (Host.gather gather_S50000x256_S800000x1_S800000x256_1_0_n_n_0_1_1256 (truncf .bf16 h bitsLt_bf16_f32) (wrapK s)) bitsLt_bf16_f32)

end Chain

/-! ## What each host stretch leaves in the references it writes -/

section Stretch
variable {F : FTy → Type} [FloatOps F] (V : Valuation τ sig (Elt F))

theorem ops0_v1 : StableHlo.after (GenP.hostOps0 (F := F)) V (Proc.devRef .tc main_v1)
    = srcK (V (Proc.devRef .tc main_arg1)) := by
  after_results; rfl

theorem ops0_v3 : StableHlo.after (GenP.hostOps0 (F := F)) V (Proc.devRef .tc main_v3)
    = dstK (V (Proc.devRef .tc main_arg1)) := by
  after_results; rfl

theorem ops0_v15 : StableHlo.after (GenP.hostOps0 (F := F)) V (Proc.devRef .tc main_v15)
    = aggK128 (V (Proc.devRef .tc main_arg0)) (srcK (V (Proc.devRef .tc main_arg1))) (dstK (V (Proc.devRef .tc main_arg1))) := by
  after_results_simp; rfl

theorem ops0_v16 : StableHlo.after (GenP.hostOps0 (F := F)) V (Proc.devRef .tc main_v16)
    = shapeCast S1x128 (V (Proc.devRef .tc main_arg4)) shapeCasts_S128_S1x128 := by
  after_results; rfl

theorem ops1_v29 : StableHlo.after (GenP.hostOps1 (F := F)) V (Proc.devRef .tc main_v29)
    = aggK128 (V (Proc.devRef .tc main_v17)) (V (Proc.devRef .tc main_v1)) (V (Proc.devRef .tc main_v3)) := by
  after_results_simp; rfl

theorem ops1_v30 : StableHlo.after (GenP.hostOps1 (F := F)) V (Proc.devRef .tc main_v30)
    = shapeCast S1x256 (V (Proc.devRef .tc main_arg7)) shapeCasts_S256_S1x256 := by
  after_results; rfl

theorem ops2_v43 : StableHlo.after (GenP.hostOps2 (F := F)) V (Proc.devRef .tc main_v43)
    = aggK256 (V (Proc.devRef .tc main_v31)) (V (Proc.devRef .tc main_v1)) (V (Proc.devRef .tc main_v3)) := by
  after_results_simp; rfl

theorem ops2_v44 : StableHlo.after (GenP.hostOps2 (F := F)) V (Proc.devRef .tc main_v44)
    = shapeCast S1x256 (V (Proc.devRef .tc main_arg10)) shapeCasts_S256_S1x256 := by
  after_results; rfl

theorem ops3_v46 : StableHlo.after (GenP.hostOps3 (F := F)) V (Proc.devRef .tc main_v46)
    = shapeCast S50000x1 (V (Proc.devRef .tc main_arg2)) shapeCasts_S50000_S50000x1 := by
  after_results; rfl

theorem ops3_v47 : StableHlo.after (GenP.hostOps3 (F := F)) V (Proc.devRef .tc main_v47)
    = shapeCast S1x256 (V (Proc.devRef .tc main_arg13)) shapeCasts_S256_S1x256 := by
  after_results; rfl

theorem ops3_v48 : StableHlo.after (GenP.hostOps3 (F := F)) V (Proc.devRef .tc main_v48)
    = shapeCast S1x128 (V (Proc.devRef .tc main_arg15)) shapeCasts_S128_S1x128 := by
  after_results; rfl

theorem ops3_v49 : StableHlo.after (GenP.hostOps3 (F := F)) V (Proc.devRef .tc main_v49)
    = shapeCast S1x10 (V (Proc.devRef .tc main_arg17)) shapeCasts_S10_S1x10 := by
  after_results; rfl

end Stretch

/-! ## The neighbour sum at the ideal values

At the ideal values rounding to the narrow format and widening back change nothing, so the host's neighbour sum is the
reference's: the same gather and the same collecting sum, over the same records. -/

section Agg
variable [Cert.ReferenceIdeal.Facts]

theorem srcK_eq (ei : IVec S2x800000 32) : srcK ei = Cert.ReferenceIdeal.RefVal.src ei := rfl
theorem dstK_eq (ei : IVec S2x800000 32) : dstK ei = Cert.ReferenceIdeal.RefVal.dst ei := rfl
theorem wrapK_eq (i : IVec S800000 32) : wrapK i = Cert.ReferenceIdeal.RefVal.wrap i := rfl

/-- Through the narrow format and back, the gathered rows are the rows gathered. -/
theorem gather128_ideal (h : FVec Ideal S50000x128 .f32) (idx : IVec S800000x1 32) :
    extf (F := Ideal) .f32 (Host.gather gather_S50000x128_S800000x1_S800000x128_1_0_n_n_0_1_1128 (truncf (F := Ideal) .bf16 h bitsLt_bf16_f32) idx) bitsLt_bf16_f32
      = Host.gather Cert.ReferenceIdeal.gather_S50000x128_S800000x1_S800000x128_1_0_n_n_0_1_1128 h idx := rfl

theorem gather256_ideal (h : FVec Ideal S50000x256 .f32) (idx : IVec S800000x1 32) :
    extf (F := Ideal) .f32 (Host.gather gather_S50000x256_S800000x1_S800000x256_1_0_n_n_0_1_1256 (truncf (F := Ideal) .bf16 h bitsLt_bf16_f32) idx) bitsLt_bf16_f32
      = Host.gather Cert.ReferenceIdeal.gather_S50000x256_S800000x1_S800000x256_1_0_n_n_0_1_1256 h idx := rfl

theorem aggK128_ideal (h : FVec Ideal S50000x128 .f32) (ei : IVec S2x800000 32) :
    aggK128 (F := Ideal) h (srcK ei) (dstK ei) = Cert.ReferenceIdeal.RefVal.agg128 (F := Ideal) h ei := by
  unfold aggK128 Cert.ReferenceIdeal.RefVal.agg128
  rw [gather128_ideal, srcK_eq, dstK_eq, wrapK_eq]
  rfl

theorem aggK256_ideal (h : FVec Ideal S50000x256 .f32) (ei : IVec S2x800000 32) :
    aggK256 (F := Ideal) h (srcK ei) (dstK ei) = Cert.ReferenceIdeal.RefVal.agg256 (F := Ideal) h ei := by
  unfold aggK256 Cert.ReferenceIdeal.RefVal.agg256
  rw [gather256_ideal, srcK_eq, dstK_eq, wrapK_eq]
  rfl

end Agg

/-! ## A vector recast as a one-column array, read by coordinates -/

section Recast
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Recast

/-! ## A buffer no item has written holds what the launch gave it -/

section Keep
variable {F : FTy → Type} [FloatOps F] (m : (ℓ : Loc nD τ sig) → Buf (Elt F) ℓ) (c : Dev nD)

theorem W1_keep (b : Ref sig .tc) (h0 : b ∉ GenP.hostOps0_W) :
    W1 m c (Proc.devRef .tc b) = m ((c.tc : Thread nD τ).loc b) :=
  StableHlo.after_of_writes_sub GenP.hostOps0 _ GenP.hostOps0_writes h0

theorem W2_keep (b : Ref sig .tc) (h0 : b ∉ GenP.hostOps0_W) (a0 : ∀ w, Pipeline.arrRef spec0 w ≠ b) :
    W2 m c (Proc.devRef .tc b) = m ((c.tc : Thread nD τ).loc b) :=
  (W2_of_ne m c b a0).trans (W1_keep m c b h0)

theorem W3_keep (b : Ref sig .tc) (h0 : b ∉ GenP.hostOps0_W) (a0 : ∀ w, Pipeline.arrRef spec0 w ≠ b)
    (h1 : b ∉ GenP.hostOps1_W) :
    W3 m c (Proc.devRef .tc b) = m ((c.tc : Thread nD τ).loc b) :=
  (StableHlo.after_of_writes_sub GenP.hostOps1 _ GenP.hostOps1_writes h1).trans (W2_keep m c b h0 a0)

theorem W4_keep (b : Ref sig .tc) (h0 : b ∉ GenP.hostOps0_W) (a0 : ∀ w, Pipeline.arrRef spec0 w ≠ b)
    (h1 : b ∉ GenP.hostOps1_W) (a1 : ∀ w, Pipeline.arrRef spec1 w ≠ b) :
    W4 m c (Proc.devRef .tc b) = m ((c.tc : Thread nD τ).loc b) :=
  (W4_of_ne m c b a1).trans (W3_keep m c b h0 a0 h1)

theorem W5_keep (b : Ref sig .tc) (h0 : b ∉ GenP.hostOps0_W) (a0 : ∀ w, Pipeline.arrRef spec0 w ≠ b)
    (h1 : b ∉ GenP.hostOps1_W) (a1 : ∀ w, Pipeline.arrRef spec1 w ≠ b) (h2 : b ∉ GenP.hostOps2_W) :
    W5 m c (Proc.devRef .tc b) = m ((c.tc : Thread nD τ).loc b) :=
  (StableHlo.after_of_writes_sub GenP.hostOps2 _ GenP.hostOps2_writes h2).trans (W4_keep m c b h0 a0 h1 a1)

theorem W6_keep (b : Ref sig .tc) (h0 : b ∉ GenP.hostOps0_W) (a0 : ∀ w, Pipeline.arrRef spec0 w ≠ b)
    (h1 : b ∉ GenP.hostOps1_W) (a1 : ∀ w, Pipeline.arrRef spec1 w ≠ b) (h2 : b ∉ GenP.hostOps2_W)
    (a2 : ∀ w, Pipeline.arrRef spec2 w ≠ b) :
    W6 m c (Proc.devRef .tc b) = m ((c.tc : Thread nD τ).loc b) :=
  (W6_of_ne m c b a2).trans (W5_keep m c b h0 a0 h1 a1 h2)

theorem W7_keep (b : Ref sig .tc) (h0 : b ∉ GenP.hostOps0_W) (a0 : ∀ w, Pipeline.arrRef spec0 w ≠ b)
    (h1 : b ∉ GenP.hostOps1_W) (a1 : ∀ w, Pipeline.arrRef spec1 w ≠ b) (h2 : b ∉ GenP.hostOps2_W)
    (a2 : ∀ w, Pipeline.arrRef spec2 w ≠ b) (h3 : b ∉ GenP.hostOps3_W) :
    W7 m c (Proc.devRef .tc b) = m ((c.tc : Thread nD τ).loc b) :=
  (StableHlo.after_of_writes_sub GenP.hostOps3 _ GenP.hostOps3_writes h3).trans (W6_keep m c b h0 a0 h1 a1 h2 a2)

end Keep

/-! ## The layers, one kernel call at a time -/

section Layers
variable [Cert.ReferenceIdeal.Facts]
variable (m : (ℓ : Loc nD τ sig) → Buf (Elt Ideal) ℓ) (c : Dev nD)

open Cert.ReferenceIdeal (RefVal.agg128 RefVal.agg256)

/-- The first layer's rows, of the arguments. -/
def H1 : Math.Mat 50000 128 :=
  Math.conv (RefVal.agg128 (F := Ideal) (m ((c.tc : Thread nD τ).loc main_arg0)) (m ((c.tc : Thread nD τ).loc main_arg1)))
    (m ((c.tc : Thread nD τ).loc main_arg0)) (m ((c.tc : Thread nD τ).loc main_arg3))
    (fun q => m ((c.tc : Thread nD τ).loc main_arg4) (ix1 q)) (m ((c.tc : Thread nD τ).loc main_arg5))

/-- The second layer's rows. -/
def H2 : Math.Mat 50000 256 :=
  Math.conv (RefVal.agg128 (F := Ideal) (H1 m c) (m ((c.tc : Thread nD τ).loc main_arg1)))
    (H1 m c) (m ((c.tc : Thread nD τ).loc main_arg6))
    (fun q => m ((c.tc : Thread nD τ).loc main_arg7) (ix1 q)) (m ((c.tc : Thread nD τ).loc main_arg8))

/-- The third layer's rows. -/
def H3 : Math.Mat 50000 256 :=
  Math.conv (RefVal.agg256 (F := Ideal) (H2 m c) (m ((c.tc : Thread nD τ).loc main_arg1)))
    (H2 m c) (m ((c.tc : Thread nD τ).loc main_arg9))
    (fun q => m ((c.tc : Thread nD τ).loc main_arg10) (ix1 q)) (m ((c.tc : Thread nD τ).loc main_arg11))

/-! ### The first call -/

theorem U1_v15 : U1 m c main_v15
    = RefVal.agg128 (F := Ideal) (m ((c.tc : Thread nD τ).loc main_arg0)) (m ((c.tc : Thread nD τ).loc main_arg1)) := by
  show StableHlo.after GenP.hostOps0 (W0 m c) (Proc.devRef .tc main_v15) = _
  rw [ops0_v15]
  exact aggK128_ideal _ _

theorem U1_row16 : (fun q => (U1 m c main_v16 : Math.Mat 1 128) (ix2 0 q))
    = fun q => m ((c.tc : Thread nD τ).loc main_arg4) (ix1 q) := by
  funext q
  show StableHlo.after GenP.hostOps0 (W0 m c) (Proc.devRef .tc main_v16) (ix2 0 q) = _
  rw [ops0_v16]
  exact shapeCast_a_1a_apply _ _ 0 q

theorem arr0 : ((dat0 (F := Ideal) (U1 m) c).arrAt 5 cfg0.N : Math.Mat 50000 128) = H1 m c := by
  rw [arrAt0_5 (U1 m) c, U1_v15, U1_row16,
    show U1 m c main_arg0 = m ((c.tc : Thread nD τ).loc main_arg0) from W1_keep m c main_arg0 (by decide),
    show U1 m c main_arg3 = m ((c.tc : Thread nD τ).loc main_arg3) from W1_keep m c main_arg3 (by decide),
    show U1 m c main_arg5 = m ((c.tc : Thread nD τ).loc main_arg5) from W1_keep m c main_arg5 (by decide)]
  rfl

theorem W2_v17 : (W2 m c (Proc.devRef .tc main_v17) : Math.Mat 50000 128) = H1 m c :=
  (W2_arr m c 5).trans (arr0 m c)

theorem W2_v1 : W2 m c (Proc.devRef .tc main_v1) = srcK (m ((c.tc : Thread nD τ).loc main_arg1)) :=
  (W2_of_ne m c main_v1 (by decide)).trans (ops0_v1 (W0 m c))

theorem W2_v3 : W2 m c (Proc.devRef .tc main_v3) = dstK (m ((c.tc : Thread nD τ).loc main_arg1)) :=
  (W2_of_ne m c main_v3 (by decide)).trans (ops0_v3 (W0 m c))

/-! ### The second call -/

theorem U3_v17 : (U3 m c main_v17 : Math.Mat 50000 128) = H1 m c :=
  (StableHlo.after_of_writes_sub GenP.hostOps1 _ GenP.hostOps1_writes (by decide)).trans (W2_v17 m c)

theorem U3_v29 : U3 m c main_v29 = RefVal.agg128 (F := Ideal) (H1 m c) (m ((c.tc : Thread nD τ).loc main_arg1)) := by
  show StableHlo.after GenP.hostOps1 (W2 m c) (Proc.devRef .tc main_v29) = _
  rw [ops1_v29, W2_v17, W2_v1, W2_v3]
  exact aggK128_ideal _ _

theorem U3_row30 : (fun q => (U3 m c main_v30 : Math.Mat 1 256) (ix2 0 q))
    = fun q => m ((c.tc : Thread nD τ).loc main_arg7) (ix1 q) := by
  funext q
  show StableHlo.after GenP.hostOps1 (W2 m c) (Proc.devRef .tc main_v30) (ix2 0 q) = _
  rw [ops1_v30, W2_keep m c main_arg7 (by decide) (by decide)]
  exact shapeCast_a_1a_apply _ _ 0 q

theorem arr1 : ((dat1 (F := Ideal) (U3 m) c).arrAt 5 cfg1.N : Math.Mat 50000 256) = H2 m c := by
  rw [arrAt1_5 (U3 m) c, U3_v29, U3_v17, U3_row30,
    show U3 m c main_arg6 = m ((c.tc : Thread nD τ).loc main_arg6) from W3_keep m c main_arg6 (by decide) (by decide) (by decide),
    show U3 m c main_arg8 = m ((c.tc : Thread nD τ).loc main_arg8) from W3_keep m c main_arg8 (by decide) (by decide) (by decide)]
  rfl

theorem W4_v31 : (W4 m c (Proc.devRef .tc main_v31) : Math.Mat 50000 256) = H2 m c :=
  (W4_arr m c 5).trans (arr1 m c)

theorem W4_v1 : W4 m c (Proc.devRef .tc main_v1) = srcK (m ((c.tc : Thread nD τ).loc main_arg1)) :=
  (W4_of_ne m c main_v1 (by decide)).trans
    ((StableHlo.after_of_writes_sub GenP.hostOps1 _ GenP.hostOps1_writes (by decide)).trans (W2_v1 m c))

theorem W4_v3 : W4 m c (Proc.devRef .tc main_v3) = dstK (m ((c.tc : Thread nD τ).loc main_arg1)) :=
  (W4_of_ne m c main_v3 (by decide)).trans
    ((StableHlo.after_of_writes_sub GenP.hostOps1 _ GenP.hostOps1_writes (by decide)).trans (W2_v3 m c))

/-! ### The third call -/

theorem U5_v31 : (U5 m c main_v31 : Math.Mat 50000 256) = H2 m c :=
  (StableHlo.after_of_writes_sub GenP.hostOps2 _ GenP.hostOps2_writes (by decide)).trans (W4_v31 m c)

theorem U5_v43 : U5 m c main_v43 = RefVal.agg256 (F := Ideal) (H2 m c) (m ((c.tc : Thread nD τ).loc main_arg1)) := by
  show StableHlo.after GenP.hostOps2 (W4 m c) (Proc.devRef .tc main_v43) = _
  rw [ops2_v43, W4_v31, W4_v1, W4_v3]
  exact aggK256_ideal _ _

theorem U5_row44 : (fun q => (U5 m c main_v44 : Math.Mat 1 256) (ix2 0 q))
    = fun q => m ((c.tc : Thread nD τ).loc main_arg10) (ix1 q) := by
  funext q
  show StableHlo.after GenP.hostOps2 (W4 m c) (Proc.devRef .tc main_v44) (ix2 0 q) = _
  rw [ops2_v44, W4_keep m c main_arg10 (by decide) (by decide) (by decide) (by decide)]
  exact shapeCast_a_1a_apply _ _ 0 q

theorem arr2 : ((dat2 (F := Ideal) (U5 m) c).arrAt 5 cfg2.N : Math.Mat 50000 256) = H3 m c := by
  rw [arrAt2_5 (U5 m) c, U5_v43, U5_v31, U5_row44,
    show U5 m c main_arg9 = m ((c.tc : Thread nD τ).loc main_arg9) from W5_keep m c main_arg9 (by decide) (by decide) (by decide) (by decide) (by decide),
    show U5 m c main_arg11 = m ((c.tc : Thread nD τ).loc main_arg11) from W5_keep m c main_arg11 (by decide) (by decide) (by decide) (by decide) (by decide)]
  rfl

theorem W6_v45 : (W6 m c (Proc.devRef .tc main_v45) : Math.Mat 50000 256) = H3 m c :=
  (W6_arr m c 5).trans (arr2 m c)

/-! ### The last call -/

theorem U7_v45 : (U7 m c main_v45 : Math.Mat 50000 256) = H3 m c :=
  (StableHlo.after_of_writes_sub GenP.hostOps3 _ GenP.hostOps3_writes (by decide)).trans (W6_v45 m c)

theorem U7_ids46 : (fun n => (U7 m c main_v46 : (⟨2, ![50000, 1]⟩ : Shape).Idx → BitVec 32) (ix2 n 0))
    = fun n => m ((c.tc : Thread nD τ).loc main_arg2) (ix1 n) := by
  funext n
  show StableHlo.after GenP.hostOps3 (W6 m c) (Proc.devRef .tc main_v46) (ix2 n 0) = _
  rw [ops3_v46, W6_keep m c main_arg2 (by decide) (by decide) (by decide) (by decide) (by decide) (by decide)]
  exact shapeCast_a_a1_apply _ _ n 0

theorem U7_row47 : (fun q => (U7 m c main_v47 : Math.Mat 1 256) (ix2 0 q))
    = fun q => m ((c.tc : Thread nD τ).loc main_arg13) (ix1 q) := by
  funext q
  show StableHlo.after GenP.hostOps3 (W6 m c) (Proc.devRef .tc main_v47) (ix2 0 q) = _
  rw [ops3_v47, W6_keep m c main_arg13 (by decide) (by decide) (by decide) (by decide) (by decide) (by decide)]
  exact shapeCast_a_1a_apply _ _ 0 q

theorem U7_row48 : (fun q => (U7 m c main_v48 : Math.Mat 1 128) (ix2 0 q))
    = fun q => m ((c.tc : Thread nD τ).loc main_arg15) (ix1 q) := by
  funext q
  show StableHlo.after GenP.hostOps3 (W6 m c) (Proc.devRef .tc main_v48) (ix2 0 q) = _
  rw [ops3_v48, W6_keep m c main_arg15 (by decide) (by decide) (by decide) (by decide) (by decide) (by decide)]
  exact shapeCast_a_1a_apply _ _ 0 q

theorem U7_row49 : (fun q => (U7 m c main_v49 : Math.Mat 1 10) (ix2 0 q))
    = fun q => m ((c.tc : Thread nD τ).loc main_arg17) (ix1 q) := by
  funext q
  show StableHlo.after GenP.hostOps3 (W6 m c) (Proc.devRef .tc main_v49) (ix2 0 q) = _
  rw [ops3_v49, W6_keep m c main_arg17 (by decide) (by decide) (by decide) (by decide) (by decide) (by decide)]
  exact shapeCast_a_1a_apply _ _ 0 q

theorem arr3 : ((dat3 (F := Ideal) (U7 m) c).arrAt 8 cfg3.N : Math.Mat 512 10)
    = Math.head (H3 m c) (fun n => m ((c.tc : Thread nD τ).loc main_arg2) (ix1 n))
        (m ((c.tc : Thread nD τ).loc main_arg12)) (fun q => m ((c.tc : Thread nD τ).loc main_arg13) (ix1 q))
        (m ((c.tc : Thread nD τ).loc main_arg14)) (fun q => m ((c.tc : Thread nD τ).loc main_arg15) (ix1 q))
        (m ((c.tc : Thread nD τ).loc main_arg16)) (fun q => m ((c.tc : Thread nD τ).loc main_arg17) (ix1 q)) := by
  rw [arrAt3_8 (U7 m) c, U7_v45, U7_ids46, U7_row47, U7_row48, U7_row49,
    show U7 m c main_arg12 = m ((c.tc : Thread nD τ).loc main_arg12) from W7_keep m c main_arg12 (by decide) (by decide) (by decide) (by decide) (by decide) (by decide) (by decide),
    show U7 m c main_arg14 = m ((c.tc : Thread nD τ).loc main_arg14) from W7_keep m c main_arg14 (by decide) (by decide) (by decide) (by decide) (by decide) (by decide) (by decide),
    show U7 m c main_arg16 = m ((c.tc : Thread nD τ).loc main_arg16) from W7_keep m c main_arg16 (by decide) (by decide) (by decide) (by decide) (by decide) (by decide) (by decide)]

end Layers

/-! ## The result -/

variable [Cert.ReferenceIdeal.Facts]

variable (m : (ℓ : Loc nD τ sig) → Buf (Elt Ideal) ℓ)

/-- After the run the result array holds the network's output of the arguments the program was launched with. -/
theorem kernel_out (c : Dev nD) :
    (W8 (F := Ideal) m c (Proc.devRef .tc main_v50) : Math.Mat 512 10)
      = Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine ((W8_arr m c 8).trans (arr3 m c)).trans ?_
  rfl

end Cert.KNet

end
-- ==== Proof.RefRun.lean ====
/- The reference program's run, read back: @main is a straight line of 179 host operations once its
   calls are unfolded at their sites; every weakly fair execution of it terminates with the result
   buffer at the value RefVal.refOut of the eighteen arguments' launch contents, the arguments unchanged.
   The line is cut where the computation's stages end (the three graph convolutions, the pooling with
   the first dense layer, the two last dense layers with the log-softmax); each stretch is read back on
   its own from an arbitrary memory, and the stretches are composed. -/
import proofs.«431204_j57801669869757_2_alg».proof.Proof.RefVal
import Idealize.ShloMosaic.Lib.StableHlo.Run
import Idealize.ShloMosaic.Lib.Pipeline.Regions
import Idealize.ShloMosaic.Lib.Pipeline.Frame

noncomputable section

namespace Cert.ReferenceIdeal.Value

open Cert.ReferenceIdeal Idealize.ShloMosaic Idealize.ShloMosaic.TcCoe Idealize.SL.Sem Idealize.ShloMosaic.StableHlo
open Facts₀ Facts

variable {F : FTy → Type} [FloatOps F] [Facts]

/-- The first graph convolution: the edge list's two rows, the wrapped source indices, the gather and scatter-add of the neighbour sum, the two products and the bias, and ELU (its fifteen operations at the call's own buffers): 38 operations. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v13 main_arg3 main_v14 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v15 (broadcastInDim S1x128 ![1] bcast_S128_S1x128_1 : (⟨S128, .f32⟩ : BufTy).Contents (Elt F) → (⟨S1x128, .f32⟩ : BufTy).Contents (Elt F)),
    unary main_v15 main_v16 (broadcastInDim S50000x128 ![0, 1] bcast_S1x128_S50000x128_0_1 : (⟨S1x128, .f32⟩ : BufTy).Contents (Elt F) → (⟨S50000x128, .f32⟩ : BufTy).Contents (Elt F)),
    binary main_v14 main_v16 main_v17 (addf : (⟨S50000x128, .f32⟩ : BufTy).Contents (Elt F) → (⟨S50000x128, .f32⟩ : BufTy).Contents (Elt F) → (⟨S50000x128, .f32⟩ : BufTy).Contents (Elt F)),
    binary main_arg0 main_arg5 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v17 main_v18 main_v19 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v19 : TRef sig ⟨S50000x128, .f32⟩) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (.of main_v19 : TRef sig ⟨S50000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (.of main_v19 : TRef sig ⟨S50000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (.of main_v19 : TRef sig ⟨S50000x128, .f32⟩) main_call0.v7 main_call0.call1.v0 select ]

/-- The second graph convolution, on the first's result: 34 operations. -/
abbrev opsB : List (HloOp τ sig (Elt F)) :=
  [ nullary main_c_1 (constantI S_ 32 0#32),
    unary main_c_1 main_v21 (broadcastInDim S800000 ![] bcast_S_S800000 : (⟨S_, .i32⟩ : BufTy).Contents (Elt F) → (⟨S800000, .i32⟩ : BufTy).Contents (Elt F)),
    binary main_v1 main_v21 main_v22 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v23 (broadcastInDim S800000 ![] bcast_S_S800000 : (⟨S_, .i32⟩ : BufTy).Contents (Elt F) → (⟨S800000, .i32⟩ : BufTy).Contents (Elt F)),
    binary main_v1 main_v23 main_v24 (addi : (⟨S800000, .i32⟩ : BufTy).Contents (Elt F) → (⟨S800000, .i32⟩ : BufTy).Contents (Elt F) → (⟨S800000, .i32⟩ : BufTy).Contents (Elt F)),
    ternary main_v22 main_v24 main_v1 main_v25 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v25 main_v26 (broadcastInDim S800000x1 ![0] bcast_S800000_S800000x1_0 : (⟨S800000, .i32⟩ : BufTy).Contents (Elt F) → (⟨S800000x1, .i32⟩ : BufTy).Contents (Elt F)),
    binary main_v20 main_v26 main_v27 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_3 (constant S_ .f32 0x00000000#32),
    unary main_cst_3 main_v28 (broadcastInDim S50000x128 ![] bcast_S_S50000x128 : (⟨S_, .f32⟩ : BufTy).Contents (Elt F) → (⟨S50000x128, .f32⟩ : BufTy).Contents (Elt F)),
    unary main_v3 main_v29 (broadcastInDim S800000x1 ![0] bcast_S800000_S800000x1_0 : (⟨S800000, .i32⟩ : BufTy).Contents (Elt F) → (⟨S800000x1, .i32⟩ : BufTy).Contents (Elt F)),
    ternary main_v28 main_v29 main_v27 main_v30 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v30 main_arg6 main_v31 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg7 main_v32 (broadcastInDim S1x256 ![1] bcast_S256_S1x256_1 : (⟨S256, .f32⟩ : BufTy).Contents (Elt F) → (⟨S1x256, .f32⟩ : BufTy).Contents (Elt F)),
    unary main_v32 main_v33 (broadcastInDim S50000x256 ![0, 1] bcast_S1x256_S50000x256_0_1 : (⟨S1x256, .f32⟩ : BufTy).Contents (Elt F) → (⟨S50000x256, .f32⟩ : BufTy).Contents (Elt F)),
    binary main_v31 main_v33 main_v34 (addf : (⟨S50000x256, .f32⟩ : BufTy).Contents (Elt F) → (⟨S50000x256, .f32⟩ : BufTy).Contents (Elt F) → (⟨S50000x256, .f32⟩ : BufTy).Contents (Elt F)),
    binary main_v20 main_arg8 main_v35 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v34 main_v35 main_v36 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v36 : TRef sig ⟨S50000x256, .f32⟩) main_call1.v0 main_call1.v1 (cmpf .ogt),
    TRef.nullary main_call1.cst_0 (constant S_ .f32 0x00000000#32),
    TRef.unary main_call1.cst_0 main_call1.v2 (broadcastInDim S50000x256 ![] bcast_S_S50000x256),
    TRef.binary (.of main_v36 : TRef sig ⟨S50000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x256 ![] bcast_S_S50000x256),
    TRef.ternary main_call1.v3 main_call1.call0.v1 (.of main_v36 : TRef sig ⟨S50000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x256 ![] bcast_S_S50000x256),
    TRef.binary main_call1.v6 main_call1.v5 main_call1.v7 mulf,
    TRef.ternary main_call1.v1 (.of main_v36 : TRef sig ⟨S50000x256, .f32⟩) main_call1.v7 main_call1.call1.v0 select ]

/-- The third graph convolution up to the bias broadcast (the neighbour sum and its product): 16 operations. -/
abbrev opsC1 : List (HloOp τ sig (Elt F)) :=
  [ nullary main_c_4 (constantI S_ 32 0#32),
    unary main_c_4 main_v38 (broadcastInDim S800000 ![] bcast_S_S800000 : (⟨S_, .i32⟩ : BufTy).Contents (Elt F) → (⟨S800000, .i32⟩ : BufTy).Contents (Elt F)),
    binary main_v1 main_v38 main_v39 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v40 (broadcastInDim S800000 ![] bcast_S_S800000 : (⟨S_, .i32⟩ : BufTy).Contents (Elt F) → (⟨S800000, .i32⟩ : BufTy).Contents (Elt F)),
    binary main_v1 main_v40 main_v41 (addi : (⟨S800000, .i32⟩ : BufTy).Contents (Elt F) → (⟨S800000, .i32⟩ : BufTy).Contents (Elt F) → (⟨S800000, .i32⟩ : BufTy).Contents (Elt F)),
    ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v42 main_v43 (broadcastInDim S800000x1 ![0] bcast_S800000_S800000x1_0 : (⟨S800000, .i32⟩ : BufTy).Contents (Elt F) → (⟨S800000x1, .i32⟩ : BufTy).Contents (Elt F)),
    binary main_v37 main_v43 main_v44 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_6 (constant S_ .f32 0x00000000#32),
    unary main_cst_6 main_v45 (broadcastInDim S50000x256 ![] bcast_S_S50000x256 : (⟨S_, .f32⟩ : BufTy).Contents (Elt F) → (⟨S50000x256, .f32⟩ : BufTy).Contents (Elt F)),
    unary main_v3 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v47 main_arg9 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg10 main_v49 (broadcastInDim S1x256 ![1] bcast_S256_S1x256_1 : (⟨S256, .f32⟩ : BufTy).Contents (Elt F) → (⟨S1x256, .f32⟩ : BufTy).Contents (Elt F)),
    unary main_v49 main_v50 (broadcastInDim S50000x256 ![0, 1] bcast_S1x256_S50000x256_0_1 : (⟨S1x256, .f32⟩ : BufTy).Contents (Elt F) → (⟨S50000x256, .f32⟩ : BufTy).Contents (Elt F)) ]

/-- The rest of the third graph convolution: the two sums, the root product, ELU: 18 operations. -/
abbrev opsC2 : List (HloOp τ sig (Elt F)) :=
  [ binary main_v48 main_v50 main_v51 (addf : (⟨S50000x256, .f32⟩ : BufTy).Contents (Elt F) → (⟨S50000x256, .f32⟩ : BufTy).Contents (Elt F) → (⟨S50000x256, .f32⟩ : BufTy).Contents (Elt F)),
    binary main_v37 main_arg11 main_v52 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v51 main_v52 main_v53 (addf : (⟨S50000x256, .f32⟩ : BufTy).Contents (Elt F) → (⟨S50000x256, .f32⟩ : BufTy).Contents (Elt F) → (⟨S50000x256, .f32⟩ : BufTy).Contents (Elt F)),
    TRef.nullary main_call2.cst (constant S_ .f32 0x00000000#32),
    TRef.unary main_call2.cst main_call2.v0 (broadcastInDim S50000x256 ![] bcast_S_S50000x256),
    TRef.binary (.of main_v53 : TRef sig ⟨S50000x256, .f32⟩) main_call2.v0 main_call2.v1 (cmpf .ogt),
    TRef.nullary main_call2.cst_0 (constant S_ .f32 0x00000000#32),
    TRef.unary main_call2.cst_0 main_call2.v2 (broadcastInDim S50000x256 ![] bcast_S_S50000x256),
    TRef.binary (.of main_v53 : TRef sig ⟨S50000x256, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x256 ![] bcast_S_S50000x256),
    TRef.ternary main_call2.v3 main_call2.call0.v1 (.of main_v53 : TRef sig ⟨S50000x256, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S50000x256 ![] bcast_S_S50000x256),
    TRef.binary main_call2.v6 main_call2.v5 main_call2.v7 mulf,
    TRef.ternary main_call2.v1 (.of main_v53 : TRef sig ⟨S50000x256, .f32⟩) main_call2.v7 main_call2.call1.v0 select ]

/-- The mean over each graph (two scatter-adds, the maximum with one, the division) and the first dense layer with its ELU: 35 operations. -/
abbrev opsE : List (HloOp τ sig (Elt F)) :=
  [ nullary main_cst_7 (constant S_ .f32 0x00000000#32),
    unary main_cst_7 main_v55 (broadcastInDim S512x256 ![] bcast_S_S512x256 : (⟨S_, .f32⟩ : BufTy).Contents (Elt F) → (⟨S512x256, .f32⟩ : BufTy).Contents (Elt F)),
    unary main_arg2 main_v56 (broadcastInDim S50000x1 ![0] bcast_S50000_S50000x1_0 : (⟨S50000, .i32⟩ : BufTy).Contents (Elt F) → (⟨S50000x1, .i32⟩ : BufTy).Contents (Elt F)),
    ternary main_v55 main_v56 main_v54 main_v57 ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)),
    nullary main_cst_8 (constant S_ .f32 0x3F800000#32),
    unary main_cst_8 main_v58 (broadcastInDim S50000 ![] bcast_S_S50000 : (⟨S_, .f32⟩ : BufTy).Contents (Elt F) → (⟨S50000, .f32⟩ : BufTy).Contents (Elt F)),
    nullary main_cst_9 (constant S_ .f32 0x00000000#32),
    unary main_cst_9 main_v59 (broadcastInDim S512 ![] bcast_S_S512 : (⟨S_, .f32⟩ : BufTy).Contents (Elt F) → (⟨S512, .f32⟩ : BufTy).Contents (Elt F)),
    unary main_arg2 main_v60 (broadcastInDim S50000x1 ![0] bcast_S50000_S50000x1_0 : (⟨S50000, .i32⟩ : BufTy).Contents (Elt F) → (⟨S50000x1, .i32⟩ : BufTy).Contents (Elt F)),
    ternary main_v59 main_v60 main_v58 main_v61 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_10 (constant S_ .f32 0x3F800000#32),
    unary main_cst_10 main_v62 (broadcastInDim S512 ![] bcast_S_S512 : (⟨S_, .f32⟩ : BufTy).Contents (Elt F) → (⟨S512, .f32⟩ : BufTy).Contents (Elt F)),
    binary main_v61 main_v62 main_v63 (maximumf : (⟨S512, .f32⟩ : BufTy).Contents (Elt F) → (⟨S512, .f32⟩ : BufTy).Contents (Elt F) → (⟨S512, .f32⟩ : BufTy).Contents (Elt F)),
    unary main_v63 main_v64 (broadcastInDim S512x1 ![0] bcast_S512_S512x1_0 : (⟨S512, .f32⟩ : BufTy).Contents (Elt F) → (⟨S512x1, .f32⟩ : BufTy).Contents (Elt F)),
    unary main_v64 main_v65 (broadcastInDim S512x256 ![0, 1] bcast_S512x1_S512x256_0_1 : (⟨S512x1, .f32⟩ : BufTy).Contents (Elt F) → (⟨S512x256, .f32⟩ : BufTy).Contents (Elt F)),
    binary main_v57 main_v65 main_v66 (Host.divf : (⟨S512x256, .f32⟩ : BufTy).Contents (Elt F) → (⟨S512x256, .f32⟩ : BufTy).Contents (Elt F) → (⟨S512x256, .f32⟩ : BufTy).Contents (Elt F)),
    binary main_v66 main_arg12 main_v67 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    unary main_arg13 main_v68 (broadcastInDim S1x256 ![1] bcast_S256_S1x256_1 : (⟨S256, .f32⟩ : BufTy).Contents (Elt F) → (⟨S1x256, .f32⟩ : BufTy).Contents (Elt F)),
    unary main_v68 main_v69 (broadcastInDim S512x256 ![0, 1] bcast_S1x256_S512x256_0_1 : (⟨S1x256, .f32⟩ : BufTy).Contents (Elt F) → (⟨S512x256, .f32⟩ : BufTy).Contents (Elt F)),
    binary main_v67 main_v69 main_v70 (addf : (⟨S512x256, .f32⟩ : BufTy).Contents (Elt F) → (⟨S512x256, .f32⟩ : BufTy).Contents (Elt F) → (⟨S512x256, .f32⟩ : BufTy).Contents (Elt F)),
    TRef.nullary main_call3.cst (constant S_ .f32 0x00000000#32),
    TRef.unary main_call3.cst main_call3.v0 (broadcastInDim S512x256 ![] bcast_S_S512x256),
    TRef.binary (.of main_v70 : TRef sig ⟨S512x256, .f32⟩) main_call3.v0 main_call3.v1 (cmpf .ogt),
    TRef.nullary main_call3.cst_0 (constant S_ .f32 0x00000000#32),
    TRef.unary main_call3.cst_0 main_call3.v2 (broadcastInDim S512x256 ![] bcast_S_S512x256),
    TRef.binary (.of main_v70 : TRef sig ⟨S512x256, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S512x256 ![] bcast_S_S512x256),
    TRef.ternary main_call3.v3 main_call3.call0.v1 (.of main_v70 : TRef sig ⟨S512x256, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S512x256 ![] bcast_S_S512x256),
    TRef.binary main_call3.v6 main_call3.v5 main_call3.v7 mulf,
    TRef.ternary main_call3.v1 (.of main_v70 : TRef sig ⟨S512x256, .f32⟩) main_call3.v7 main_call3.call1.v0 select ]

/-- The second dense layer with its ELU, the third, and the row-wise log-softmax: 38 operations. -/
abbrev opsG : List (HloOp τ sig (Elt F)) :=
  [ binary main_v71 main_arg14 main_v72 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    unary main_arg15 main_v73 (broadcastInDim S1x128 ![1] bcast_S128_S1x128_1 : (⟨S128, .f32⟩ : BufTy).Contents (Elt F) → (⟨S1x128, .f32⟩ : BufTy).Contents (Elt F)),
    unary main_v73 main_v74 (broadcastInDim S512x128 ![0, 1] bcast_S1x128_S512x128_0_1 : (⟨S1x128, .f32⟩ : BufTy).Contents (Elt F) → (⟨S512x128, .f32⟩ : BufTy).Contents (Elt F)),
    binary main_v72 main_v74 main_v75 (addf : (⟨S512x128, .f32⟩ : BufTy).Contents (Elt F) → (⟨S512x128, .f32⟩ : BufTy).Contents (Elt F) → (⟨S512x128, .f32⟩ : BufTy).Contents (Elt F)),
    TRef.nullary main_call4.cst (constant S_ .f32 0x00000000#32),
    TRef.unary main_call4.cst main_call4.v0 (broadcastInDim S512x128 ![] bcast_S_S512x128),
    TRef.binary (.of main_v75 : TRef sig ⟨S512x128, .f32⟩) main_call4.v0 main_call4.v1 (cmpf .ogt),
    TRef.nullary main_call4.cst_0 (constant S_ .f32 0x00000000#32),
    TRef.unary main_call4.cst_0 main_call4.v2 (broadcastInDim S512x128 ![] bcast_S_S512x128),
    TRef.binary (.of main_v75 : TRef sig ⟨S512x128, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S512x128 ![] bcast_S_S512x128),
    TRef.ternary main_call4.v3 main_call4.call0.v1 (.of main_v75 : TRef sig ⟨S512x128, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S512x128 ![] bcast_S_S512x128),
    TRef.binary main_call4.v6 main_call4.v5 main_call4.v7 mulf,
    TRef.ternary main_call4.v1 (.of main_v75 : TRef sig ⟨S512x128, .f32⟩) main_call4.v7 main_call4.call1.v0 select,
    binary main_v76 main_arg16 main_v77 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    unary main_arg17 main_v78 (broadcastInDim S1x10 ![1] bcast_S10_S1x10_1 : (⟨S10, .f32⟩ : BufTy).Contents (Elt F) → (⟨S1x10, .f32⟩ : BufTy).Contents (Elt F)),
    unary main_v78 main_v79 (broadcastInDim S512x10 ![0, 1] bcast_S1x10_S512x10_0_1 : (⟨S1x10, .f32⟩ : BufTy).Contents (Elt F) → (⟨S512x10, .f32⟩ : BufTy).Contents (Elt F)),
    binary main_v77 main_v79 main_v80 (addf : (⟨S512x10, .f32⟩ : BufTy).Contents (Elt F) → (⟨S512x10, .f32⟩ : BufTy).Contents (Elt F) → (⟨S512x10, .f32⟩ : BufTy).Contents (Elt F)),
    TRef.nullary main_call5.cst (constant S_ .f32 0xFF800000#32),
    TRef.binary (.of main_v80 : TRef sig ⟨S512x10, .f32⟩) main_call5.cst main_call5.v0 (fun x v => Host.reduce FloatOps.maximumf x v reducesTo_S512x10_S512_d1 h_S_),
    TRef.nullary main_call5.cst_0 (constant S_ .f32 0xFF800000#32),
    TRef.unary main_call5.cst_0 main_call5.v1 (broadcastInDim S512 ![] bcast_S_S512),
    TRef.binary main_call5.v1 main_call5.v0 main_call5.v2 maximumf,
    TRef.unary main_call5.v2 main_call5.v3 (broadcastInDim S512x1 ![0] bcast_S512_S512x1_0),
    TRef.unary main_call5.v3 main_call5.v4 (broadcastInDim S512x10 ![0, 1] bcast_S512x1_S512x10_0_1),
    TRef.binary (.of main_v80 : TRef sig ⟨S512x10, .f32⟩) main_call5.v4 main_call5.v5 subf,
    TRef.unary main_call5.v5 main_call5.v6 Host.exp,
    TRef.nullary main_call5.cst_1 (constant S_ .f32 0x00000000#32),
    TRef.binary main_call5.v6 main_call5.cst_1 main_call5.v7 (fun x v => Host.reduceAdd x v reducesTo_S512x10_S512_d1 h_S_),
    TRef.unary main_call5.v7 main_call5.v8 (broadcastInDim S512x1 ![0] bcast_S512_S512x1_0),
    TRef.unary main_call5.v8 main_call5.v9 Host.log,
    TRef.unary main_call5.v9 main_call5.v10 (broadcastInDim S512x10 ![0, 1] bcast_S512x1_S512x10_0_1),
    TRef.binary main_call5.v5 main_call5.v10 main_call5.v11 subf ]

/-- @main's 179 operations, in order. -/
abbrev ops : List (HloOp τ sig (Elt F)) := opsA ++ (opsB ++ (opsC1 ++ (opsC2 ++ (opsE ++ opsG))))

/-- @main is that straight line: its two windows in sequence, each function's body unfolded at its call and
    each call's record at its fields; sequencing re-associates by computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- A reference among a list is, as a device buffer, among the list's device buffers. -/
theorem writes_sub_of_mem {wl : List (Ref sig .tc)} {y : Ref sig .tc} (hy : y ∈ wl) :
    ({Proc.devRef .tc y} : Finset (DevRef τ sig)) ⊆ (wl.map (Proc.devRef (τ := τ) .tc)).toFinset :=
  Finset.singleton_subset_iff.mpr (List.mem_toFinset.mpr (List.mem_map.mpr ⟨y, hy, rfl⟩))

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

/-- The buffers stretch A writes, one per operation, in order. -/
abbrev wA : List (Ref sig .tc) :=
  [ main_v0, main_v1, main_v2, main_v3, main_c, main_v4, main_v5, main_c_0,
    main_v6, main_v7, main_v8, main_v9, main_v10, main_cst, main_v11, main_v12,
    main_v13, main_v14, main_v15, main_v16, main_v17, main_v18, main_v19, main_call0.cst.ref,
    main_call0.v0.ref, main_call0.v1.ref, main_call0.cst_0.ref, main_call0.v2.ref, main_call0.v3.ref, main_call0.cst_1.ref, main_call0.call0.v0.ref, main_call0.call0.v1.ref,
    main_call0.call0.v2.ref, main_call0.v5.ref, main_call0.cst_2.ref, main_call0.v6.ref, main_call0.v7.ref, main_call0.call1.v0.ref ]

theorem opsA_writes : (opsA : List (HloOp τ sig (Elt F))).Forall fun op => op.writes ⊆ ((wA).map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide)⟩

/-- A buffer stretch A does not write keeps its contents through it. -/
theorem A_frame (W : Valuation τ sig (Elt F)) {r : Ref sig .tc} (hr : r ∉ wA) :
    after opsA W (r : DevRef τ sig) = W (r : DevRef τ sig) :=
  after_of_writes_sub opsA W opsA_writes hr

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

/-- The buffers stretch B writes, one per operation, in order. -/
abbrev wB : List (Ref sig .tc) :=
  [ main_c_1, main_v21, main_v22, main_c_2, main_v23, main_v24, main_v25, main_v26,
    main_v27, main_cst_3, main_v28, main_v29, main_v30, main_v31, main_v32, main_v33,
    main_v34, main_v35, main_v36, main_call1.cst.ref, main_call1.v0.ref, main_call1.v1.ref, main_call1.cst_0.ref, main_call1.v2.ref,
    main_call1.v3.ref, main_call1.cst_1.ref, main_call1.call0.v0.ref, main_call1.call0.v1.ref, main_call1.call0.v2.ref, main_call1.v5.ref, main_call1.cst_2.ref, main_call1.v6.ref,
    main_call1.v7.ref, main_call1.call1.v0.ref ]

theorem opsB_writes : (opsB : List (HloOp τ sig (Elt F))).Forall fun op => op.writes ⊆ ((wB).map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide)⟩

/-- A buffer stretch B does not write keeps its contents through it. -/
theorem B_frame (W : Valuation τ sig (Elt F)) {r : Ref sig .tc} (hr : r ∉ wB) :
    after opsB W (r : DevRef τ sig) = W (r : DevRef τ sig) :=
  after_of_writes_sub opsB W opsB_writes hr

theorem opsC1_sub : (opsC1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., unary_bufs_sub .., unary_bufs_sub ..⟩

theorem opsC1_fresh : (opsC1 : List (HloOp τ sig (Elt F))).Forall fun op => op.fresh = ∅ :=
  ⟨rfl, rfl, rfl, rfl, rfl, rfl, rfl, rfl, rfl, rfl, rfl, rfl, rfl, rfl, rfl, rfl⟩

/-- The buffers stretch C1 writes, one per operation, in order. -/
abbrev wC1 : List (Ref sig .tc) :=
  [ main_c_4, main_v38, main_v39, main_c_5, main_v40, main_v41, main_v42, main_v43,
    main_v44, main_cst_6, main_v45, main_v46, main_v47, main_v48, main_v49, main_v50 ]

theorem opsC1_writes : (opsC1 : List (HloOp τ sig (Elt F))).Forall fun op => op.writes ⊆ ((wC1).map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

/-- A buffer stretch C1 does not write keeps its contents through it. -/
theorem C1_frame (W : Valuation τ sig (Elt F)) {r : Ref sig .tc} (hr : r ∉ wC1) :
    after opsC1 W (r : DevRef τ sig) = W (r : DevRef τ sig) :=
  after_of_writes_sub opsC1 W opsC1_writes hr

theorem opsC2_sub : (opsC2 : List (HloOp τ sig (Elt F))).Forall fun op => op.bufs ⊆ tcRefs τ sig :=
  ⟨binary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem opsC2_fresh : (opsC2 : List (HloOp τ sig (Elt F))).Forall fun op => op.fresh = ∅ :=
  ⟨rfl, rfl, rfl, rfl, rfl, rfl, rfl, rfl, rfl, rfl, rfl, rfl, rfl, rfl, rfl, rfl, rfl, rfl⟩

/-- The buffers stretch C2 writes, one per operation, in order. -/
abbrev wC2 : List (Ref sig .tc) :=
  [ main_v51, main_v52, main_v53, main_call2.cst.ref, main_call2.v0.ref, main_call2.v1.ref, main_call2.cst_0.ref, main_call2.v2.ref,
    main_call2.v3.ref, main_call2.cst_1.ref, main_call2.call0.v0.ref, main_call2.call0.v1.ref, main_call2.call0.v2.ref, main_call2.v5.ref, main_call2.cst_2.ref, main_call2.v6.ref,
    main_call2.v7.ref, main_call2.call1.v0.ref ]

theorem opsC2_writes : (opsC2 : List (HloOp τ sig (Elt F))).Forall fun op => op.writes ⊆ ((wC2).map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide)⟩

/-- A buffer stretch C2 does not write keeps its contents through it. -/
theorem C2_frame (W : Valuation τ sig (Elt F)) {r : Ref sig .tc} (hr : r ∉ wC2) :
    after opsC2 W (r : DevRef τ sig) = W (r : DevRef τ sig) :=
  after_of_writes_sub opsC2 W opsC2_writes hr

theorem opsE_sub : (opsE : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub ..⟩

theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

/-- The buffers stretch E writes, one per operation, in order. -/
abbrev wE : List (Ref sig .tc) :=
  [ main_cst_7, main_v55, main_v56, main_v57, main_cst_8, main_v58, main_cst_9, main_v59,
    main_v60, main_v61, main_cst_10, main_v62, main_v63, main_v64, main_v65, main_v66,
    main_v67, main_v68, main_v69, main_v70, main_call3.cst.ref, main_call3.v0.ref, main_call3.v1.ref, main_call3.cst_0.ref,
    main_call3.v2.ref, main_call3.v3.ref, main_call3.cst_1.ref, main_call3.call0.v0.ref, main_call3.call0.v1.ref, main_call3.call0.v2.ref, main_call3.v5.ref, main_call3.cst_2.ref,
    main_call3.v6.ref, main_call3.v7.ref, main_call3.call1.v0.ref ]

theorem opsE_writes : (opsE : List (HloOp τ sig (Elt F))).Forall fun op => op.writes ⊆ ((wE).map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

/-- A buffer stretch E does not write keeps its contents through it. -/
theorem E_frame (W : Valuation τ sig (Elt F)) {r : Ref sig .tc} (hr : r ∉ wE) :
    after opsE W (r : DevRef τ sig) = W (r : DevRef τ sig) :=
  after_of_writes_sub opsE W opsE_writes hr

theorem opsG_sub : (opsG : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub ..⟩

theorem opsG_fresh : (opsG : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

/-- The buffers stretch G writes, one per operation, in order. -/
abbrev wG : List (Ref sig .tc) :=
  [ main_v72, main_v73, main_v74, main_v75, main_call4.cst.ref, main_call4.v0.ref, main_call4.v1.ref, main_call4.cst_0.ref,
    main_call4.v2.ref, main_call4.v3.ref, main_call4.cst_1.ref, main_call4.call0.v0.ref, main_call4.call0.v1.ref, main_call4.call0.v2.ref, main_call4.v5.ref, main_call4.cst_2.ref,
    main_call4.v6.ref, main_call4.v7.ref, main_call4.call1.v0.ref, main_v77, main_v78, main_v79, main_v80, main_call5.cst.ref,
    main_call5.v0.ref, main_call5.cst_0.ref, main_call5.v1.ref, main_call5.v2.ref, main_call5.v3.ref, main_call5.v4.ref, main_call5.v5.ref, main_call5.v6.ref,
    main_call5.cst_1.ref, main_call5.v7.ref, main_call5.v8.ref, main_call5.v9.ref, main_call5.v10.ref, main_call5.v11.ref ]

theorem opsG_writes : (opsG : List (HloOp τ sig (Elt F))).Forall fun op => op.writes ⊆ ((wG).map (Proc.devRef (τ := τ) .tc)).toFinset :=
  ⟨writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide)⟩

/-- A buffer stretch G does not write keeps its contents through it. -/
theorem G_frame (W : Valuation τ sig (Elt F)) {r : Ref sig .tc} (hr : r ∉ wG) :
    after opsG W (r : DevRef τ sig) = W (r : DevRef τ sig) :=
  after_of_writes_sub opsG W opsG_writes hr

theorem ops_sub : (ops : List (HloOp τ sig (Elt F))).Forall fun op => op.bufs ⊆ tcRefs τ sig :=
  List.forall_append.mpr ⟨opsA_sub, List.forall_append.mpr ⟨opsB_sub, List.forall_append.mpr ⟨opsC1_sub,
    List.forall_append.mpr ⟨opsC2_sub, List.forall_append.mpr ⟨opsE_sub, opsG_sub⟩⟩⟩⟩⟩

theorem ops_fresh : ∀ op ∈ (ops : List (HloOp τ sig (Elt F))), op.fresh = ∅ :=
  List.forall_iff_forall_mem.mp (List.forall_append.mpr ⟨opsA_fresh, List.forall_append.mpr ⟨opsB_fresh,
    List.forall_append.mpr ⟨opsC1_fresh, List.forall_append.mpr ⟨opsC2_fresh, List.forall_append.mpr ⟨opsE_fresh, opsG_fresh⟩⟩⟩⟩⟩)

/-- The neighbour sum at width 128 from the source and destination vectors themselves: RefVal.agg128 is this at the
    edge list's two rows. -/
def aggOf128 (h : FVec F S50000x128 .f32) (s d : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 d)
    (Host.gather gather_S50000x128_S800000x1_S800000x128_1_0_n_n_0_1_1128 h (RefVal.wrap s))

/-- The neighbour sum at width 256 from the source and destination vectors themselves: RefVal.agg256 is this at the
    edge list's two rows. -/
def aggOf256 (h : FVec F S50000x256 .f32) (s d : IVec S800000 32) : FVec F S50000x256 .f32 :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 d)
    (Host.gather gather_S50000x256_S800000x1_S800000x256_1_0_n_n_0_1_1256 h (RefVal.wrap s))

/-- After the first stretch the source vector is row 0 of the edge list. -/
theorem A_v1 (W : Valuation τ sig (Elt F)) :
    after opsA W (main_v1 : DevRef τ sig)
      = RefVal.src (W (main_arg1 : DevRef τ sig)) := by
  after_results_simp <;> (try simp only [TRef.ofBuf, TRef.toBuf, cast_eq]) <;> rfl

/-- After the first stretch the destination vector is row 1 of the edge list. -/
theorem A_v3 (W : Valuation τ sig (Elt F)) :
    after opsA W (main_v3 : DevRef τ sig)
      = RefVal.dst (W (main_arg1 : DevRef τ sig)) := by
  after_results_simp <;> (try simp only [TRef.ofBuf, TRef.toBuf, cast_eq]) <;> rfl

/-- The first stretch leaves the first graph convolution of the features. -/
theorem A_v20 (W : Valuation τ sig (Elt F)) :
    after opsA W (main_v20 : DevRef τ sig)
      = RefVal.layer1 (RefVal.agg128 (W (main_arg0 : DevRef τ sig)) (W (main_arg1 : DevRef τ sig))) (W (main_arg0 : DevRef τ sig)) (W (main_arg3 : DevRef τ sig)) (W (main_arg4 : DevRef τ sig)) (W (main_arg5 : DevRef τ sig)) := by
  after_results_simp <;> (try simp only [TRef.ofBuf, TRef.toBuf, cast_eq]) <;> rfl

/-- The second stretch leaves the second graph convolution of what the first left. -/
theorem B_v37 (W : Valuation τ sig (Elt F)) :
    after opsB W (main_v37 : DevRef τ sig)
      = RefVal.layer2 (aggOf128 (W (main_v20 : DevRef τ sig)) (W (main_v1 : DevRef τ sig)) (W (main_v3 : DevRef τ sig))) (W (main_v20 : DevRef τ sig)) (W (main_arg6 : DevRef τ sig)) (W (main_arg7 : DevRef τ sig)) (W (main_arg8 : DevRef τ sig)) := by
  after_results_simp <;> (try simp only [TRef.ofBuf, TRef.toBuf, cast_eq]) <;> rfl

/-- The third stretch leaves the neighbour sum's product with the relation weights, -/
theorem C1_v48 (W : Valuation τ sig (Elt F)) :
    after opsC1 W (main_v48 : DevRef τ sig)
      = Host.dotGeneral dot_S50000x256_S256x256_S50000x256_1_0_0_1_n_n none (aggOf256 (W (main_v37 : DevRef τ sig)) (W (main_v1 : DevRef τ sig)) (W (main_v3 : DevRef τ sig))) (W (main_arg9 : DevRef τ sig)) := by
  after_results_simp <;> (try simp only [TRef.ofBuf, TRef.toBuf, cast_eq]) <;> rfl

/-- and the bias broadcast along the rows. -/
theorem C1_v50 (W : Valuation τ sig (Elt F)) :
    after opsC1 W (main_v50 : DevRef τ sig)
      = broadcastInDim S50000x256 ![0, 1] bcast_S1x256_S50000x256_0_1 (broadcastInDim S1x256 ![1] bcast_S256_S1x256_1 (W (main_arg10 : DevRef τ sig))) := by
  after_results_simp <;> (try simp only [TRef.ofBuf, TRef.toBuf, cast_eq]) <;> rfl

/-- The fourth stretch sums them with the root product and applies ELU. -/
theorem C2_v54 (W : Valuation τ sig (Elt F)) :
    after opsC2 W (main_v54 : DevRef τ sig)
      = RefVal.elu256 (addf (addf (W (main_v48 : DevRef τ sig)) (W (main_v50 : DevRef τ sig))) (Host.dotGeneral dot_S50000x256_S256x256_S50000x256_1_0_0_1_n_n none (W (main_v37 : DevRef τ sig)) (W (main_arg11 : DevRef τ sig)))) := by
  after_results_simp <;> (try simp only [TRef.ofBuf, TRef.toBuf, cast_eq]) <;> rfl

/-- The fifth stretch leaves the first dense layer of the per-graph mean. -/
theorem E_v71 (W : Valuation τ sig (Elt F)) :
    after opsE W (main_v71 : DevRef τ sig)
      = RefVal.eluG256 (addf (Host.dotGeneral dot_S512x256_S256x256_S512x256_1_0_0_1_n_n none (RefVal.pooled (W (main_v54 : DevRef τ sig)) (W (main_arg2 : DevRef τ sig))) (W (main_arg12 : DevRef τ sig))) (broadcastInDim S512x256 ![0, 1] bcast_S1x256_S512x256_0_1 (broadcastInDim S1x256 ![1] bcast_S256_S1x256_1 (W (main_arg13 : DevRef τ sig))))) := by
  after_results_simp <;> (try simp only [TRef.ofBuf, TRef.toBuf, cast_eq]) <;> rfl

/-- The last stretch leaves the log-softmax of the third dense layer of the second. -/
theorem G_v81 (W : Valuation τ sig (Elt F)) :
    after opsG W (main_v81 : DevRef τ sig)
      = RefVal.logSoftmax (addf (Host.dotGeneral dot_S512x128_S128x10_S512x10_1_0_0_1_n_n none (RefVal.eluG128 (addf (Host.dotGeneral dot_S512x256_S256x128_S512x128_1_0_0_1_n_n none (W (main_v71 : DevRef τ sig)) (W (main_arg14 : DevRef τ sig))) (broadcastInDim S512x128 ![0, 1] bcast_S1x128_S512x128_0_1 (broadcastInDim S1x128 ![1] bcast_S128_S1x128_1 (W (main_arg15 : DevRef τ sig)))))) (W (main_arg16 : DevRef τ sig))) (broadcastInDim S512x10 ![0, 1] bcast_S1x10_S512x10_0_1 (broadcastInDim S1x10 ![1] bcast_S10_S1x10_1 (W (main_arg17 : DevRef τ sig))))) := by
  after_results_simp <;> (try simp only [TRef.ofBuf, TRef.toBuf, cast_eq]) <;> rfl

/-- The whole line leaves the result buffer at RefVal.refOut of the arguments: the stretches' readings composed, last
    stretch first, each buffer a stretch reads taken from the stretch that wrote it or carried unchanged; what is left
    is RefVal.refOut with its definitions unfolded. -/
theorem out_eq (V : Valuation τ sig (Elt F)) :
    after ops V (main_v81 : DevRef τ sig)
      = RefVal.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  simp only [ops, StableHlo.after_append]
  rw [G_v81,
    E_v71,
    E_frame _ (r := main_arg14) (by decide),
    E_frame _ (r := main_arg15) (by decide),
    E_frame _ (r := main_arg16) (by decide),
    E_frame _ (r := main_arg17) (by decide),
    C2_v54,
    C2_frame _ (r := main_arg2) (by decide),
    C2_frame _ (r := main_arg12) (by decide),
    C2_frame _ (r := main_arg13) (by decide),
    C2_frame _ (r := main_arg14) (by decide),
    C2_frame _ (r := main_arg15) (by decide),
    C2_frame _ (r := main_arg16) (by decide),
    C2_frame _ (r := main_arg17) (by decide),
    C1_v48,
    C1_v50,
    C1_frame _ (r := main_v37) (by decide),
    C1_frame _ (r := main_arg11) (by decide),
    C1_frame _ (r := main_arg2) (by decide),
    C1_frame _ (r := main_arg12) (by decide),
    C1_frame _ (r := main_arg13) (by decide),
    C1_frame _ (r := main_arg14) (by decide),
    C1_frame _ (r := main_arg15) (by decide),
    C1_frame _ (r := main_arg16) (by decide),
    C1_frame _ (r := main_arg17) (by decide),
    B_v37,
    B_frame _ (r := main_v1) (by decide),
    B_frame _ (r := main_v3) (by decide),
    B_frame _ (r := main_arg9) (by decide),
    B_frame _ (r := main_arg10) (by decide),
    B_frame _ (r := main_arg11) (by decide),
    B_frame _ (r := main_arg2) (by decide),
    B_frame _ (r := main_arg12) (by decide),
    B_frame _ (r := main_arg13) (by decide),
    B_frame _ (r := main_arg14) (by decide),
    B_frame _ (r := main_arg15) (by decide),
    B_frame _ (r := main_arg16) (by decide),
    B_frame _ (r := main_arg17) (by decide),
    A_v20,
    A_v1,
    A_v3,
    A_frame _ (r := main_arg6) (by decide),
    A_frame _ (r := main_arg7) (by decide),
    A_frame _ (r := main_arg8) (by decide),
    A_frame _ (r := main_arg9) (by decide),
    A_frame _ (r := main_arg10) (by decide),
    A_frame _ (r := main_arg11) (by decide),
    A_frame _ (r := main_arg2) (by decide),
    A_frame _ (r := main_arg12) (by decide),
    A_frame _ (r := main_arg13) (by decide),
    A_frame _ (r := main_arg14) (by decide),
    A_frame _ (r := main_arg15) (by decide),
    A_frame _ (r := main_arg16) (by decide),
    A_frame _ (r := main_arg17) (by decide)]
  rfl

/-- A buffer no stretch writes keeps its contents through the whole line. -/
theorem arg_eq (V : Valuation τ sig (Elt F)) {r : Ref sig .tc} (hA : r ∉ wA) (hB : r ∉ wB) (hC1 : r ∉ wC1) (hC2 : r ∉ wC2)
    (hE : r ∉ wE) (hG : r ∉ wG) : after ops V (r : DevRef τ sig) = V (r : DevRef τ sig) := by
  simp only [ops, StableHlo.after_append]
  rw [G_frame _ hG, E_frame _ hE, C2_frame _ hC2, C1_frame _ hC1, B_frame _ hB, A_frame _ hA]

/-- On every device, for any float values, from any memory with zero counters: every weakly fair execution of
    @main terminates with the result at RefVal.refOut of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v81) = RefVal.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_v81).trans (out_eq _),
      (h c main_arg0).trans (arg_eq _ (by decide) (by decide) (by decide) (by decide) (by decide) (by decide)),
      (h c main_arg1).trans (arg_eq _ (by decide) (by decide) (by decide) (by decide) (by decide) (by decide)),
      (h c main_arg2).trans (arg_eq _ (by decide) (by decide) (by decide) (by decide) (by decide) (by decide)),
      (h c main_arg3).trans (arg_eq _ (by decide) (by decide) (by decide) (by decide) (by decide) (by decide)),
      (h c main_arg4).trans (arg_eq _ (by decide) (by decide) (by decide) (by decide) (by decide) (by decide)),
      (h c main_arg5).trans (arg_eq _ (by decide) (by decide) (by decide) (by decide) (by decide) (by decide)),
      (h c main_arg6).trans (arg_eq _ (by decide) (by decide) (by decide) (by decide) (by decide) (by decide)),
      (h c main_arg7).trans (arg_eq _ (by decide) (by decide) (by decide) (by decide) (by decide) (by decide)),
      (h c main_arg8).trans (arg_eq _ (by decide) (by decide) (by decide) (by decide) (by decide) (by decide)),
      (h c main_arg9).trans (arg_eq _ (by decide) (by decide) (by decide) (by decide) (by decide) (by decide)),
      (h c main_arg10).trans (arg_eq _ (by decide) (by decide) (by decide) (by decide) (by decide) (by decide)),
      (h c main_arg11).trans (arg_eq _ (by decide) (by decide) (by decide) (by decide) (by decide) (by decide)),
      (h c main_arg12).trans (arg_eq _ (by decide) (by decide) (by decide) (by decide) (by decide) (by decide)),
      (h c main_arg13).trans (arg_eq _ (by decide) (by decide) (by decide) (by decide) (by decide) (by decide)),
      (h c main_arg14).trans (arg_eq _ (by decide) (by decide) (by decide) (by decide) (by decide) (by decide)),
      (h c main_arg15).trans (arg_eq _ (by decide) (by decide) (by decide) (by decide) (by decide) (by decide)),
      (h c main_arg16).trans (arg_eq _ (by decide) (by decide) (by decide) (by decide) (by decide) (by decide)),
      (h c main_arg17).trans (arg_eq _ (by decide) (by decide) (by decide) (by decide) (by decide) (by decide))⟩)
    (run_seq scopedRefs_eq scopedSems_eq defs main (fun _ => ops) main_eq (fun _ => ops_sub) m ρ (fun _ => ops_fresh))

end Cert.ReferenceIdeal.Value

end
-- ==== Proof.RefNet.lean ====
/-
  The reference program computes the network.

  Each of its layers is the layer's function entry by entry: a host product read at an entry is the sum over the
  contracted coordinate, the bias is broadcast along the rows, and its elu (through exp(x) - 1 of the non-positive part)
  is the same function of an extended real as the one written with a plain exponential. Its pooling adds each node's
  row into the row its graph id names and drops a row whose id names no graph: the per-graph sums and counts. Its head
  and log-softmax are the same dense layers and the same row maximum and row sum.
-/
import proofs.«431204_j57801669869757_2_alg».proof.Proof.Net
import proofs.«431204_j57801669869757_2_alg».proof.Proof.LibMatmul
import Idealize.ShloMosaic.Lib.Pipeline.Value
import Idealize.ShloMosaic.Lib.ValueIdx
import Idealize.ShloMosaic.Lib.ValueLayout
import Idealize.ShloMosaic.Lib.StackMember
import Idealize.ShloMosaic.Lib.StableHlo.Predicate
import Idealize.ShloMosaic.PureOps.Ideal.Laws

set_option maxRecDepth 16384

noncomputable section

namespace Cert.RefNet

open Idealize.ShloMosaic Idealize.ShloMosaic.ValueIdx Cert.ReferenceIdeal

/-! ## Entries of the host operations, for any sizes -/

section General
variable {α : Type}

/-- A scalar broadcast to every entry of an array is the scalar. -/
theorem splat_apply {t : Shape} (h : (⟨0, ![]⟩ : Shape).BroadcastsInDim t (![] : Fin 0 → Fin t.rank))
    (x : (⟨0, ![]⟩ : Shape).Idx → α) (j : t.Idx) : broadcastInDim t (no_index ![]) h x j = x ix0 :=
  broadcastInDim_apply _ h x j ix0 fun a => a.elim0

/-- A vector laid along the columns of a one-row matrix. -/
theorem row_apply {N : Nat} (h : (⟨1, ![N]⟩ : Shape).BroadcastsInDim ⟨2, ![1, N]⟩ (![1] : Fin 1 → Fin 2))
    (b : (⟨1, ![N]⟩ : Shape).Idx → α) (z : Fin 1) (q : Fin N) :
    broadcastInDim ⟨2, ![1, N]⟩ (no_index ![1]) h b (ix2 z q) = b (ix1 q) := by
  refine broadcastInDim_apply _ h b _ (ix1 q) fun a => ?_
  match a with
  | ⟨0, _⟩ =>
    show q.val = if N = 1 then 0 else q.val
    split
    · have := q.isLt; omega
    · rfl

/-- A one-row matrix repeated along the rows. -/
theorem rows_apply {M N : Nat} (h : (⟨2, ![1, N]⟩ : Shape).BroadcastsInDim ⟨2, ![M, N]⟩ (![0, 1] : Fin 2 → Fin 2))
    (v : (⟨2, ![1, N]⟩ : Shape).Idx → α) (p : Fin M) (q : Fin N) :
    broadcastInDim ⟨2, ![M, N]⟩ (no_index ![0, 1]) h v (ix2 p q) = v (ix2 0 q) := by
  refine broadcastInDim_apply _ h v _ (ix2 0 q) fun a => ?_
  match a with
  | ⟨0, _⟩ => rfl
  | ⟨1, _⟩ =>
    show q.val = if N = 1 then 0 else q.val
    split
    · have := q.isLt; omega
    · rfl

end General

/-! ## The reference's elu -/

/-- The word of 1.0 is the number 1. -/
theorem one_eq : Math.one = 1 := IdealRules.sign_bit.ideal_onePat .f32

/-- The reference's elu of one extended real — y where y > 0, else 1 · (exp y' - 1) with y' the non-positive part of y —
    is the network's: where y is not positive y' is y, and where it is the exponential is not used. -/
theorem elu_scalar (y : EReal) :
    Scalar.select (Ideal.cmp .ogt y Math.zero) y
        (Math.one * (Ideal.exp (Scalar.select (Ideal.cmp .ogt y Math.zero) Math.zero y) - 1))
      = Math.elu y := by
  unfold Math.elu
  by_cases hc : Ideal.cmp .ogt y Math.zero = 1#1
  · rw [hc, select_one, select_one]
  · rw [eq_zero_of_ne_one hc, select_zero, select_zero, select_zero, one_eq]

/-- The reference's elu of an array, entry by entry, at any shape. -/
theorem elu_apply {s : Shape} (h : (⟨0, ![]⟩ : Shape).BroadcastsInDim s (![] : Fin 0 → Fin s.rank)) (x : FVec Ideal s .f32)
    (i : s.Idx) :
    select (cmpf .ogt x (broadcastInDim s ![] h (constant (F := Ideal) ⟨0, ![]⟩ .f32 0x00000000#32))) x
      (mulf (broadcastInDim s ![] h (constant (F := Ideal) ⟨0, ![]⟩ .f32 0x3F800000#32))
        (Host.expm1 (select (cmpf .ogt x (broadcastInDim s ![] h (constant (F := Ideal) ⟨0, ![]⟩ .f32 0x00000000#32)))
          (broadcastInDim s ![] h (id (constant (F := Ideal) ⟨0, ![]⟩ .f32 0x00000000#32))) x))) i
      = Math.elu (x i) := by
  rw [← elu_scalar]
  simp only [select_apply, cmpf_apply, mulf_apply, splat_apply, constant_apply, id, Host.expm1, Ideal.hostUnary_expm1_def,
    Ideal.cmpf_def]

/-! ## Dense layers -/

/-- A host product of an M × K by a K × N matrix at entry (p, q): the sum over the contracted coordinate. -/
theorem dot_apply {M K N : Nat} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) (p : Fin M) (q : Fin N) :
    Host.dotGeneral d none A B (ix2 p q) = ∑ k : Fin K, A (ix2 p k) * B (ix2 k q) := by
  subst hd; exact StackMember.dotGeneral_plain_apply none A B p q

/-- A bias vector broadcast along the rows, at entry (p, q). -/
theorem bias_apply {M N : Nat} (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : FVec Ideal ⟨1, ![N]⟩ .f32) (p : Fin M) (q : Fin N) :
    broadcastInDim ⟨2, ![M, N]⟩ ![0, 1] h2 (broadcastInDim ⟨2, ![1, N]⟩ ![1] h1 b) (ix2 p q) = b (ix1 q) := by
  rw [rows_apply, row_apply]

/-- x · W + b at entry (p, q). -/
theorem dense_apply {M K N : Nat} (d : DotDims ⟨2, ![M, K]⟩ ⟨2, ![K, N]⟩ ⟨2, ![M, N]⟩) (hd : d = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨1, ![N]⟩ .f32) (p : Fin M) (q : Fin N) :
    addf (Host.dotGeneral d none x w) (broadcastInDim ⟨2, ![M, N]⟩ ![0, 1] h2 (broadcastInDim ⟨2, ![1, N]⟩ ![1] h1 b)) (ix2 p q)
      = (∑ k : Fin K, x (ix2 p k) * w (ix2 k q)) + b (ix1 q) := by
  rw [addf_apply, dot_apply d hd, bias_apply]

/-- agg · W_rel + b + h · W_root at entry (p, q). -/
theorem conv_apply {M K N : Nat} (d : DotDims ⟨2, ![M, K]⟩ ⟨2, ![K, N]⟩ ⟨2, ![M, N]⟩) (hd : d = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (agg h : FVec Ideal ⟨2, ![M, K]⟩ .f32) (wrel wroot : FVec Ideal ⟨2, ![K, N]⟩ .f32) (b : FVec Ideal ⟨1, ![N]⟩ .f32)
    (p : Fin M) (q : Fin N) :
    addf (addf (Host.dotGeneral d none agg wrel)
        (broadcastInDim ⟨2, ![M, N]⟩ ![0, 1] h2 (broadcastInDim ⟨2, ![1, N]⟩ ![1] h1 b)))
      (Host.dotGeneral d none h wroot) (ix2 p q)
      = (∑ k : Fin K, agg (ix2 p k) * wrel (ix2 k q)) + b (ix1 q) + ∑ k : Fin K, h (ix2 p k) * wroot (ix2 k q) := by
  rw [addf_apply, dense_apply d hd, dot_apply d hd]

/-- A graph-convolution layer of the network at entry (p, q). -/
theorem conv_ix2 {N Fi Fo : Nat} (agg h : Math.Mat N Fi) (wrel : Math.Mat Fi Fo) (b : Fin Fo → EReal) (wroot : Math.Mat Fi Fo)
    (p : Fin N) (q : Fin Fo) :
    Math.conv agg h wrel b wroot (ix2 p q)
      = Math.elu ((∑ k : Fin Fi, agg (ix2 p k) * wrel (ix2 k q)) + b q + ∑ k : Fin Fi, h (ix2 p k) * wroot (ix2 k q)) := rfl

/-! ## Scatter-add by a column of ids -/

section Scatter

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) : ∑ i, f i = ∑ a : Fin n, f (ix1 a) := by
  rw [← Equiv.sum_comp (idxEquiv1 (n := n)).symm f]; rfl

/-- An update lands at the operand index i exactly when, on every axis, its start plus its window coordinate is i's
    coordinate there. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have e := congrArg (fun f : s.Idx => (f a).val) (Option.some.inj h)
      simp only at e
      have := (hh a).1
      omega
    · exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    have := h a
    show (d.start j idx a + d.window j a).toNat = (i a).val
    omega

/-- A 32-bit word read signed is the number g < 2^31 exactly when it is g's word. -/
theorem toInt_eq_iff (w : BitVec 32) (g : Nat) (hg : g < 2 ^ 31) : w.toInt = (g : Int) ↔ w = BitVec.ofNat 32 g := by
  rw [← StableHlo.Predicate.toInt_ofNat_small g hg, BitVec.toInt_inj]

variable {G N D : Nat}

/-- The dimension numbers of "add row n of an N × D update into row id(n) of a G × D operand", the ids an N × 1 column. -/
abbrev rowsDims (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ := ⟨[1], [0], [0], 1, wf⟩

/-- The dimension numbers of "add entry n of a length-N update into entry id(n) of a length-G operand". -/
abbrev colDims (wf : ScatterDims.WF ⟨1, ![G]⟩ ⟨2, ![N, 1]⟩ ⟨1, ![N]⟩ [] [0] [0] 1) :
    ScatterDims ⟨1, ![G]⟩ ⟨2, ![N, 1]⟩ ⟨1, ![N]⟩ := ⟨[], [0], [0], 1, wf⟩

/-- The id of the update at (n, b) is read at (n, 0). -/
theorem rows_siIdx (wf : ScatterDims.WF ⟨2, ![G, D]⟩ ⟨2, ![N, 1]⟩ ⟨2, ![N, D]⟩ [1] [0] [0] 1) (n : Fin N) (b : Fin D) :
    (rowsDims wf).siIdx (ix2 n b) ⟨0, Nat.one_pos⟩ = ix2 n 0 := by
  funext a
  match a with
  | ⟨0, _⟩ => rfl
  | ⟨1, _⟩ => rfl

/-- The update at (n, b) lands at (g, c) exactly when row n's id is g's word and b is c: the id is read signed and not
    clamped, and a number in [0, G) with G ≤ 2^31 is the signed value of one word only. -/
theorem rows_resultIdx (hG : G ≤ 2 ^ 31) (wf : ScatterDims.WF ⟨2, ![G, D]⟩ ⟨2, ![N, 1]⟩ ⟨2, ![N, D]⟩ [1] [0] [0] 1)
    (idx : IVec ⟨2, ![N, 1]⟩ 32) (n : Fin N) (b : Fin D) (g : Fin G) (c : Fin D) :
    (rowsDims wf).resultIdx? (ix2 n b) idx = some (ix2 g c) ↔ idx (ix2 n 0) = BitVec.ofNat 32 g.val ∧ b = c := by
  refine (resultIdx?_eq_some_iff _ _ _ _).trans (Fin.forall_fin_two.trans ?_)
  have s0 : (rowsDims wf).start (ix2 n b) idx 0 = (idx (ix2 n 0)).toInt := by
    show (idx ((rowsDims wf).siIdx (ix2 n b) ⟨0, Nat.one_pos⟩)).toInt = _
    rw [rows_siIdx]
  have s1 : (rowsDims wf).start (ix2 n b) idx 1 = 0 := rfl
  have w0 : (rowsDims wf).window (ix2 n b) 0 = 0 := rfl
  have w1 : (rowsDims wf).window (ix2 n b) 1 = b.val := rfl
  rw [s0, s1, w0, w1, ← toInt_eq_iff _ _ (by have := g.isLt; omega), Fin.ext_iff]
  show _ + ((0 : Nat) : Int) = (g.val : Int) ∧ (0 : Int) + (b.val : Int) = (c.val : Int) ↔ _
  constructor <;> rintro ⟨h0, h1⟩ <;> exact ⟨by omega, by omega⟩

/-- The scatter-add of rows at entry (g, c): the operand's entry plus the entries (n, c) of the rows n whose id is g's word. -/
theorem scatter_rows_apply (hG : G ≤ 2 ^ 31) (wf : ScatterDims.WF ⟨2, ![G, D]⟩ ⟨2, ![N, 1]⟩ ⟨2, ![N, D]⟩ [1] [0] [0] 1)
    (x : FVec Ideal ⟨2, ![G, D]⟩ .f32) (idx : IVec ⟨2, ![N, 1]⟩ 32) (upd : FVec Ideal ⟨2, ![N, D]⟩ .f32) (g : Fin G) (c : Fin D) :
    Host.scatterAdd (rowsDims wf) x idx upd (ix2 g c)
      = x (ix2 g c) + ∑ n : Fin N, if idx (ix2 n 0) = BitVec.ofNat 32 g.val then upd (ix2 n c) else 0 := by
  show Ideal.hostScatterAdd _ x idx upd (ix2 g c) = _
  unfold Ideal.hostScatterAdd
  rw [Finset.sum_filter, sum_idx2]
  congr 1
  refine Finset.sum_congr rfl fun n _ => ?_
  simp only [rows_resultIdx hG]
  by_cases hn : idx (ix2 n 0) = BitVec.ofNat 32 g.val
  · simp [hn]
  · simp [hn]

/-- The id of the update at n is read at (n, 0). -/
theorem col_siIdx (wf : ScatterDims.WF ⟨1, ![G]⟩ ⟨2, ![N, 1]⟩ ⟨1, ![N]⟩ [] [0] [0] 1) (n : Fin N) :
    (colDims wf).siIdx (ix1 n) ⟨0, Nat.one_pos⟩ = ix2 n 0 := by
  funext a
  match a with
  | ⟨0, _⟩ => rfl
  | ⟨1, _⟩ => rfl

/-- The update at n lands at g exactly when n's id is g's word. -/
theorem col_resultIdx (hG : G ≤ 2 ^ 31) (wf : ScatterDims.WF ⟨1, ![G]⟩ ⟨2, ![N, 1]⟩ ⟨1, ![N]⟩ [] [0] [0] 1)
    (idx : IVec ⟨2, ![N, 1]⟩ 32) (n : Fin N) (g : Fin G) :
    (colDims wf).resultIdx? (ix1 n) idx = some (ix1 g) ↔ idx (ix2 n 0) = BitVec.ofNat 32 g.val := by
  refine (resultIdx?_eq_some_iff _ _ _ _).trans (Fin.forall_fin_one.trans ?_)
  have s0 : (colDims wf).start (ix1 n) idx 0 = (idx (ix2 n 0)).toInt := by
    show (idx ((colDims wf).siIdx (ix1 n) ⟨0, Nat.one_pos⟩)).toInt = _
    rw [col_siIdx]
  have w0 : (colDims wf).window (ix1 n) 0 = 0 := rfl
  rw [s0, w0, ← toInt_eq_iff _ _ (by have := g.isLt; omega)]
  show _ + ((0 : Nat) : Int) = (g.val : Int) ↔ _
  constructor <;> intro h0 <;> omega

/-- The scatter-add of scalars at place g: the operand's entry plus the updates n whose id is g's word. -/
theorem scatter_col_apply (hG : G ≤ 2 ^ 31) (wf : ScatterDims.WF ⟨1, ![G]⟩ ⟨2, ![N, 1]⟩ ⟨1, ![N]⟩ [] [0] [0] 1)
    (x : FVec Ideal ⟨1, ![G]⟩ .f32) (idx : IVec ⟨2, ![N, 1]⟩ 32) (upd : FVec Ideal ⟨1, ![N]⟩ .f32) (g : Fin G) :
    Host.scatterAdd (colDims wf) x idx upd (ix1 g)
      = x (ix1 g) + ∑ n : Fin N, if idx (ix2 n 0) = BitVec.ofNat 32 g.val then upd (ix1 n) else 0 := by
  show Ideal.hostScatterAdd _ x idx upd (ix1 g) = _
  unfold Ideal.hostScatterAdd
  rw [Finset.sum_filter, sum_idx1]
  simp only [col_resultIdx hG]

end Scatter

/-! ## Columns, row maxima and row sums -/

section Rows
variable {α : Type} {M C : Nat}

/-- A vector laid down the rows of a one-column matrix. -/
theorem col_apply (h : (⟨1, ![M]⟩ : Shape).BroadcastsInDim ⟨2, ![M, 1]⟩ (![0] : Fin 1 → Fin 2))
    (v : (⟨1, ![M]⟩ : Shape).Idx → α) (p : Fin M) (z : Fin 1) :
    broadcastInDim ⟨2, ![M, 1]⟩ (no_index ![0]) h v (ix2 p z) = v (ix1 p) := by
  refine broadcastInDim_apply _ h v _ (ix1 p) fun a => ?_
  match a with
  | ⟨0, _⟩ =>
    show p.val = if M = 1 then 0 else p.val
    split
    · have := p.isLt; omega
    · rfl

/-- A one-column matrix repeated along the columns. -/
theorem cols_apply (h : (⟨2, ![M, 1]⟩ : Shape).BroadcastsInDim ⟨2, ![M, C]⟩ (![0, 1] : Fin 2 → Fin 2))
    (v : (⟨2, ![M, 1]⟩ : Shape).Idx → α) (p : Fin M) (q : Fin C) :
    broadcastInDim ⟨2, ![M, C]⟩ (no_index ![0, 1]) h v (ix2 p q) = v (ix2 p 0) := by
  refine broadcastInDim_apply _ h v _ (ix2 p 0) fun a => ?_
  match a with
  | ⟨0, _⟩ =>
    show p.val = if M = 1 then 0 else p.val
    split
    · have := p.isLt; omega
    · rfl
  | ⟨1, _⟩ => rfl

/-- Dropping the column axis of an M × C shape leaves the M rows. -/
theorem rowReduces : (⟨2, ![M, C]⟩ : Shape).Reduces [1] ⟨1, ![M]⟩ :=
  ⟨rfl, Nat.one_pos, fun b => by match b with | ⟨0, _⟩ => rfl⟩

/-- The index over row p with column c put back. -/
theorem lift_row (h : (⟨2, ![M, C]⟩ : Shape).Reduces [1] ⟨1, ![M]⟩) (p : Fin M) (c : Fin C) : h.lift (ix1 p) c = ix2 p c := by
  funext a
  match a with
  | ⟨0, _⟩ => rfl
  | ⟨1, _⟩ => rfl

/-- The host's maximum along the columns, at row p: the fold of max over the row from the initial value. -/
theorem rowMax_apply (h' : (⟨2, ![M, C]⟩ : Shape).ReducesTo [1] ⟨1, ![M]⟩) (hu : 0 < (⟨0, ![]⟩ : Shape).numel)
    (z : FVec Ideal ⟨2, ![M, C]⟩ .f32) (init : FVec Ideal ⟨0, ![]⟩ .f32) (p : Fin M) :
    Host.reduce FloatOps.maximumf z init h' hu (ix1 p) = (Finset.univ : Finset (Fin C)).fold max (init ix0) (fun c => z (ix2 p c)) := by
  rw [Host.reduce_eq_fold_single FloatOps.maximumf z init h' rowReduces hu, eq_ix0 (Shape.Idx.first hu)]
  have e : (z ∘ (rowReduces (M := M) (C := C)).lift (ix1 p)) = fun c : Fin C => z (ix2 p c) :=
    funext fun c => congrArg z (lift_row _ p c)
  exact congrArg (fun f : Fin C → EReal => (Finset.univ : Finset (Fin C)).fold max (init ix0) f) e

/-- The host's sum along the columns, at row p: the initial value plus the sum over the row. -/
theorem rowSum_apply (h' : (⟨2, ![M, C]⟩ : Shape).ReducesTo [1] ⟨1, ![M]⟩) (hu : 0 < (⟨0, ![]⟩ : Shape).numel)
    (x : FVec Ideal ⟨2, ![M, C]⟩ .f32) (init : FVec Ideal ⟨0, ![]⟩ .f32) (p : Fin M) :
    Host.reduceAdd x init h' hu (ix1 p) = init ix0 + ∑ c : Fin C, x (ix2 p c) := by
  show Ideal.hostReduceAdd h' x (init (Shape.Idx.first hu)) (ix1 p) = _
  rw [Ideal.hostReduceAdd_single h' rowReduces, eq_ix0 (Shape.Idx.first hu)]
  exact congrArg _ (Finset.sum_congr rfl fun c _ => congrArg x (lift_row _ p c))

end Rows

/-! ## The head -/

/-- A dense layer of the network at entry (p, q). -/
theorem dense_ix2 {M K N : Nat} (x : Math.Mat M K) (w : Math.Mat K N) (b : Fin N → EReal) (p : Fin M) (q : Fin N) :
    Math.dense x w b (ix2 p q) = (∑ k : Fin K, x (ix2 p k) * w (ix2 k q)) + b q := rfl

/-- The host's x · W + b is the network's dense layer. -/
theorem dense_eq {M K N : Nat} (d : DotDims ⟨2, ![M, K]⟩ ⟨2, ![K, N]⟩ ⟨2, ![M, N]⟩) (hd : d = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨1, ![N]⟩ .f32) :
    (addf (Host.dotGeneral d none x w) (broadcastInDim ⟨2, ![M, N]⟩ ![0, 1] h2 (broadcastInDim ⟨2, ![1, N]⟩ ![1] h1 b)) : Math.Mat M N)
      = Math.dense x w (fun q => b (ix1 q)) := by
  funext i
  obtain ⟨p, q, rfl⟩ : ∃ p q, i = ix2 p q := ⟨i 0, i 1, eq_ix2 i⟩
  rw [dense_ix2, dense_apply d hd]

/-- The reference's elu of a matrix is the network's elu of every entry. -/
theorem eluAll_eq {M N : Nat} (h : (⟨0, ![]⟩ : Shape).BroadcastsInDim ⟨2, ![M, N]⟩ (![] : Fin 0 → Fin 2))
    (x : FVec Ideal ⟨2, ![M, N]⟩ .f32) :
    (select (cmpf .ogt x (broadcastInDim ⟨2, ![M, N]⟩ ![] h (constant (F := Ideal) ⟨0, ![]⟩ .f32 0x00000000#32))) x
      (mulf (broadcastInDim ⟨2, ![M, N]⟩ ![] h (constant (F := Ideal) ⟨0, ![]⟩ .f32 0x3F800000#32))
        (Host.expm1 (select (cmpf .ogt x (broadcastInDim ⟨2, ![M, N]⟩ ![] h (constant (F := Ideal) ⟨0, ![]⟩ .f32 0x00000000#32)))
          (broadcastInDim ⟨2, ![M, N]⟩ ![] h (id (constant (F := Ideal) ⟨0, ![]⟩ .f32 0x00000000#32))) x))) : Math.Mat M N)
      = Math.eluAll x :=
  funext fun i => elu_apply h x i

/-- The network's per-graph mean at entry (g, c), the membership test written out. -/
theorem graphMean_ix2 {N G D : Nat} (h : Math.Mat N D) (batch : Fin N → BitVec 32) (g : Fin G) (c : Fin D) :
    Math.graphMean (G := G) h batch (ix2 g c)
      = Ideal.div (∑ n : Fin N, if batch n = BitVec.ofNat 32 g.val then h (ix2 n c) else 0)
          (max (∑ n : Fin N, if batch n = BitVec.ofNat 32 g.val then (1 : EReal) else 0) Math.one) := rfl

/-- The network's log-softmax at entry (p, q). -/
theorem logSoftmax_ix2 {M C : Nat} (z : Math.Mat M C) (p : Fin M) (q : Fin C) :
    Math.logSoftmax z (ix2 p q)
      = (z (ix2 p q) - max Math.ninf (Math.rowMax z p))
          - Ideal.log (Math.zero + ∑ c : Fin C, Ideal.exp (z (ix2 p c) - max Math.ninf (Math.rowMax z p))) := rfl

variable [Cert.ReferenceIdeal.Facts]
open Facts₀ Facts

theorem layer1_eq (agg h : FVec Ideal S50000x128 .f32) (wrel : FVec Ideal S128x128 .f32) (b : FVec Ideal S128 .f32) (wroot : FVec Ideal S128x128 .f32) :
    (RefVal.layer1 (F := Ideal) agg h wrel b wroot : Math.Mat 50000 128) = Math.conv agg h wrel (fun q => b (ix1 q)) wroot := by
  funext i
  obtain ⟨p, q, rfl⟩ : ∃ p q, i = ix2 p q := ⟨i 0, i 1, eq_ix2 i⟩
  rw [conv_ix2]
  unfold RefVal.layer1 RefVal.elu128
  rw [elu_apply, conv_apply dot_S50000x128_S128x128_S50000x128_1_0_0_1_n_n rfl]

theorem layer2_eq (agg h : FVec Ideal S50000x128 .f32) (wrel : FVec Ideal S128x256 .f32) (b : FVec Ideal S256 .f32) (wroot : FVec Ideal S128x256 .f32) :
    (RefVal.layer2 (F := Ideal) agg h wrel b wroot : Math.Mat 50000 256) = Math.conv agg h wrel (fun q => b (ix1 q)) wroot := by
  funext i
  obtain ⟨p, q, rfl⟩ : ∃ p q, i = ix2 p q := ⟨i 0, i 1, eq_ix2 i⟩
  rw [conv_ix2]
  unfold RefVal.layer2 RefVal.elu256
  rw [elu_apply, conv_apply dot_S50000x128_S128x256_S50000x256_1_0_0_1_n_n rfl]

theorem layer3_eq (agg h : FVec Ideal S50000x256 .f32) (wrel : FVec Ideal S256x256 .f32) (b : FVec Ideal S256 .f32) (wroot : FVec Ideal S256x256 .f32) :
    (RefVal.layer3 (F := Ideal) agg h wrel b wroot : Math.Mat 50000 256) = Math.conv agg h wrel (fun q => b (ix1 q)) wroot := by
  funext i
  obtain ⟨p, q, rfl⟩ : ∃ p q, i = ix2 p q := ⟨i 0, i 1, eq_ix2 i⟩
  rw [conv_ix2]
  unfold RefVal.layer3 RefVal.elu256
  rw [elu_apply, conv_apply dot_S50000x256_S256x256_S50000x256_1_0_0_1_n_n rfl]

/-- The reference's pooling is the per-graph mean: its two scatter-adds are the per-graph sums and counts. -/
theorem pooled_eq (h : FVec Ideal S50000x256 .f32) (batch : IVec S50000 32) :
    (RefVal.pooled (F := Ideal) h batch : Math.Mat 512 256) = Math.graphMean h (fun n => batch (ix1 n)) := by
  funext i
  obtain ⟨g, c, rfl⟩ : ∃ g c, i = ix2 g c := ⟨i 0, i 1, eq_ix2 i⟩
  rw [graphMean_ix2]
  unfold RefVal.pooled Host.divf scatter_S512x256_S50000x1_S50000x256_1_0_0_1 scatter_S512_S50000x1_S50000_n_0_0_1
  rw [Ideal.hostDivf_def, cols_apply, col_apply, maximumf_apply, scatter_rows_apply (by norm_num), scatter_col_apply (by norm_num)]
  simp only [col_apply, splat_apply, constant_apply, Ideal.ofBits_zero_f32, zero_add, one_eq]

/-- The reference's log-softmax is the network's. -/
theorem logSoftmax_eq (z : FVec Ideal S512x10 .f32) : (RefVal.logSoftmax (F := Ideal) z : Math.Mat 512 10) = Math.logSoftmax z := by
  funext i
  obtain ⟨p, q, rfl⟩ : ∃ p q, i = ix2 p q := ⟨i 0, i 1, eq_ix2 i⟩
  rw [logSoftmax_ix2]
  unfold RefVal.logSoftmax
  simp only [subf_apply, cols_apply, col_apply, maximumf_apply, splat_apply, constant_apply, rowMax_apply, rowSum_apply, Host.log,
    Host.exp, Ideal.hostUnary_exp_def, Ideal.hostUnary_log_def]
  rfl

theorem head_eq (h : FVec Ideal S50000x256 .f32) (batch : IVec S50000 32) (wm1 : FVec Ideal S256x256 .f32) (bm1 : FVec Ideal S256 .f32)
    (wm2 : FVec Ideal S256x128 .f32) (bm2 : FVec Ideal S128 .f32) (wm3 : FVec Ideal S128x10 .f32) (bm3 : FVec Ideal S10 .f32) :
    (RefVal.head (F := Ideal) h batch wm1 bm1 wm2 bm2 wm3 bm3 : Math.Mat 512 10)
      = Math.head h (fun n => batch (ix1 n)) wm1 (fun q => bm1 (ix1 q)) wm2 (fun q => bm2 (ix1 q)) wm3 (fun q => bm3 (ix1 q)) := by
  unfold RefVal.head RefVal.eluG128 RefVal.eluG256 Math.head
  rw [logSoftmax_eq, pooled_eq, dense_eq dot_S512x256_S256x256_S512x256_1_0_0_1_n_n rfl, eluAll_eq,
    dense_eq dot_S512x256_S256x128_S512x128_1_0_0_1_n_n rfl, eluAll_eq, dense_eq dot_S512x128_S128x10_S512x10_1_0_0_1_n_n rfl]

/-- The reference's output is the network's. -/
theorem refOut_eq (x : FVec Ideal S50000x128 .f32) (ei : IVec S2x800000 32) (batch : IVec S50000 32)
    (w1r : FVec Ideal S128x128 .f32) (b1 : FVec Ideal S128 .f32) (w1t : FVec Ideal S128x128 .f32)
    (w2r : FVec Ideal S128x256 .f32) (b2 : FVec Ideal S256 .f32) (w2t : FVec Ideal S128x256 .f32)
    (w3r : FVec Ideal S256x256 .f32) (b3 : FVec Ideal S256 .f32) (w3t : FVec Ideal S256x256 .f32)
    (wm1 : FVec Ideal S256x256 .f32) (bm1 : FVec Ideal S256 .f32) (wm2 : FVec Ideal S256x128 .f32) (bm2 : FVec Ideal S128 .f32)
    (wm3 : FVec Ideal S128x10 .f32) (bm3 : FVec Ideal S10 .f32) :
    (RefVal.refOut (F := Ideal) x ei batch w1r b1 w1t w2r b2 w2t w3r b3 w3t wm1 bm1 wm2 bm2 wm3 bm3 : Math.Mat 512 10) = Net.out x ei batch w1r b1 w1t w2r b2 w2t w3r b3 w3t wm1 bm1 wm2 bm2 wm3 bm3 := by
  unfold RefVal.refOut Net.out
  simp only [layer1_eq, layer2_eq, layer3_eq, head_eq]

end Cert.RefNet

end
-- ==== Proof.lean ====
/-
  Both programs compute one network, and each runs to the end leaving its arguments alone.

  The network is three graph-convolution layers and a pooling head (Proof/Math.lean, Proof/Net.lean). The kernel program
  runs it as four kernel calls between stretches of host operations; its run names every buffer's final contents
  (Proof/KernelIdeal/Run.lean), and the result array's are the network's output of the arguments (Proof/KNet.lean). The
  reference is a straight line of host operations ending in the same function of the arguments (Proof/RefRun.lean,
  Proof/RefNet.lean). The word-level kernel program runs to the end by the same argument read at the machine's words
  (Proof/Kernel/Run.lean). The idealization rewrote nothing, so there is nothing to preserve.
-/
import proofs.«431204_j57801669869757_2_alg».proof.Defs
import proofs.«431204_j57801669869757_2_alg».proof.Proof.Gen.Kernel
import proofs.«431204_j57801669869757_2_alg».proof.Proof.Gen.KernelIdeal
import proofs.«431204_j57801669869757_2_alg».proof.Proof.Gen.ReferenceIdeal
import proofs.«431204_j57801669869757_2_alg».proof.Proof.Gen.Pre_finite_inputs
import proofs.«431204_j57801669869757_2_alg».proof.Proof.Kernel.Run
import proofs.«431204_j57801669869757_2_alg».proof.Proof.KernelIdeal.Run
import proofs.«431204_j57801669869757_2_alg».proof.Proof.KNet
import proofs.«431204_j57801669869757_2_alg».proof.Proof.RefRun
import proofs.«431204_j57801669869757_2_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments alone. -/
theorem frame_kernel : Cert.frame_Kernel (hKernel := Cert.Kernel.Gen.facts) (hPre_finite_inputs := Cert.Pre_finite_inputs.Gen.facts) :=
  fun m ρ _ => Cert.Kernel.Run.frame (F := Bits) m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Run.frame (F := Ideal) m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the network's output of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.Run.run (F := Ideal) m ρ)
    exact ⟨(h c _ (Cert.KernelIdeal.Run.mem_uc Cert.KernelIdeal.main_v50 (by decide))).trans (Cert.KNet.kernel_out m c),
      (h c _ (Cert.KernelIdeal.Run.mem_uc Cert.KernelIdeal.main_arg0 (by decide))).trans (Cert.KernelIdeal.Run.W8_main_arg0 m c),
      (h c _ (Cert.KernelIdeal.Run.mem_uc Cert.KernelIdeal.main_arg1 (by decide))).trans (Cert.KernelIdeal.Run.W8_main_arg1 m c),
      (h c _ (Cert.KernelIdeal.Run.mem_uc Cert.KernelIdeal.main_arg2 (by decide))).trans (Cert.KernelIdeal.Run.W8_main_arg2 m c),
      (h c _ (Cert.KernelIdeal.Run.mem_uc Cert.KernelIdeal.main_arg3 (by decide))).trans (Cert.KernelIdeal.Run.W8_main_arg3 m c),
      (h c _ (Cert.KernelIdeal.Run.mem_uc Cert.KernelIdeal.main_arg4 (by decide))).trans (Cert.KernelIdeal.Run.W8_main_arg4 m c),
      (h c _ (Cert.KernelIdeal.Run.mem_uc Cert.KernelIdeal.main_arg5 (by decide))).trans (Cert.KernelIdeal.Run.W8_main_arg5 m c),
      (h c _ (Cert.KernelIdeal.Run.mem_uc Cert.KernelIdeal.main_arg6 (by decide))).trans (Cert.KernelIdeal.Run.W8_main_arg6 m c),
      (h c _ (Cert.KernelIdeal.Run.mem_uc Cert.KernelIdeal.main_arg7 (by decide))).trans (Cert.KernelIdeal.Run.W8_main_arg7 m c),
      (h c _ (Cert.KernelIdeal.Run.mem_uc Cert.KernelIdeal.main_arg8 (by decide))).trans (Cert.KernelIdeal.Run.W8_main_arg8 m c),
      (h c _ (Cert.KernelIdeal.Run.mem_uc Cert.KernelIdeal.main_arg9 (by decide))).trans (Cert.KernelIdeal.Run.W8_main_arg9 m c),
      (h c _ (Cert.KernelIdeal.Run.mem_uc Cert.KernelIdeal.main_arg10 (by decide))).trans (Cert.KernelIdeal.Run.W8_main_arg10 m c),
      (h c _ (Cert.KernelIdeal.Run.mem_uc Cert.KernelIdeal.main_arg11 (by decide))).trans (Cert.KernelIdeal.Run.W8_main_arg11 m c),
      (h c _ (Cert.KernelIdeal.Run.mem_uc Cert.KernelIdeal.main_arg12 (by decide))).trans (Cert.KernelIdeal.Run.W8_main_arg12 m c),
      (h c _ (Cert.KernelIdeal.Run.mem_uc Cert.KernelIdeal.main_arg13 (by decide))).trans (Cert.KernelIdeal.Run.W8_main_arg13 m c),
      (h c _ (Cert.KernelIdeal.Run.mem_uc Cert.KernelIdeal.main_arg14 (by decide))).trans (Cert.KernelIdeal.Run.W8_main_arg14 m c),
      (h c _ (Cert.KernelIdeal.Run.mem_uc Cert.KernelIdeal.main_arg15 (by decide))).trans (Cert.KernelIdeal.Run.W8_main_arg15 m c),
      (h c _ (Cert.KernelIdeal.Run.mem_uc Cert.KernelIdeal.main_arg16 (by decide))).trans (Cert.KernelIdeal.Run.W8_main_arg16 m c),
      (h c _ (Cert.KernelIdeal.Run.mem_uc Cert.KernelIdeal.main_arg17 (by decide))).trans (Cert.KernelIdeal.Run.W8_main_arg17 m c)⟩
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
    exact Cert.RefNet.refOut_eq _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
